-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x512 : Shape := ⟨4, ![16, 16, 512, 512]⟩
abbrev S4x4x16 : Shape := ⟨3, ![4, 4, 16]⟩
abbrev S16x512x512x4 : Shape := ⟨4, ![16, 512, 512, 4]⟩
abbrev S16x512x512 : Shape := ⟨3, ![16, 512, 512]⟩
abbrev S512x512 : Shape := ⟨2, ![512, 512]⟩
abbrev S_ : Shape := ⟨0, ![]⟩

class Facts : Prop where
  bcast_S_S16x16x512x512 : S_.BroadcastsInDim S16x16x512x512 (![] : Fin 0 → Fin S16x16x512x512.rank)
  reducesTo_S16x16x512x512_S_d0_1_2_3 : S16x16x512x512.ReducesTo [0, 1, 2, 3] S_
  h_S_ : 0 < S_.numel
  bcast_S_S4x4x16 : S_.BroadcastsInDim S4x4x16 (![] : Fin 0 → Fin S4x4x16.rank)
  reducesTo_S4x4x16_S_d0_1_2 : S4x4x16.ReducesTo [0, 1, 2] S_
  bcast_S_S16x512x512 : S_.BroadcastsInDim S16x512x512 (![] : Fin 0 → Fin S16x512x512.rank)
  reducesTo_S16x512x512_S_d0_1_2 : S16x512x512.ReducesTo [0, 1, 2] S_
  bcast_S_S16x512x512x4 : S_.BroadcastsInDim S16x512x512x4 (![] : Fin 0 → Fin S16x512x512x4.rank)
  reducesTo_S16x512x512x4_S_d0_1_2_3 : S16x512x512x4.ReducesTo [0, 1, 2, 3] S_

variable [Facts]

def fn_part1 {F : FTy → Type} [FloatOps F] (main_arg2 : IVec S16x512x512x4 32) (main_v15 : IVec S_ 1) (main_c_5 : IVec S_ 32) : IVec S_ 1 :=
  let main_v16 : IVec S16x512x512x4 32 := broadcastInDim S16x512x512x4 ![] bcast_S_S16x512x512x4 main_c_5
  let main_v17 : IVec S16x512x512x4 1 := cmpi .sge main_arg2 main_v16
  let main_c_6 : IVec S_ 32 := constantI S_ 32 4#32
  let main_v18 : IVec S16x512x512x4 32 := broadcastInDim S16x512x512x4 ![] bcast_S_S16x512x512x4 main_c_6
  let main_v19 : IVec S16x512x512x4 1 := cmpi .slt main_arg2 main_v18
  let main_v20 : IVec S16x512x512x4 1 := andi main_v17 main_v19
  let main_c_7 : IVec S_ 1 := constantI S_ 1 1#1
  let main_v21 : IVec S_ 1 := (fun x v => Host.reduce IntOp.andi x v reducesTo_S16x512x512x4_S_d0_1_2_3 h_S_) main_v20 main_c_7
  let main_v22 : IVec S_ 1 := andi main_v15 main_v21
  main_v22

def fn {F : FTy → Type} [FloatOps F] (main_arg0 : FVec F S16x16x512x512 .f32) (main_arg1 : FVec F S4x4x16 .f32) (main_arg2 : IVec S16x512x512x4 32) (main_arg3 : IVec S16x512x512 32) (main_arg4 : IVec S512x512 32) (main_arg5 : IVec S16x512x512 1) : IVec S_ 1 :=
  let main_v0 : FVec F S16x16x512x512 .f32 := Host.absf main_arg0
  let main_cst : FVec F S_ .f32 := constant S_ .f32 0x7F800000#32
  let main_v1 : FVec F S16x16x512x512 .f32 := broadcastInDim S16x16x512x512 ![] bcast_S_S16x16x512x512 main_cst
  let main_v2 : IVec S16x16x512x512 1 := cmpf .olt main_v0 main_v1
  let main_c : IVec S_ 1 := constantI S_ 1 1#1
  let main_v3 : IVec S_ 1 := (fun x v => Host.reduce IntOp.andi x v reducesTo_S16x16x512x512_S_d0_1_2_3 h_S_) main_v2 main_c
  let main_v4 : FVec F S4x4x16 .f32 := Host.absf main_arg1
  let main_cst_0 : FVec F S_ .f32 := constant S_ .f32 0x7F800000#32
  let main_v5 : FVec F S4x4x16 .f32 := broadcastInDim S4x4x16 ![] bcast_S_S4x4x16 main_cst_0
  let main_v6 : IVec S4x4x16 1 := cmpf .olt main_v4 main_v5
  let main_c_1 : IVec S_ 1 := constantI S_ 1 1#1
  let main_v7 : IVec S_ 1 := (fun x v => Host.reduce IntOp.andi x v reducesTo_S4x4x16_S_d0_1_2 h_S_) main_v6 main_c_1
  let main_v8 : IVec S_ 1 := andi main_v3 main_v7
  let main_c_2 : IVec S_ 32 := constantI S_ 32 0#32
  let main_v9 : IVec S16x512x512 32 := broadcastInDim S16x512x512 ![] bcast_S_S16x512x512 main_c_2
  let main_v10 : IVec S16x512x512 1 := cmpi .sge main_arg3 main_v9
  let main_c_3 : IVec S_ 32 := constantI S_ 32 4#32
  let main_v11 : IVec S16x512x512 32 := broadcastInDim S16x512x512 ![] bcast_S_S16x512x512 main_c_3
  let main_v12 : IVec S16x512x512 1 := cmpi .slt main_arg3 main_v11
  let main_v13 : IVec S16x512x512 1 := andi main_v10 main_v12
  let main_c_4 : IVec S_ 1 := constantI S_ 1 1#1
  let main_v14 : IVec S_ 1 := (fun x v => Host.reduce IntOp.andi x v reducesTo_S16x512x512_S_d0_1_2 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S16x16x512x512 : Shape := ⟨4, ![16, 16, 512, 512]⟩
abbrev S4x4x16 : Shape := ⟨3, ![4, 4, 16]⟩
abbrev S16x512x512x4 : Shape := ⟨4, ![16, 512, 512, 4]⟩
abbrev S16x512x512 : Shape := ⟨3, ![16, 512, 512]⟩
abbrev S512x512 : Shape := ⟨2, ![512, 512]⟩
abbrev S16x512x512x1 : Shape := ⟨4, ![16, 512, 512, 1]⟩
abbrev S_ : Shape := ⟨0, ![]⟩
abbrev S16x512x512x1x1 : Shape := ⟨5, ![16, 512, 512, 1, 1]⟩
abbrev S1 : Shape := ⟨1, ![1]⟩
abbrev S1x1x1x1x1 : Shape := ⟨5, ![1, 1, 1, 1, 1]⟩
abbrev S1x512x512 : Shape := ⟨3, ![1, 512, 512]⟩
abbrev S4x12x16 : Shape := ⟨3, ![4, 12, 16]⟩
abbrev S4x12x1 : Shape := ⟨3, ![4, 12, 1]⟩
abbrev S1x16x128x512 : Shape := ⟨4, ![1, 16, 128, 512]⟩
abbrev S1x128x512 : Shape := ⟨3, ![1, 128, 512]⟩
abbrev S1x12x16 : Shape := ⟨3, ![1, 12, 16]⟩
abbrev S1x12x1 : Shape := ⟨3, ![1, 12, 1]⟩
abbrev S12x16 : Shape := ⟨2, ![12, 16]⟩
abbrev S12x1 : Shape := ⟨2, ![12, 1]⟩
abbrev S16x128x512 : Shape := ⟨3, ![16, 128, 512]⟩
abbrev S128x512 : Shape := ⟨2, ![128, 512]⟩
abbrev S16x128 : Shape := ⟨2, ![16, 128]⟩
abbrev S16x128x1 : Shape := ⟨3, ![16, 128, 1]⟩
abbrev S16x1 : Shape := ⟨2, ![16, 1]⟩
abbrev S16x1x1 : Shape := ⟨3, ![16, 1, 1]⟩
abbrev S1x16 : Shape := ⟨2, ![1, 16]⟩
abbrev S128 : Shape := ⟨1, ![128]⟩
abbrev S128x1 : Shape := ⟨2, ![128, 1]⟩
abbrev S1x1 : Shape := ⟨2, ![1, 1]⟩
abbrev S16x16 : Shape := ⟨2, ![16, 16]⟩
abbrev S4x16 : Shape := ⟨2, ![4, 16]⟩
abbrev S12 : Shape := ⟨1, ![12]⟩
abbrev S4 : Shape := ⟨1, ![4]⟩
abbrev S4x1 : Shape := ⟨2, ![4, 1]⟩

abbrev nBuf : Space → Nat
  | .hbm => 95
  | .vmem => 10
  | .smem => 0
  | _ => 0

abbrev bufTy : (tb : Table) → Fin (tcTables nBuf tb) → BufTy
  | .hbm, ⟨0, _⟩ => ⟨S16x16x512x512, .f32⟩
  | .hbm, ⟨1, _⟩ => ⟨S4x4x16, .f32⟩
  | .hbm, ⟨2, _⟩ => ⟨S16x512x512x4, .i32⟩
  | .hbm, ⟨3, _⟩ => ⟨S16x512x512, .i32⟩
  | .hbm, ⟨4, _⟩ => ⟨S512x512, .i32⟩
  | .hbm, ⟨5, _⟩ => ⟨S16x512x512, .i1⟩
  | .hbm, ⟨6, _⟩ => ⟨S16x512x512x1, .i32⟩
  | .hbm, ⟨7, _⟩ => ⟨S_, .i32⟩
  | .hbm, ⟨8, _⟩ => ⟨S16x512x512x1, .i32⟩
  | .hbm, ⟨9, _⟩ => ⟨S16x512x512x1, .i1⟩
  | .hbm, ⟨10, _⟩ => ⟨S_, .i32⟩
  | .hbm, ⟨11, _⟩ => ⟨S16x512x512x1, .i32⟩
  | .hbm, ⟨12, _⟩ => ⟨S16x512x512x1, .i32⟩
  | .hbm, ⟨13, _⟩ => ⟨S16x512x512x1, .i32⟩
  | .hbm, ⟨14, _⟩ => ⟨S16x512x512x1x1, .i32⟩
  | .hbm, ⟨15, _⟩ => ⟨S1, .i32⟩
  | .hbm, ⟨16, _⟩ => ⟨S_, .i32⟩
  | .hbm, ⟨17, _⟩ => ⟨S16x512x512x1x1, .i32⟩
  | .hbm, ⟨18, _⟩ => ⟨S16x512x512x1x1, .i1⟩
  | .hbm, ⟨19, _⟩ => ⟨S1x1x1x1x1, .i32⟩
  | .hbm, ⟨20, _⟩ => ⟨S16x512x512x1x1, .i32⟩
  | .hbm, ⟨21, _⟩ => ⟨S16x512x512x1x1, .i1⟩
  | .hbm, ⟨22, _⟩ => ⟨S16x512x512x1x1, .i1⟩
  | .hbm, ⟨23, _⟩ => ⟨S_, .i1⟩
  | .hbm, ⟨24, _⟩ => ⟨S16x512x512x1, .i1⟩
  | .hbm, ⟨25, _⟩ => ⟨S16x512x512x1, .i32⟩
  | .hbm, ⟨26, _⟩ => ⟨S_, .i32⟩
  | .hbm, ⟨27, _⟩ => ⟨S16x512x512x1, .i32⟩
  | .hbm, ⟨28, _⟩ => ⟨S16x512x512x1, .i32⟩
  | .hbm, ⟨29, _⟩ => ⟨S16x512x512, .i32⟩
  | .hbm, ⟨30, _⟩ => ⟨S1x512x512, .i32⟩
  | .hbm, ⟨31, _⟩ => ⟨S_, .i32⟩
  | .hbm, ⟨32, _⟩ => ⟨S1x512x512, .i32⟩
  | .hbm, ⟨33, _⟩ => ⟨S1x512x512, .i1⟩
  | .hbm, ⟨34, _⟩ => ⟨S_, .i32⟩
  | .hbm, ⟨35, _⟩ => ⟨S16x512x512, .i32⟩
  | .hbm, ⟨36, _⟩ => ⟨S16x512x512, .i1⟩
  | .hbm, ⟨37, _⟩ => ⟨S16x512x512, .i1⟩
  | .hbm, ⟨38, _⟩ => ⟨S16x512x512, .i1⟩
  | .hbm, ⟨39, _⟩ => ⟨S16x512x512, .i1⟩
  | .hbm, ⟨40, _⟩ => ⟨S_, .i32⟩
  | .hbm, ⟨41, _⟩ => ⟨S16x512x512, .i32⟩
  | .hbm, ⟨42, _⟩ => ⟨S16x512x512, .i32⟩
  | .hbm, ⟨43, _⟩ => ⟨S16x512x512, .i32⟩
  | .hbm, ⟨44, _⟩ => ⟨S_, .i32⟩
  | .hbm, ⟨45, _⟩ => ⟨S16x512x512, .i32⟩
  | .hbm, ⟨46, _⟩ => ⟨S16x512x512, .i32⟩
  | .hbm, ⟨47, _⟩ => ⟨S4x12x16, .f32⟩
  | .hbm, ⟨48, _⟩ => ⟨S4x12x1, .f32⟩
  | .hbm, ⟨49, _⟩ => ⟨S_, .f32⟩
  | .hbm, ⟨50, _⟩ => ⟨S12x16, .f32⟩
  | .hbm, ⟨51, _⟩ => ⟨S_, .f32⟩
  | .hbm, ⟨52, _⟩ => ⟨S12x1, .f32⟩
  | .hbm, ⟨53, _⟩ => ⟨S16x16, .f32⟩
  | .hbm, ⟨54, _⟩ => ⟨S12x16, .f32⟩
  | .hbm, ⟨55, _⟩ => ⟨S4x16, .f32⟩
  | .hbm, ⟨56, _⟩ => ⟨S_, .f32⟩
  | .hbm, ⟨57, _⟩ => ⟨S12x1, .f32⟩
  | .hbm, ⟨58, _⟩ => ⟨S12x1, .f32⟩
  | .hbm, ⟨59, _⟩ => ⟨S12x16, .f32⟩
  | .hbm, ⟨60, _⟩ => ⟨S12x16, .f32⟩
  | .hbm, ⟨61, _⟩ => ⟨S_, .f32⟩
  | .hbm, ⟨62, _⟩ => ⟨S12x1, .f32⟩
  | .hbm, ⟨63, _⟩ => ⟨S12x1, .i1⟩
  | .hbm, ⟨64, _⟩ => ⟨S_, .f32⟩
  | .hbm, ⟨65, _⟩ => ⟨S12x16, .f32⟩
  | .hbm, ⟨66, _⟩ => ⟨S12x16, .f32⟩
  | .hbm, ⟨67, _⟩ => ⟨S_, .f32⟩
  | .hbm, ⟨68, _⟩ => ⟨S12x16, .f32⟩
  | .hbm, ⟨69, _⟩ => ⟨S12x16, .f32⟩
  | .hbm, ⟨70, _⟩ => ⟨S12x16, .f32⟩
  | .hbm, ⟨71, _⟩ => ⟨S12x16, .i1⟩
  | .hbm, ⟨72, _⟩ => ⟨S12x16, .f32⟩
  | .hbm, ⟨73, _⟩ => ⟨S12x16, .f32⟩
  | .hbm, ⟨74, _⟩ => ⟨S_, .f32⟩
  | .hbm, ⟨75, _⟩ => ⟨S12, .f32⟩
  | .hbm, ⟨76, _⟩ => ⟨S12x1, .f32⟩
  | .hbm, ⟨77, _⟩ => ⟨S12x1, .f32⟩
  | .hbm, ⟨78, _⟩ => ⟨S_, .f32⟩
  | .hbm, ⟨79, _⟩ => ⟨S12x1, .f32⟩
  | .hbm, ⟨80, _⟩ => ⟨S12x1, .f32⟩
  | .hbm, ⟨81, _⟩ => ⟨S12x16, .f32⟩
  | .hbm, ⟨82, _⟩ => ⟨S12x16, .f32⟩
  | .hbm, ⟨83, _⟩ => ⟨S4x16, .f32⟩
  | .hbm, ⟨84, _⟩ => ⟨S_, .f32⟩
  | .hbm, ⟨85, _⟩ => ⟨S4, .f32⟩
  | .hbm, ⟨86, _⟩ => ⟨S4x1, .f32⟩
  | .hbm, ⟨87, _⟩ => ⟨S4x1, .f32⟩
  | .hbm, ⟨88, _⟩ => ⟨S_, .f32⟩
  | .hbm, ⟨89, _⟩ => ⟨S4x1, .f32⟩
  | .hbm, ⟨90, _⟩ => ⟨S4x1, .f32⟩
  | .hbm, ⟨91, _⟩ => ⟨S4x16, .f32⟩
  | .hbm, ⟨92, _⟩ => ⟨S4x16, .f32⟩
  | .hbm, ⟨93, _⟩ => ⟨S16x16, .f32⟩
  | .hbm, ⟨94, _⟩ => ⟨S4x4x16, .f32⟩
  | .local _ .vmem, ⟨0, _⟩ => ⟨S1x16x128x512, .f32⟩
  | .local _ .vmem, ⟨1, _⟩ => ⟨S1x16x128x512, .f32⟩
  | .local _ .vmem, ⟨2, _⟩ => ⟨S1x128x512, .i32⟩
  | .local _ .vmem, ⟨3, _⟩ => ⟨S1x128x512, .i32⟩
  | .local _ .vmem, ⟨4, _⟩ => ⟨S1x12x16, .f32⟩
  | .local _ .vmem, ⟨5, _⟩ => ⟨S1x12x16, .f32⟩
  | .local _ .vmem, ⟨6, _⟩ => ⟨S1x12x1, .f32⟩
  | .local _ .vmem, ⟨7, _⟩ => ⟨S1x12x1, .f32⟩
  | .local _ .vmem, ⟨8, _⟩ => ⟨S12x16, .f32⟩
  | .local _ .vmem, ⟨9, _⟩ => ⟨S12x1, .f32⟩
  | _, _ => ⟨S16x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_c_4 : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_call1_v0 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev main_cst : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_cst_6 : Ref sig .tc := ⟨.hbm, 64, rfl⟩
abbrev main_v27 : Ref sig .tc := ⟨.hbm, 65, rfl⟩
abbrev main_v28 : Ref sig .tc := ⟨.hbm, 66, rfl⟩
abbrev main_cst_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call2_v0 : Ref sig .tc := ⟨.hbm, 71, rfl⟩
abbrev main_v32 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v33 : Ref sig .tc := ⟨.hbm, 77, rfl⟩
abbrev main_cst_8 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_call4_v2 : Ref sig .tc := ⟨.hbm, 86, rfl⟩
abbrev main_v38 : Ref sig .tc := ⟨.hbm, 87, rfl⟩
abbrev main_cst_9 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32_62 : BitVec 32 := 15#32
  let v211 : BitVec 1 := Scalar.cmpi .eq arg1 c15_i32_62
  let v212 : BitVec 32 := Scalar.extui v211
  let c0_i32_63 : BitVec 32 := 0#32
  let v213 : BitVec 1 := Scalar.cmpi .ne v212 c0_i32_63
  v213

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x12x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x12x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16x512x512_S16x512x512x1_0_1_2 : S16x512x512.BroadcastsInDim S16x512x512x1 (![0, 1, 2] : Fin 3 → Fin S16x512x512x1.rank)
  bcast_S_S16x512x512x1 : S_.BroadcastsInDim S16x512x512x1 (![] : Fin 0 → Fin S16x512x512x1.rank)
  shapeCasts_S16x512x512x1_S16x512x512x1x1 : S16x512x512x1.ShapeCasts S16x512x512x1x1
  bcast_S_S16x512x512x1x1 : S_.BroadcastsInDim S16x512x512x1x1 (![] : Fin 0 → Fin S16x512x512x1x1.rank)
  bcast_S1_S1x1x1x1x1_4 : S1.BroadcastsInDim S1x1x1x1x1 (![4] : Fin 1 → Fin S1x1x1x1x1.rank)
  bcast_S1x1x1x1x1_S16x512x512x1x1_0_1_2_3_4 : S1x1x1x1x1.BroadcastsInDim S16x512x512x1x1 (![0, 1, 2, 3, 4] : Fin 5 → Fin S16x512x512x1x1.rank)
  reducesTo_S16x512x512x1x1_S16x512x512x1_d4 : S16x512x512x1x1.ReducesTo [4] S16x512x512x1
  h_S_ : 0 < S_.numel
  shapeCasts_S16x512x512x1_S16x512x512 : S16x512x512x1.ShapeCasts S16x512x512
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S_S16x512x512 : S_.BroadcastsInDim S16x512x512 (![] : Fin 0 → Fin S16x512x512.rank)
  bcast_S1x512x512_S16x512x512_0_1_2 : S1x512x512.BroadcastsInDim S16x512x512 (![0, 1, 2] : Fin 3 → Fin S16x512x512.rank)
  inb_S12x16_S12x16_0_0 : ∀ a, (![0, 0] : Fin 2 → Nat) a + S12x16.size a ≤ S12x16.size a
  h_S12x16 : 0 < S12x16.numel
  shapeCasts_S12x16_S12x16 : S12x16.ShapeCasts S12x16
  inb_S12x1_S12x1_0_0 : ∀ a, (![0, 0] : Fin 2 → Nat) a + S12x1.size a ≤ S12x1.size a
  h_S12x1 : 0 < S12x1.numel
  shapeCasts_S12x1_S12x1 : S12x1.ShapeCasts S12x1
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  natLt_1_32 : 1 < 32
  shapeCasts_S128x512_S1x128x512 : S128x512.ShapeCasts S1x128x512
  broadcasts_S1x128x512_S16x128x512 : S1x128x512.Broadcasts S16x128x512
  reduces_S16x128x512_S16x128 : S16x128x512.Reduces [2] S16x128
  shapeCasts_S16x128_S16x128x1 : S16x128.ShapeCasts S16x128x1
  reduces_S16x128x1_S16x1 : S16x128x1.Reduces [1] S16x1
  shapeCasts_S16x1_S16x1x1 : S16x1.ShapeCasts S16x1x1
  shapeCasts_S16x1x1_S1x16 : S16x1x1.ShapeCasts S1x16
  reduces_S128x512_S128 : S128x512.Reduces [1] S128
  shapeCasts_S128_S128x1 : S128.ShapeCasts S128x1
  reduces_S128x1_S1 : S128x1.Reduces [0] S1
  shapeCasts_S1_S1x1 : S1.ShapeCasts S1x1
  concatenates_S1x16_S1x16_S1x16_S1x16_S1x16_S1x16_S1x16_S1x16_S1x16_S1x16_S1x16_S1x16_S12x16_d0 : Shape.Concatenates [S1x16, S1x16, S1x16, S1x16, S1x16, S1x16, S1x16, S1x16, S1x16, S1x16, S1x16, S1x16] S12x16 0
  concatenates_S1x1_S1x1_S1x1_S1x1_S1x1_S1x1_S1x1_S1x1_S1x1_S1x1_S1x1_S1x1_S12x1_d0 : Shape.Concatenates [S1x1, S1x1, S1x1, S1x1, S1x1, S1x1, S1x1, S1x1, S1x1, S1x1, S1x1, S1x1] S12x1 0
  inb_S1x12x16_S1x12x16_0_0_0 : ∀ a, (![0, 0, 0] : Fin 3 → Nat) a + S1x12x16.size a ≤ S1x12x16.size a
  h_S1x12x16 : 0 < S1x12x16.numel
  shapeCasts_S1x12x16_S12x16 : S1x12x16.ShapeCasts S12x16
  shapeCasts_S12x16_S1x12x16 : S12x16.ShapeCasts S1x12x16
  inb_S1x12x1_S1x12x1_0_0_0 : ∀ a, (![0, 0, 0] : Fin 3 → Nat) a + S1x12x1.size a ≤ S1x12x1.size a
  h_S1x12x1 : 0 < S1x12x1.numel
  shapeCasts_S1x12x1_S12x1 : S1x12x1.ShapeCasts S12x1
  shapeCasts_S12x1_S1x12x1 : S12x1.ShapeCasts S1x12x1
  reducesTo_S4x12x16_S12x16_d0 : S4x12x16.ReducesTo [0] S12x16
  reducesTo_S4x12x1_S12x1_d0 : S4x12x1.ReducesTo [0] S12x1
  shapeCasts_S4x4x16_S16x16 : S4x4x16.ShapeCasts S16x16
  slices_S16x16_S12x16_4_0 : S16x16.Slices ![4, 0] S12x16
  slices_S16x16_S4x16_0_0 : S16x16.Slices ![0, 0] S4x16
  bcast_S_S12x1 : S_.BroadcastsInDim S12x1 (![] : Fin 0 → Fin S12x1.rank)
  bcast_S12x1_S12x16_0_1 : S12x1.BroadcastsInDim S12x16 (![0, 1] : Fin 2 → Fin S12x16.rank)
  bcast_S_S12x16 : S_.BroadcastsInDim S12x16 (![] : Fin 0 → Fin S12x16.rank)
  reducesTo_S12x16_S12_d1 : S12x16.ReducesTo [1] S12
  bcast_S12_S12x1_0 : S12.BroadcastsInDim S12x1 (![0] : Fin 1 → Fin S12x1.rank)
  reducesTo_S4x16_S4_d1 : S4x16.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16_0_1 : S4x1.BroadcastsInDim S4x16 (![0, 1] : Fin 2 → Fin S4x16.rank)
  concatenates_S4x16_S12x16_S16x16_d0 : Shape.Concatenates [S4x16, S12x16] S16x16 0
  shapeCasts_S16x16_S4x4x16 : S16x16.ShapeCasts S4x4x16
  gather_S16x512x512x4_S16x512x512x1x1_S16x512x512x1_n_3_012_012_3_4_1111_wf : GatherDims.WF S16x512x512x4 S16x512x512x1x1 S16x512x512x1 [] [3] [0, 1, 2] [3] [0, 1, 2] 4 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x512.size a ≤ S16x16x512x512.size a
  hwx0_0 : ∀ i : grid0.Coords, EltTy.bits .f32 = 32 ∨ (Rect.block (s := S16x16x512x512) S1x16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S16x512x512.size a
  hwx0_1 : ∀ i : grid0.Coords, EltTy.bits .i32 = 32 ∨ (Rect.block (s := S16x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x16.size a ≤ S4x12x16.size a
  hwx0_2 : ∀ i : grid0.Coords, EltTy.bits .f32 = 32 ∨ (Rect.block (s := S4x12x16) S1x12x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x1.size a ≤ S4x12x1.size a
  hwx0_3 : ∀ i : grid0.Coords, EltTy.bits .f32 = 32 ∨ (Rect.block (s := S4x12x1) S1x12x1.size (cc0_transform_3 i) (hinb0_3 i)).WholeWords (EltTy.packing .f32)

variable [Facts₀]

def gather_S16x512x512x4_S16x512x512x1x1_S16x512x512x1_n_3_012_012_3_4_1111 : GatherDims S16x512x512x4 S16x512x512x1x1 S16x512x512x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S16x512x512x4_S16x512x512x1x1_S16x512x512x1_n_3_012_012_3_4_1111_wf

abbrev win0_0 : Pipeline.Window sig grid0 :=
  Pipeline.Window.ofSpec (Memref.whole main_arg0) S1x16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S1x12x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S1x12x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x16x512x512 : Shape := ⟨4, ![16, 16, 512, 512]⟩
abbrev S4x4x16 : Shape := ⟨3, ![4, 4, 16]⟩
abbrev S16x512x512x4 : Shape := ⟨4, ![16, 512, 512, 4]⟩
abbrev S16x512x512 : Shape := ⟨3, ![16, 512, 512]⟩
abbrev S512x512 : Shape := ⟨2, ![512, 512]⟩
abbrev S1x512x512 : Shape := ⟨3, ![1, 512, 512]⟩
abbrev S_ : Shape := ⟨0, ![]⟩
abbrev S16x512x512x1 : Shape := ⟨4, ![16, 512, 512, 1]⟩
abbrev S16x512x512x1x1 : Shape := ⟨5, ![16, 512, 512, 1, 1]⟩
abbrev S1 : Shape := ⟨1, ![1]⟩
abbrev S1x1x1x1x1 : Shape := ⟨5, ![1, 1, 1, 1, 1]⟩
abbrev S4194304 : Shape := ⟨1, ![4194304]⟩
abbrev S16x512x512x16 : Shape := ⟨4, ![16, 512, 512, 16]⟩
abbrev S4194304x16 : Shape := ⟨2, ![4194304, 16]⟩
abbrev S4194304x1 : Shape := ⟨2, ![4194304, 1]⟩
abbrev S16x16 : Shape := ⟨2, ![16, 16]⟩
abbrev S16 : Shape := ⟨1, ![16]⟩
abbrev S16x1 : Shape := ⟨2, ![16, 1]⟩

abbrev nBuf : Space → Nat
  | .hbm => 91
  | .vmem => 0
  | .smem => 0
  | _ => 0

abbrev bufTy : (tb : Table) → Fin (tcTables nBuf tb) → BufTy
  | .hbm, ⟨0, _⟩ => ⟨S16x16x512x512, .f32⟩
  | .hbm, ⟨1, _⟩ => ⟨S4x4x16, .f32⟩
  | .hbm, ⟨2, _⟩ => ⟨S16x512x512x4, .i32⟩
  | .hbm, ⟨3, _⟩ => ⟨S16x512x512, .i32⟩
  | .hbm, ⟨4, _⟩ => ⟨S512x512, .i32⟩
  | .hbm, ⟨5, _⟩ => ⟨S16x512x512, .i1⟩
  | .hbm, ⟨6, _⟩ => ⟨S1x512x512, .i32⟩
  | .hbm, ⟨7, _⟩ => ⟨S_, .i32⟩
  | .hbm, ⟨8, _⟩ => ⟨S1x512x512, .i32⟩
  | .hbm, ⟨9, _⟩ => ⟨S1x512x512, .i1⟩
  | .hbm, ⟨10, _⟩ => ⟨S_, .i32⟩
  | .hbm, ⟨11, _⟩ => ⟨S16x512x512, .i32⟩
  | .hbm, ⟨12, _⟩ => ⟨S16x512x512, .i1⟩
  | .hbm, ⟨13, _⟩ => ⟨S16x512x512, .i1⟩
  | .hbm, ⟨14, _⟩ => ⟨S16x512x512, .i1⟩
  | .hbm, ⟨15, _⟩ => ⟨S16x512x512, .i1⟩
  | .hbm, ⟨16, _⟩ => ⟨S16x512x512x1, .i32⟩
  | .hbm, ⟨17, _⟩ => ⟨S_, .i32⟩
  | .hbm, ⟨18, _⟩ => ⟨S16x512x512x1, .i32⟩
  | .hbm, ⟨19, _⟩ => ⟨S16x512x512x1, .i1⟩
  | .hbm, ⟨20, _⟩ => ⟨S_, .i32⟩
  | .hbm, ⟨21, _⟩ => ⟨S16x512x512x1, .i32⟩
  | .hbm, ⟨22, _⟩ => ⟨S16x512x512x1, .i32⟩
  | .hbm, ⟨23, _⟩ => ⟨S16x512x512x1, .i32⟩
  | .hbm, ⟨24, _⟩ => ⟨S16x512x512x1x1, .i32⟩
  | .hbm, ⟨25, _⟩ => ⟨S1, .i32⟩
  | .hbm, ⟨26, _⟩ => ⟨S_, .i32⟩
  | .hbm, ⟨27, _⟩ => ⟨S16x512x512x1x1, .i32⟩
  | .hbm, ⟨28, _⟩ => ⟨S16x512x512x1x1, .i1⟩
  | .hbm, ⟨29, _⟩ => ⟨S1x1x1x1x1, .i32⟩
  | .hbm, ⟨30, _⟩ => ⟨S16x512x512x1x1, .i32⟩
  | .hbm, ⟨31, _⟩ => ⟨S16x512x512x1x1, .i1⟩
  | .hbm, ⟨32, _⟩ => ⟨S16x512x512x1x1, .i1⟩
  | .hbm, ⟨33, _⟩ => ⟨S_, .i1⟩
  | .hbm, ⟨34, _⟩ => ⟨S16x512x512x1, .i1⟩
  | .hbm, ⟨35, _⟩ => ⟨S16x512x512x1, .i32⟩
  | .hbm, ⟨36, _⟩ => ⟨S_, .i32⟩
  | .hbm, ⟨37, _⟩ => ⟨S16x512x512x1, .i32⟩
  | .hbm, ⟨38, _⟩ => ⟨S16x512x512x1, .i32⟩
  | .hbm, ⟨39, _⟩ => ⟨S16x512x512, .i32⟩
  | .hbm, ⟨40, _⟩ => ⟨S_, .i32⟩
  | .hbm, ⟨41, _⟩ => ⟨S16x512x512, .i32⟩
  | .hbm, ⟨42, _⟩ => ⟨S16x512x512, .i32⟩
  | .hbm, ⟨43, _⟩ => ⟨S16x512x512, .i32⟩
  | .hbm, ⟨44, _⟩ => ⟨S4194304, .i32⟩
  | .hbm, ⟨45, _⟩ => ⟨S16x512x512, .f32⟩
  | .hbm, ⟨46, _⟩ => ⟨S4194304, .f32⟩
  | .hbm, ⟨47, _⟩ => ⟨S16x512x512x16, .f32⟩
  | .hbm, ⟨48, _⟩ => ⟨S4194304x16, .f32⟩
  | .hbm, ⟨49, _⟩ => ⟨S4194304x1, .f32⟩
  | .hbm, ⟨50, _⟩ => ⟨S4194304x16, .f32⟩
  | .hbm, ⟨51, _⟩ => ⟨S4194304x16, .f32⟩
  | .hbm, ⟨52, _⟩ => ⟨S_, .f32⟩
  | .hbm, ⟨53, _⟩ => ⟨S16x16, .f32⟩
  | .hbm, ⟨54, _⟩ => ⟨S4194304x1, .i32⟩
  | .hbm, ⟨55, _⟩ => ⟨S16x16, .f32⟩
  | .hbm, ⟨56, _⟩ => ⟨S_, .f32⟩
  | .hbm, ⟨57, _⟩ => ⟨S16, .f32⟩
  | .hbm, ⟨58, _⟩ => ⟨S4194304x1, .i32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16x1, .f32⟩
  | .hbm, ⟨64, _⟩ => ⟨S16x16, .f32⟩
  | .hbm, ⟨65, _⟩ => ⟨S16x16, .f32⟩
  | .hbm, ⟨66, _⟩ => ⟨S16x16, .f32⟩
  | .hbm, ⟨67, _⟩ => ⟨S_, .f32⟩
  | .hbm, ⟨68, _⟩ => ⟨S16, .f32⟩
  | .hbm, ⟨69, _⟩ => ⟨S16, .i1⟩
  | .hbm, ⟨70, _⟩ => ⟨S16x1, .i1⟩
  | .hbm, ⟨71, _⟩ => ⟨S_, .f32⟩
  | .hbm, ⟨72, _⟩ => ⟨S16x16, .f32⟩
  | .hbm, ⟨73, _⟩ => ⟨S16x16, .f32⟩
  | .hbm, ⟨74, _⟩ => ⟨S_, .f32⟩
  | .hbm, ⟨75, _⟩ => ⟨S16x16, .f32⟩
  | .hbm, ⟨76, _⟩ => ⟨S16x16, .f32⟩
  | .hbm, ⟨77, _⟩ => ⟨S16x16, .f32⟩
  | .hbm, ⟨78, _⟩ => ⟨S16x16, .i1⟩
  | .hbm, ⟨79, _⟩ => ⟨S16x16, .f32⟩
  | .hbm, ⟨80, _⟩ => ⟨S16x16, .f32⟩
  | .hbm, ⟨81, _⟩ => ⟨S_, .f32⟩
  | .hbm, ⟨82, _⟩ => ⟨S16, .f32⟩
  | .hbm, ⟨83, _⟩ => ⟨S16x1, .f32⟩
  | .hbm, ⟨84, _⟩ => ⟨S16x1, .f32⟩
  | .hbm, ⟨85, _⟩ => ⟨S_, .f32⟩
  | .hbm, ⟨86, _⟩ => ⟨S16x1, .f32⟩
  | .hbm, ⟨87, _⟩ => ⟨S16x1, .f32⟩
  | .hbm, ⟨88, _⟩ => ⟨S16x16, .f32⟩
  | .hbm, ⟨89, _⟩ => ⟨S16x16, .f32⟩
  | .hbm, ⟨90, _⟩ => ⟨S4x4x16, .f32⟩
  | _, _ => ⟨S16x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_c_4 : Ref sig .tc := ⟨.hbm, 36, rfl⟩
abbrev main_call0_v14 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call1_v0 : Ref sig .tc := ⟨.hbm, 78, rfl⟩
abbrev main_v42 : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_call2_v2 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S_S16x512x512 : S_.BroadcastsInDim S16x512x512 (![] : Fin 0 → Fin S16x512x512.rank)
  bcast_S1x512x512_S16x512x512_0_1_2 : S1x512x512.BroadcastsInDim S16x512x512 (![0, 1, 2] : Fin 3 → Fin S16x512x512.rank)
  bcast_S16x512x512_S16x512x512x1_0_1_2 : S16x512x512.BroadcastsInDim S16x512x512x1 (![0, 1, 2] : Fin 3 → Fin S16x512x512x1.rank)
  bcast_S_S16x512x512x1 : S_.BroadcastsInDim S16x512x512x1 (![] : Fin 0 → Fin S16x512x512x1.rank)
  shapeCasts_S16x512x512x1_S16x512x512x1x1 : S16x512x512x1.ShapeCasts S16x512x512x1x1
  bcast_S_S16x512x512x1x1 : S_.BroadcastsInDim S16x512x512x1x1 (![] : Fin 0 → Fin S16x512x512x1x1.rank)
  bcast_S1_S1x1x1x1x1_4 : S1.BroadcastsInDim S1x1x1x1x1 (![4] : Fin 1 → Fin S1x1x1x1x1.rank)
  bcast_S1x1x1x1x1_S16x512x512x1x1_0_1_2_3_4 : S1x1x1x1x1.BroadcastsInDim S16x512x512x1x1 (![0, 1, 2, 3, 4] : Fin 5 → Fin S16x512x512x1x1.rank)
  reducesTo_S16x512x512x1x1_S16x512x512x1_d4 : S16x512x512x1x1.ReducesTo [4] S16x512x512x1
  h_S_ : 0 < S_.numel
  shapeCasts_S16x512x512x1_S16x512x512 : S16x512x512x1.ShapeCasts S16x512x512
  shapeCasts_S16x512x512_S4194304 : S16x512x512.ShapeCasts S4194304
  transposes_S16x16x512x512_S16x512x512x16_0_2_3_1 : S16x16x512x512.Transposes [0, 2, 3, 1] S16x512x512x16
  shapeCasts_S16x512x512x16_S4194304x16 : S16x512x512x16.ShapeCasts S4194304x16
  bcast_S4194304_S4194304x1_0 : S4194304.BroadcastsInDim S4194304x1 (![0] : Fin 1 → Fin S4194304x1.rank)
  bcast_S4194304x1_S4194304x16_0_1 : S4194304x1.BroadcastsInDim S4194304x16 (![0, 1] : Fin 2 → Fin S4194304x16.rank)
  bcast_S_S16x16 : S_.BroadcastsInDim S16x16 (![] : Fin 0 → Fin S16x16.rank)
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S4x4x16_S16x16 : S4x4x16.ShapeCasts S16x16
  reducesTo_S16x16_S16_d1 : S16x16.ReducesTo [1] S16
  bcast_S_S16x1 : S_.BroadcastsInDim S16x1 (![] : Fin 0 → Fin S16x1.rank)
  shapeCasts_S16x16_S4x4x16 : S16x16.ShapeCasts S4x4x16
  gather_S16x512x512x4_S16x512x512x1x1_S16x512x512x1_n_3_012_012_3_4_1111_wf : GatherDims.WF S16x512x512x4 S16x512x512x1x1 S16x512x512x1 [] [3] [0, 1, 2] [3] [0, 1, 2] 4 ![1, 1, 1, 1]
  scatter_S16x16_S4194304x1_S4194304x16_1_0_0_1_wf : ScatterDims.WF S16x16 S4194304x1 S4194304x16 [1] [0] [0] 1
  scatter_S16_S4194304x1_S4194304_n_0_0_1_wf : ScatterDims.WF S16 S4194304x1 S4194304 [] [0] [0] 1

variable [Facts₀]

def gather_S16x512x512x4_S16x512x512x1x1_S16x512x512x1_n_3_012_012_3_4_1111 : GatherDims S16x512x512x4 S16x512x512x1x1 S16x512x512x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S16x512x512x4_S16x512x512x1x1_S16x512x512x1_n_3_012_012_3_4_1111_wf
def scatter_S16x16_S4194304x1_S4194304x16_1_0_0_1 : ScatterDims S16x16 S4194304x1 S4194304x16 where
  updateWindowDims := [1]
  insertedWindowDims := [0]
  scatterDimsToOperandDims := [0]
  indexVectorDim := 1
  wf := scatter_S16x16_S4194304x1_S4194304x16_1_0_0_1_wf
def scatter_S16_S4194304x1_S4194304_n_0_0_1 : ScatterDims S16 S4194304x1 S4194304 where
  updateWindowDims := []
  insertedWindowDims := [0]
  scatterDimsToOperandDims := [0]
  indexVectorDim := 1
  wf := scatter_S16_S4194304x1_S4194304_n_0_0_1_wf

class Facts : Prop extends Facts₀ where

variable [Facts]
-- ==== Proof.RRun.lean ====
/-
  The reference program's run, stage by stage.

  @main is a straight line of 85 host operations. Cut into six stretches — the weight bit of every pixel; the
  group word of every pixel; the flattened weights and weighted rows; the two scatter-adds; the table update; the
  row normalisation — each stretch, run from any buffer contents that hold the earlier stretches' results at
  their stages, leaves its own results at their stages; so the whole line leaves the result at the last stage,
  a function of the six arguments, which are never written.
-/
import proofs.«425919_j61589831024790_3_alg».proof.Proof.RefReadP
import Idealize.ShloMosaic.Lib.StableHlo.Run

noncomputable section

namespace Cert.ReferenceIdeal.RRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 0 … 9 of @main. -/
abbrev opsA : List (HloOp τ sig (Elt F)) :=
  [ unary main_arg4 main_v0 (broadcastInDim S1x512x512 ![1, 2] bcast_S512x512_S1x512x512_1_2 : (⟨S512x512, .i32⟩ : BufTy).Contents (Elt F) → (⟨S1x512x512, .i32⟩ : BufTy).Contents (Elt F)),
    nullary main_c (constantI S_ 32 1#32),
    unary main_c main_v1 (broadcastInDim S1x512x512 ![] bcast_S_S1x512x512 : (⟨S_, .i32⟩ : BufTy).Contents (Elt F) → (⟨S1x512x512, .i32⟩ : BufTy).Contents (Elt F)),
    binary main_v0 main_v1 main_v2 (cmpi .eq : (⟨S1x512x512, .i32⟩ : BufTy).Contents (Elt F) → (⟨S1x512x512, .i32⟩ : BufTy).Contents (Elt F) → (⟨S1x512x512, .i1⟩ : BufTy).Contents (Elt F)),
    nullary main_c_0 (constantI S_ 32 0#32),
    unary main_c_0 main_v3 (broadcastInDim S16x512x512 ![] bcast_S_S16x512x512 : (⟨S_, .i32⟩ : BufTy).Contents (Elt F) → (⟨S16x512x512, .i32⟩ : BufTy).Contents (Elt F)),
    binary main_arg3 main_v3 main_v4 (cmpi .ne : (⟨S16x512x512, .i32⟩ : BufTy).Contents (Elt F) → (⟨S16x512x512, .i32⟩ : BufTy).Contents (Elt F) → (⟨S16x512x512, .i1⟩ : BufTy).Contents (Elt F)),
    unary main_v2 main_v5 (broadcastInDim S16x512x512 ![0, 1, 2] bcast_S1x512x512_S16x512x512_0_1_2 : (⟨S1x512x512, .i1⟩ : BufTy).Contents (Elt F) → (⟨S16x512x512, .i1⟩ : BufTy).Contents (Elt F)),
    binary main_v5 main_v4 main_v6 (andi : (⟨S16x512x512, .i1⟩ : BufTy).Contents (Elt F) → (⟨S16x512x512, .i1⟩ : BufTy).Contents (Elt F) → (⟨S16x512x512, .i1⟩ : BufTy).Contents (Elt F)),
    binary main_v6 main_arg5 main_v7 (andi : (⟨S16x512x512, .i1⟩ : BufTy).Contents (Elt F) → (⟨S16x512x512, .i1⟩ : BufTy).Contents (Elt F) → (⟨S16x512x512, .i1⟩ : BufTy).Contents (Elt F)) ]

/-- Operations 10 … 18 of @main. -/
abbrev opsB1 : List (HloOp τ sig (Elt F)) :=
  [ unary main_arg3 main_v8 (broadcastInDim S16x512x512x1 ![0, 1, 2] bcast_S16x512x512_S16x512x512x1_0_1_2 : (⟨S16x512x512, .i32⟩ : BufTy).Contents (Elt F) → (⟨S16x512x512x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16x512x512x1, .i32⟩) main_call0_v0) (broadcastInDim S16x512x512x1 ![] bcast_S_S16x512x512x1),
    TRef.binary (TRef.of (T := ⟨S16x512x512x1, .i32⟩) main_v8) (TRef.of (T := ⟨S16x512x512x1, .i32⟩) main_call0_v0) (TRef.of (T := ⟨S16x512x512x1, .i1⟩) main_call0_v1) (cmpi .slt),
    TRef.nullary (TRef.of (T := ⟨S_, .i32⟩) main_call0_c_0) (constantI S_ 32 4#32),
    TRef.unary (TRef.of (T := ⟨S_, .i32⟩) main_call0_c_0) (TRef.of (T := ⟨S16x512x512x1, .i32⟩) main_call0_v2) (broadcastInDim S16x512x512x1 ![] bcast_S_S16x512x512x1),
    TRef.binary (TRef.of (T := ⟨S16x512x512x1, .i32⟩) main_v8) (TRef.of (T := ⟨S16x512x512x1, .i32⟩) main_call0_v2) (TRef.of (T := ⟨S16x512x512x1, .i32⟩) main_call0_v3) addi,
    TRef.ternary (TRef.of (T := ⟨S16x512x512x1, .i1⟩) main_call0_v1) (TRef.of (T := ⟨S16x512x512x1, .i32⟩) main_call0_v3) (TRef.of (T := ⟨S16x512x512x1, .i32⟩) main_v8) (TRef.of (T := ⟨S16x512x512x1, .i32⟩) main_call0_v4) select,
    TRef.reshape (TRef.of (T := ⟨S16x512x512x1, .i32⟩) main_call0_v4) (TRef.of (T := ⟨S16x512x512x1x1, .i32⟩) main_call0_v5) rfl shapeCasts_S16x512x512x1_S16x512x512x1x1 ]

/-- Operations 19 … 28 of @main. -/
abbrev opsB2 : List (HloOp τ sig (Elt F)) :=
  [ TRef.nullary (TRef.of (T := ⟨S1, .i32⟩) main_call0_c_1) (constantI S1 32 3#32),
    TRef.nullary (TRef.of (T := ⟨S_, .i32⟩) main_call0_c_2) (constantI S_ 32 0#32),
    TRef.unary (TRef.of (T := ⟨S_, .i32⟩) main_call0_c_2) (TRef.of (T := ⟨S16x512x512x1x1, .i32⟩) main_call0_v6) (broadcastInDim S16x512x512x1x1 ![] bcast_S_S16x512x512x1x1),
    TRef.binary (TRef.of (T := ⟨S16x512x512x1x1, .i32⟩) main_call0_v5) (TRef.of (T := ⟨S16x512x512x1x1, .i32⟩) main_call0_v6) (TRef.of (T := ⟨S16x512x512x1x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S16x512x512x1x1, .i32⟩) main_call0_v9) (broadcastInDim S16x512x512x1x1 ![0, 1, 2, 3, 4] bcast_S1x1x1x1x1_S16x512x512x1x1_0_1_2_3_4),
    TRef.binary (TRef.of (T := ⟨S16x512x512x1x1, .i32⟩) main_call0_v5) (TRef.of (T := ⟨S16x512x512x1x1, .i32⟩) main_call0_v9) (TRef.of (T := ⟨S16x512x512x1x1, .i1⟩) main_call0_v10) (cmpi .sle),
    TRef.binary (TRef.of (T := ⟨S16x512x512x1x1, .i1⟩) main_call0_v7) (TRef.of (T := ⟨S16x512x512x1x1, .i1⟩) main_call0_v10) (TRef.of (T := ⟨S16x512x512x1x1, .i1⟩) main_call0_v11) andi,
    TRef.nullary (TRef.of (T := ⟨S_, .i1⟩) main_call0_c_3) (constantI S_ 1 1#1),
    TRef.binary (TRef.of (T := ⟨S16x512x512x1x1, .i1⟩) main_call0_v11) (TRef.of (T := ⟨S_, .i1⟩) main_call0_c_3) (TRef.of (T := ⟨S16x512x512x1, .i1⟩) main_call0_v12) (fun x v => Host.reduce IntOp.andi x v reducesTo_S16x512x512x1x1_S16x512x512x1_d4 h_S_) ]

/-- Operations 29 … 33 of @main. -/
abbrev opsB3 : List (HloOp τ sig (Elt F)) :=
  [ TRef.binary (TRef.of (T := ⟨S16x512x512x4, .i32⟩) main_arg2) (TRef.of (T := ⟨S16x512x512x1x1, .i32⟩) main_call0_v5) (TRef.of (T := ⟨S16x512x512x1, .i32⟩) main_call0_v13) (fun x i => Host.gather gather_S16x512x512x4_S16x512x512x1x1_S16x512x512x1_n_3_012_012_3_4_1111 x i),
    TRef.nullary (TRef.of (T := ⟨S_, .i32⟩) main_call0_c_4) (constantI S_ 32 2147483648#32),
    TRef.unary (TRef.of (T := ⟨S_, .i32⟩) main_call0_c_4) (TRef.of (T := ⟨S16x512x512x1, .i32⟩) main_call0_v14) (broadcastInDim S16x512x512x1 ![] bcast_S_S16x512x512x1),
    TRef.ternary (TRef.of (T := ⟨S16x512x512x1, .i1⟩) main_call0_v12) (TRef.of (T := ⟨S16x512x512x1, .i32⟩) main_call0_v13) (TRef.of (T := ⟨S16x512x512x1, .i32⟩) main_call0_v14) (TRef.of (T := ⟨S16x512x512x1, .i32⟩) main_v9) select,
    reshape main_v9 main_v10 rfl shapeCasts_S16x512x512x1_S16x512x512 ]

/-- Operations 34 … 38 of @main. -/
abbrev opsB4 : List (HloOp τ sig (Elt F)) :=
  [ nullary main_c_1 (constantI S_ 32 4#32),
    unary main_c_1 main_v11 (broadcastInDim S16x512x512 ![] bcast_S_S16x512x512 : (⟨S_, .i32⟩ : BufTy).Contents (Elt F) → (⟨S16x512x512, .i32⟩ : BufTy).Contents (Elt F)),
    binary main_arg3 main_v11 main_v12 (muli : (⟨S16x512x512, .i32⟩ : BufTy).Contents (Elt F) → (⟨S16x512x512, .i32⟩ : BufTy).Contents (Elt F) → (⟨S16x512x512, .i32⟩ : BufTy).Contents (Elt F)),
    binary main_v12 main_v10 main_v13 (addi : (⟨S16x512x512, .i32⟩ : BufTy).Contents (Elt F) → (⟨S16x512x512, .i32⟩ : BufTy).Contents (Elt F) → (⟨S16x512x512, .i32⟩ : BufTy).Contents (Elt F)),
    reshape main_v13 main_v14 rfl shapeCasts_S16x512x512_S4194304 ]

/-- Operations 39 … 45 of @main. -/
abbrev opsC : List (HloOp τ sig (Elt F)) :=
  [ unary main_v7 main_v15 (uitofp (F := F) .f32 : (⟨S16x512x512, .i1⟩ : BufTy).Contents (Elt F) → (⟨S16x512x512, .f32⟩ : BufTy).Contents (Elt F)),
    reshape main_v15 main_v16 rfl shapeCasts_S16x512x512_S4194304,
    unary main_arg0 main_v17 ((transpose S16x512x512x16 [0, 2, 3, 1] · transposes_S16x16x512x512_S16x512x512x16_0_2_3_1) : (⟨S16x16x512x512, .f32⟩ : BufTy).Contents (Elt F) → (⟨S16x512x512x16, .f32⟩ : BufTy).Contents (Elt F)),
    reshape main_v17 main_v18 rfl shapeCasts_S16x512x512x16_S4194304x16,
    unary main_v16 main_v19 (broadcastInDim S4194304x1 ![0] bcast_S4194304_S4194304x1_0 : (⟨S4194304, .f32⟩ : BufTy).Contents (Elt F) → (⟨S4194304x1, .f32⟩ : BufTy).Contents (Elt F)),
    unary main_v19 main_v20 (broadcastInDim S4194304x16 ![0, 1] bcast_S4194304x1_S4194304x16_0_1 : (⟨S4194304x1, .f32⟩ : BufTy).Contents (Elt F) → (⟨S4194304x16, .f32⟩ : BufTy).Contents (Elt F)),
    binary main_v18 main_v20 main_v21 (mulf : (⟨S4194304x16, .f32⟩ : BufTy).Contents (Elt F) → (⟨S4194304x16, .f32⟩ : BufTy).Contents (Elt F) → (⟨S4194304x16, .f32⟩ : BufTy).Contents (Elt F)) ]

/-- Operations 46 … 53 of @main. -/
abbrev opsD : List (HloOp τ sig (Elt F)) :=
  [ nullary main_cst (constant S_ .f32 0x00000000#32),
    unary main_cst main_v22 (broadcastInDim S16x16 ![] bcast_S_S16x16 : (⟨S_, .f32⟩ : BufTy).Contents (Elt F) → (⟨S16x16, .f32⟩ : BufTy).Contents (Elt F)),
    unary main_v14 main_v23 (broadcastInDim S4194304x1 ![0] bcast_S4194304_S4194304x1_0 : (⟨S4194304, .i32⟩ : BufTy).Contents (Elt F) → (⟨S4194304x1, .i32⟩ : BufTy).Contents (Elt F)),
    ternary main_v22 main_v23 main_v21 main_v24 ((fun x i u => Host.scatterAdd scatter_S16x16_S4194304x1_S4194304x16_1_0_0_1 x i u) : (⟨S16x16, .f32⟩ : BufTy).Contents (Elt F) → (⟨S4194304x1, .i32⟩ : BufTy).Contents (Elt F) → (⟨S4194304x16, .f32⟩ : BufTy).Contents (Elt F) → (⟨S16x16, .f32⟩ : BufTy).Contents (Elt F)),
    nullary main_cst_2 (constant S_ .f32 0x00000000#32),
    unary main_cst_2 main_v25 (broadcastInDim S16 ![] bcast_S_S16 : (⟨S_, .f32⟩ : BufTy).Contents (Elt F) → (⟨S16, .f32⟩ : BufTy).Contents (Elt F)),
    unary main_v14 main_v26 (broadcastInDim S4194304x1 ![0] bcast_S4194304_S4194304x1_0 : (⟨S4194304, .i32⟩ : BufTy).Contents (Elt F) → (⟨S4194304x1, .i32⟩ : BufTy).Contents (Elt F)),
    ternary main_v25 main_v26 main_v16 main_v27 ((fun x i u => Host.scatterAdd scatter_S16_S4194304x1_S4194304_n_0_0_1 x i u) : (⟨S16, .f32⟩ : BufTy).Contents (Elt F) → (⟨S4194304x1, .i32⟩ : BufTy).Contents (Elt F) → (⟨S4194304, .f32⟩ : BufTy).Contents (Elt F) → (⟨S16, .f32⟩ : BufTy).Contents (Elt F)) ]

/-- Operations 54 … 73 of @main. -/
abbrev opsE : List (HloOp τ sig (Elt F)) :=
  [ nullary main_cst_3 (constant S_ .f32 0x3F800000#32),
    unary main_cst_3 main_v28 (broadcastInDim S16 ![] bcast_S_S16 : (⟨S_, .f32⟩ : BufTy).Contents (Elt F) → (⟨S16, .f32⟩ : BufTy).Contents (Elt F)),
    binary main_v27 main_v28 main_v29 (maximumf : (⟨S16, .f32⟩ : BufTy).Contents (Elt F) → (⟨S16, .f32⟩ : BufTy).Contents (Elt F) → (⟨S16, .f32⟩ : BufTy).Contents (Elt F)),
    unary main_v29 main_v30 (broadcastInDim S16x1 ![0] bcast_S16_S16x1_0 : (⟨S16, .f32⟩ : BufTy).Contents (Elt F) → (⟨S16x1, .f32⟩ : BufTy).Contents (Elt F)),
    unary main_v30 main_v31 (broadcastInDim S16x16 ![0, 1] bcast_S16x1_S16x16_0_1 : (⟨S16x1, .f32⟩ : BufTy).Contents (Elt F) → (⟨S16x16, .f32⟩ : BufTy).Contents (Elt F)),
    binary main_v24 main_v31 main_v32 (Host.divf : (⟨S16x16, .f32⟩ : BufTy).Contents (Elt F) → (⟨S16x16, .f32⟩ : BufTy).Contents (Elt F) → (⟨S16x16, .f32⟩ : BufTy).Contents (Elt F)),
    reshape main_arg1 main_v33 rfl shapeCasts_S4x4x16_S16x16,
    nullary main_cst_4 (constant S_ .f32 0x00000000#32),
    unary main_cst_4 main_v34 (broadcastInDim S16 ![] bcast_S_S16 : (⟨S_, .f32⟩ : BufTy).Contents (Elt F) → (⟨S16, .f32⟩ : BufTy).Contents (Elt F)),
    binary main_v27 main_v34 main_v35 (cmpf (F := F) .ogt : (⟨S16, .f32⟩ : BufTy).Contents (Elt F) → (⟨S16, .f32⟩ : BufTy).Contents (Elt F) → (⟨S16, .i1⟩ : BufTy).Contents (Elt F)),
    unary main_v35 main_v36 (broadcastInDim S16x1 ![0] bcast_S16_S16x1_0 : (⟨S16, .i1⟩ : BufTy).Contents (Elt F) → (⟨S16x1, .i1⟩ : BufTy).Contents (Elt F)),
    nullary main_cst_5 (constant S_ .f32 0x3F7D70A4#32),
    unary main_cst_5 main_v37 (broadcastInDim S16x16 ![] bcast_S_S16x16 : (⟨S_, .f32⟩ : BufTy).Contents (Elt F) → (⟨S16x16, .f32⟩ : BufTy).Contents (Elt F)),
    binary main_v37 main_v33 main_v38 (mulf : (⟨S16x16, .f32⟩ : BufTy).Contents (Elt F) → (⟨S16x16, .f32⟩ : BufTy).Contents (Elt F) → (⟨S16x16, .f32⟩ : BufTy).Contents (Elt F)),
    nullary main_cst_6 (constant S_ .f32 0x3C23D70A#32),
    unary main_cst_6 main_v39 (broadcastInDim S16x16 ![] bcast_S_S16x16 : (⟨S_, .f32⟩ : BufTy).Contents (Elt F) → (⟨S16x16, .f32⟩ : BufTy).Contents (Elt F)),
    binary main_v39 main_v32 main_v40 (mulf : (⟨S16x16, .f32⟩ : BufTy).Contents (Elt F) → (⟨S16x16, .f32⟩ : BufTy).Contents (Elt F) → (⟨S16x16, .f32⟩ : BufTy).Contents (Elt F)),
    binary main_v38 main_v40 main_v41 (addf : (⟨S16x16, .f32⟩ : BufTy).Contents (Elt F) → (⟨S16x16, .f32⟩ : BufTy).Contents (Elt F) → (⟨S16x16, .f32⟩ : BufTy).Contents (Elt F)),
    TRef.unary (TRef.of (T := ⟨S16x1, .i1⟩) main_v36) (TRef.of (T := ⟨S16x16, .i1⟩) main_call1_v0) (broadcastInDim S16x16 ![0, 1] bcast_S16x1_S16x16_0_1),
    TRef.ternary (TRef.of (T := ⟨S16x16, .i1⟩) main_call1_v0) (TRef.of (T := ⟨S16x16, .f32⟩) main_v41) (TRef.of (T := ⟨S16x16, .f32⟩) main_v33) (TRef.of (T := ⟨S16x16, .f32⟩) main_v42) select ]

/-- Operations 74 … 84 of @main. -/
abbrev opsF : List (HloOp τ sig (Elt F)) :=
  [ TRef.binary (TRef.of (T := ⟨S16x16, .f32⟩) main_v42) (TRef.of (T := ⟨S16x16, .f32⟩) main_v42) (TRef.of (T := ⟨S16x16, .f32⟩) main_call2_v0) mulf,
    TRef.nullary (TRef.of (T := ⟨S_, .f32⟩) main_call2_cst) (constant S_ .f32 0x00000000#32),
    TRef.binary (TRef.of (T := ⟨S16x16, .f32⟩) main_call2_v0) (TRef.of (T := ⟨S_, .f32⟩) main_call2_cst) (TRef.of (T := ⟨S16, .f32⟩) main_call2_v1) (fun x v => Host.reduceAdd x v reducesTo_S16x16_S16_d1 h_S_),
    TRef.unary (TRef.of (T := ⟨S16, .f32⟩) main_call2_v1) (TRef.of (T := ⟨S16x1, .f32⟩) main_call2_v2) (broadcastInDim S16x1 ![0] bcast_S16_S16x1_0),
    TRef.unary (TRef.of (T := ⟨S16x1, .f32⟩) main_call2_v2) (TRef.of (T := ⟨S16x1, .f32⟩) main_v43) Host.sqrt,
    nullary main_cst_7 (constant S_ .f32 0x2B8CBCCC#32),
    unary main_cst_7 main_v44 (broadcastInDim S16x1 ![] bcast_S_S16x1 : (⟨S_, .f32⟩ : BufTy).Contents (Elt F) → (⟨S16x1, .f32⟩ : BufTy).Contents (Elt F)),
    binary main_v43 main_v44 main_v45 (maximumf : (⟨S16x1, .f32⟩ : BufTy).Contents (Elt F) → (⟨S16x1, .f32⟩ : BufTy).Contents (Elt F) → (⟨S16x1, .f32⟩ : BufTy).Contents (Elt F)),
    unary main_v45 main_v46 (broadcastInDim S16x16 ![0, 1] bcast_S16x1_S16x16_0_1 : (⟨S16x1, .f32⟩ : BufTy).Contents (Elt F) → (⟨S16x16, .f32⟩ : BufTy).Contents (Elt F)),
    binary main_v42 main_v46 main_v47 (Host.divf : (⟨S16x16, .f32⟩ : BufTy).Contents (Elt F) → (⟨S16x16, .f32⟩ : BufTy).Contents (Elt F) → (⟨S16x16, .f32⟩ : BufTy).Contents (Elt F)),
    reshape main_v47 main_v48 rfl shapeCasts_S16x16_S4x4x16 ]

set_option maxRecDepth 8192 in
/-- The line is its stretches in order. -/
theorem ops_split : (ops : List (HloOp τ sig (Elt F))) = opsA ++ (opsB1 ++ (opsB2 ++ (opsB3 ++ (opsB4 ++ (opsC ++ (opsD ++ (opsE ++ (opsF)))))))) := rfl

theorem after_ops (V : Valuation τ sig (Elt F)) :
    after ops V = after opsF (after opsE (after opsD (after opsC (after opsB4 (after opsB3 (after opsB2 (after opsB1 (after opsA V)))))))) := by
  rw [ops_split]
  simp only [after_append]

/-! ## What each stretch leaves alone -/

theorem keepA_arg0 (W : Valuation τ sig (Elt F)) : after (opsA (F := F)) W (Proc.devRef .tc main_arg0) = W (Proc.devRef .tc main_arg0) := by
  after_results_simp

theorem keepA_arg1 (W : Valuation τ sig (Elt F)) : after (opsA (F := F)) W (Proc.devRef .tc main_arg1) = W (Proc.devRef .tc main_arg1) := by
  after_results_simp

theorem keepA_arg2 (W : Valuation τ sig (Elt F)) : after (opsA (F := F)) W (Proc.devRef .tc main_arg2) = W (Proc.devRef .tc main_arg2) := by
  after_results_simp

theorem keepA_arg3 (W : Valuation τ sig (Elt F)) : after (opsA (F := F)) W (Proc.devRef .tc main_arg3) = W (Proc.devRef .tc main_arg3) := by
  after_results_simp

theorem keepB1_v7 (W : Valuation τ sig (Elt F)) : after (opsB1 (F := F)) W (Proc.devRef .tc main_v7) = W (Proc.devRef .tc main_v7) := by
  after_results_simp

theorem keepB1_arg0 (W : Valuation τ sig (Elt F)) : after (opsB1 (F := F)) W (Proc.devRef .tc main_arg0) = W (Proc.devRef .tc main_arg0) := by
  after_results_simp

theorem keepB1_arg1 (W : Valuation τ sig (Elt F)) : after (opsB1 (F := F)) W (Proc.devRef .tc main_arg1) = W (Proc.devRef .tc main_arg1) := by
  after_results_simp

theorem keepB1_arg2 (W : Valuation τ sig (Elt F)) : after (opsB1 (F := F)) W (Proc.devRef .tc main_arg2) = W (Proc.devRef .tc main_arg2) := by
  after_results_simp

theorem keepB1_arg3 (W : Valuation τ sig (Elt F)) : after (opsB1 (F := F)) W (Proc.devRef .tc main_arg3) = W (Proc.devRef .tc main_arg3) := by
  after_results_simp

theorem keepB2_v7 (W : Valuation τ sig (Elt F)) : after (opsB2 (F := F)) W (Proc.devRef .tc main_v7) = W (Proc.devRef .tc main_v7) := by
  after_results_simp

theorem keepB2_arg0 (W : Valuation τ sig (Elt F)) : after (opsB2 (F := F)) W (Proc.devRef .tc main_arg0) = W (Proc.devRef .tc main_arg0) := by
  after_results_simp

theorem keepB2_arg1 (W : Valuation τ sig (Elt F)) : after (opsB2 (F := F)) W (Proc.devRef .tc main_arg1) = W (Proc.devRef .tc main_arg1) := by
  after_results_simp

theorem keepB2_arg2 (W : Valuation τ sig (Elt F)) : after (opsB2 (F := F)) W (Proc.devRef .tc main_arg2) = W (Proc.devRef .tc main_arg2) := by
  after_results_simp

theorem keepB2_arg3 (W : Valuation τ sig (Elt F)) : after (opsB2 (F := F)) W (Proc.devRef .tc main_arg3) = W (Proc.devRef .tc main_arg3) := by
  after_results_simp

theorem keepB2_call0_v5 (W : Valuation τ sig (Elt F)) : after (opsB2 (F := F)) W (Proc.devRef .tc main_call0_v5) = W (Proc.devRef .tc main_call0_v5) := by
  after_results_simp

theorem keepB3_v7 (W : Valuation τ sig (Elt F)) : after (opsB3 (F := F)) W (Proc.devRef .tc main_v7) = W (Proc.devRef .tc main_v7) := by
  after_results_simp

theorem keepB3_arg0 (W : Valuation τ sig (Elt F)) : after (opsB3 (F := F)) W (Proc.devRef .tc main_arg0) = W (Proc.devRef .tc main_arg0) := by
  after_results_simp

theorem keepB3_arg1 (W : Valuation τ sig (Elt F)) : after (opsB3 (F := F)) W (Proc.devRef .tc main_arg1) = W (Proc.devRef .tc main_arg1) := by
  after_results_simp

theorem keepB3_arg3 (W : Valuation τ sig (Elt F)) : after (opsB3 (F := F)) W (Proc.devRef .tc main_arg3) = W (Proc.devRef .tc main_arg3) := by
  after_results_simp

theorem keepB4_v7 (W : Valuation τ sig (Elt F)) : after (opsB4 (F := F)) W (Proc.devRef .tc main_v7) = W (Proc.devRef .tc main_v7) := by
  after_results_simp

theorem keepB4_arg0 (W : Valuation τ sig (Elt F)) : after (opsB4 (F := F)) W (Proc.devRef .tc main_arg0) = W (Proc.devRef .tc main_arg0) := by
  after_results_simp

theorem keepB4_arg1 (W : Valuation τ sig (Elt F)) : after (opsB4 (F := F)) W (Proc.devRef .tc main_arg1) = W (Proc.devRef .tc main_arg1) := by
  after_results_simp

theorem keepC_v14 (W : Valuation τ sig (Elt F)) : after (opsC (F := F)) W (Proc.devRef .tc main_v14) = W (Proc.devRef .tc main_v14) := by
  after_results_simp

theorem keepC_arg1 (W : Valuation τ sig (Elt F)) : after (opsC (F := F)) W (Proc.devRef .tc main_arg1) = W (Proc.devRef .tc main_arg1) := by
  after_results_simp

theorem keepD_arg1 (W : Valuation τ sig (Elt F)) : after (opsD (F := F)) W (Proc.devRef .tc main_arg1) = W (Proc.devRef .tc main_arg1) := by
  after_results_simp

/-! ## What each stretch computes -/

/-- The first stretch leaves the weight bits at their stage. -/
theorem stageA (W : Valuation τ sig (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h3 : W (Proc.devRef .tc main_arg3) = x3) (h4 : W (Proc.devRef .tc main_arg4) = x4) (h5 : W (Proc.devRef .tc main_arg5) = x5) :
    after (opsA (F := F)) W (Proc.devRef .tc main_v7) = val_main_v7 (F := F) x3 x4 x5 := by
  after_results_simp
  try simp only [TRef.ofBuf, TRef.toBuf, cast_eq]
  rw [h3, h4, h5]
  rfl

/-- The target, wrapped into range and laid out as a gather's start index. -/
theorem stageB1 (W : Valuation τ sig (Elt F)) (x3 : (⟨S16x512x512, .i32⟩ : BufTy).Contents (Elt F))
    (h3 : W (Proc.devRef .tc main_arg3) = x3) :
    after (opsB1 (F := F)) W (Proc.devRef .tc main_call0_v5) = val_main_call0_v5 (F := F) x3 := by
  after_results_simp
  try simp only [TRef.ofBuf, TRef.toBuf, cast_eq]
  rw [h3]
  rfl

/-- The in-range bit of every start index. -/
theorem stageB2 (W : Valuation τ sig (Elt F)) (x3 : (⟨S16x512x512, .i32⟩ : BufTy).Contents (Elt F))
    (h5 : W (Proc.devRef .tc main_call0_v5) = val_main_call0_v5 (F := F) x3) :
    after (opsB2 (F := F)) W (Proc.devRef .tc main_call0_v12) = val_main_call0_v12 (F := F) x3 := by
  after_results_simp
  try simp only [TRef.ofBuf, TRef.toBuf, cast_eq]
  rw [h5]
  rfl

/-- The matched-prototype index of every pixel: the gathered entry where the start index is in range, the fill word elsewhere. -/
theorem stageB3 (W : Valuation τ sig (Elt F)) (x2 : (⟨S16x512x512x4, .i32⟩ : BufTy).Contents (Elt F)) (x3 : (⟨S16x512x512, .i32⟩ : BufTy).Contents (Elt F))
    (h2 : W (Proc.devRef .tc main_arg2) = x2) (h5 : W (Proc.devRef .tc main_call0_v5) = val_main_call0_v5 (F := F) x3) (h12 : W (Proc.devRef .tc main_call0_v12) = val_main_call0_v12 (F := F) x3) :
    after (opsB3 (F := F)) W (Proc.devRef .tc main_v10) = val_main_v10 (F := F) x2 x3 := by
  after_results_simp
  try simp only [TRef.ofBuf, TRef.toBuf, cast_eq]
  rw [h2, h5, h12]
  rfl

/-- The flattened group words. -/
theorem stageB4 (W : Valuation τ sig (Elt F)) (x2 : (⟨S16x512x512x4, .i32⟩ : BufTy).Contents (Elt F)) (x3 : (⟨S16x512x512, .i32⟩ : BufTy).Contents (Elt F))
    (h3 : W (Proc.devRef .tc main_arg3) = x3) (h10 : W (Proc.devRef .tc main_v10) = val_main_v10 (F := F) x2 x3) :
    after (opsB4 (F := F)) W (Proc.devRef .tc main_v14) = val_main_v14 (F := F) x2 x3 := by
  after_results_simp
  try simp only [TRef.ofBuf, TRef.toBuf, cast_eq]
  rw [h3, h10]
  rfl

/-- The flattened weights. -/
theorem stageC16 (W : Valuation τ sig (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h7 : W (Proc.devRef .tc main_v7) = val_main_v7 (F := F) x3 x4 x5) :
    after (opsC (F := F)) W (Proc.devRef .tc main_v16) = val_main_v16 (F := F) x3 x4 x5 := by
  after_results_simp
  try simp only [TRef.ofBuf, TRef.toBuf, cast_eq]
  rw [h7]
  rfl

/-- The weighted rows. -/
theorem stageC21 (W : Valuation τ sig (Elt F)) (x0 : (⟨S16x16x512x512, .f32⟩ : BufTy).Contents (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h7 : W (Proc.devRef .tc main_v7) = val_main_v7 (F := F) x3 x4 x5) (h0 : W (Proc.devRef .tc main_arg0) = x0) :
    after (opsC (F := F)) W (Proc.devRef .tc main_v21) = val_main_v21 (F := F) x0 x3 x4 x5 := by
  after_results_simp
  try simp only [TRef.ofBuf, TRef.toBuf, cast_eq]
  rw [h7, h0]
  rfl

/-- The scattered sums. -/
theorem stageD24 (W : Valuation τ sig (Elt F)) (x0 : (⟨S16x16x512x512, .f32⟩ : BufTy).Contents (Elt F)) (x2 : (⟨S16x512x512x4, .i32⟩ : BufTy).Contents (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h14 : W (Proc.devRef .tc main_v14) = val_main_v14 (F := F) x2 x3) (h21 : W (Proc.devRef .tc main_v21) = val_main_v21 (F := F) x0 x3 x4 x5) :
    after (opsD (F := F)) W (Proc.devRef .tc main_v24) = val_main_v24 (F := F) x0 x2 x3 x4 x5 := by
  after_results_simp
  try simp only [TRef.ofBuf, TRef.toBuf, cast_eq]
  rw [h14, h21]
  rfl

/-- The scattered counts. -/
theorem stageD27 (W : Valuation τ sig (Elt F)) (x2 : (⟨S16x512x512x4, .i32⟩ : BufTy).Contents (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h14 : W (Proc.devRef .tc main_v14) = val_main_v14 (F := F) x2 x3) (h16 : W (Proc.devRef .tc main_v16) = val_main_v16 (F := F) x3 x4 x5) :
    after (opsD (F := F)) W (Proc.devRef .tc main_v27) = val_main_v27 (F := F) x2 x3 x4 x5 := by
  after_results_simp
  try simp only [TRef.ofBuf, TRef.toBuf, cast_eq]
  rw [h14, h16]
  rfl

/-- The updated table. -/
theorem stageE (W : Valuation τ sig (Elt F)) (x0 : (⟨S16x16x512x512, .f32⟩ : BufTy).Contents (Elt F)) (x1 : (⟨S4x4x16, .f32⟩ : BufTy).Contents (Elt F)) (x2 : (⟨S16x512x512x4, .i32⟩ : BufTy).Contents (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h24 : W (Proc.devRef .tc main_v24) = val_main_v24 (F := F) x0 x2 x3 x4 x5) (h27 : W (Proc.devRef .tc main_v27) = val_main_v27 (F := F) x2 x3 x4 x5) (h1 : W (Proc.devRef .tc main_arg1) = x1) :
    after (opsE (F := F)) W (Proc.devRef .tc main_v42) = val_main_v42 (F := F) x0 x1 x2 x3 x4 x5 := by
  after_results_simp
  try simp only [TRef.ofBuf, TRef.toBuf, cast_eq]
  rw [h24, h27, h1]
  rfl

/-- The result: every row over the larger of its norm and eps. -/
theorem stageF (W : Valuation τ sig (Elt F)) (x0 : (⟨S16x16x512x512, .f32⟩ : BufTy).Contents (Elt F)) (x1 : (⟨S4x4x16, .f32⟩ : BufTy).Contents (Elt F)) (x2 : (⟨S16x512x512x4, .i32⟩ : BufTy).Contents (Elt F)) (x3 : (⟨S16x512x512, .i32⟩ : BufTy).Contents (Elt F)) (x4 : (⟨S512x512, .i32⟩ : BufTy).Contents (Elt F)) (x5 : (⟨S16x512x512, .i1⟩ : BufTy).Contents (Elt F))
    (h42 : W (Proc.devRef .tc main_v42) = val_main_v42 (F := F) x0 x1 x2 x3 x4 x5) :
    after (opsF (F := F)) W (Proc.devRef .tc main_v48) = val_main_v48 (F := F) x0 x1 x2 x3 x4 x5 := by
  after_results_simp
  try simp only [TRef.ofBuf, TRef.toBuf, cast_eq]
  rw [h42]
  rfl

/-- The whole line leaves the result at the last stage of the arguments' contents. -/
theorem result_eq (V : Valuation τ sig (Elt F)) :
    after ops V (Proc.devRef .tc main_v48) = val_main_v48 (F := F) (V (Proc.devRef .tc main_arg0)) (V (Proc.devRef .tc main_arg1)) (V (Proc.devRef .tc main_arg2))
      (V (Proc.devRef .tc main_arg3)) (V (Proc.devRef .tc main_arg4)) (V (Proc.devRef .tc main_arg5)) := by
  rw [after_ops]
  have a7 := stageA V _ _ _ rfl rfl rfl
  generalize hWA : after opsA V = WA at *
  have A0 : WA (Proc.devRef .tc main_arg0) = V (Proc.devRef .tc main_arg0) := hWA ▸ keepA_arg0 V
  have A1 : WA (Proc.devRef .tc main_arg1) = V (Proc.devRef .tc main_arg1) := hWA ▸ keepA_arg1 V
  have A2 : WA (Proc.devRef .tc main_arg2) = V (Proc.devRef .tc main_arg2) := hWA ▸ keepA_arg2 V
  have A3 : WA (Proc.devRef .tc main_arg3) = V (Proc.devRef .tc main_arg3) := hWA ▸ keepA_arg3 V
  have b5 := stageB1 WA _ A3
  have B7 := (keepB1_v7 WA).trans a7
  have B0 := (keepB1_arg0 WA).trans A0
  have B1 := (keepB1_arg1 WA).trans A1
  have B2 := (keepB1_arg2 WA).trans A2
  have B3 := (keepB1_arg3 WA).trans A3
  generalize after opsB1 WA = W1 at *
  have c12 := stageB2 W1 _ b5
  have C7 := (keepB2_v7 W1).trans B7
  have C0 := (keepB2_arg0 W1).trans B0
  have C1 := (keepB2_arg1 W1).trans B1
  have C2 := (keepB2_arg2 W1).trans B2
  have C3 := (keepB2_arg3 W1).trans B3
  have C5 := (keepB2_call0_v5 W1).trans b5
  generalize after opsB2 W1 = W2 at *
  have d10 := stageB3 W2 _ _ C2 C5 c12
  have D7 := (keepB3_v7 W2).trans C7
  have D0 := (keepB3_arg0 W2).trans C0
  have D1 := (keepB3_arg1 W2).trans C1
  have D3 := (keepB3_arg3 W2).trans C3
  generalize after opsB3 W2 = W3 at *
  have e14 := stageB4 W3 _ _ D3 d10
  have E7 := (keepB4_v7 W3).trans D7
  have E0 := (keepB4_arg0 W3).trans D0
  have E1 := (keepB4_arg1 W3).trans D1
  generalize after opsB4 W3 = W4 at *
  have f16 := stageC16 W4 _ _ _ E7
  have f21 := stageC21 W4 _ _ _ _ E7 E0
  have F14 := (keepC_v14 W4).trans e14
  have F1 := (keepC_arg1 W4).trans E1
  generalize after opsC W4 = W5 at *
  have g24 := stageD24 W5 _ _ _ _ _ F14 f21
  have g27 := stageD27 W5 _ _ _ _ F14 f16
  have G1 := (keepD_arg1 W5).trans F1
  generalize after opsD W5 = W6 at *
  have h42 := stageE W6 _ _ _ _ _ _ g24 g27 G1
  generalize after opsE W6 = W7 at *
  exact stageF W7 _ _ _ _ _ _ h42

set_option maxRecDepth 8192 in
set_option maxHeartbeats 4000000 in
/-- No operation of the line writes argument 0. -/
theorem keep_arg0 (V : Valuation τ sig (Elt F)) : after (ops (F := F)) V (Proc.devRef .tc main_arg0) = V (Proc.devRef .tc main_arg0) := by
  after_results_simp

set_option maxRecDepth 8192 in
set_option maxHeartbeats 4000000 in
/-- No operation of the line writes argument 1. -/
theorem keep_arg1 (V : Valuation τ sig (Elt F)) : after (ops (F := F)) V (Proc.devRef .tc main_arg1) = V (Proc.devRef .tc main_arg1) := by
  after_results_simp

set_option maxRecDepth 8192 in
set_option maxHeartbeats 4000000 in
/-- No operation of the line writes argument 2. -/
theorem keep_arg2 (V : Valuation τ sig (Elt F)) : after (ops (F := F)) V (Proc.devRef .tc main_arg2) = V (Proc.devRef .tc main_arg2) := by
  after_results_simp

set_option maxRecDepth 8192 in
set_option maxHeartbeats 4000000 in
/-- No operation of the line writes argument 3. -/
theorem keep_arg3 (V : Valuation τ sig (Elt F)) : after (ops (F := F)) V (Proc.devRef .tc main_arg3) = V (Proc.devRef .tc main_arg3) := by
  after_results_simp

set_option maxRecDepth 8192 in
set_option maxHeartbeats 4000000 in
/-- No operation of the line writes argument 4. -/
theorem keep_arg4 (V : Valuation τ sig (Elt F)) : after (ops (F := F)) V (Proc.devRef .tc main_arg4) = V (Proc.devRef .tc main_arg4) := by
  after_results_simp

set_option maxRecDepth 8192 in
set_option maxHeartbeats 4000000 in
/-- No operation of the line writes argument 5. -/
theorem keep_arg5 (V : Valuation τ sig (Elt F)) : after (ops (F := F)) V (Proc.devRef .tc main_arg5) = V (Proc.devRef .tc main_arg5) := by
  after_results_simp

/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_seq scopedRefs_eq scopedSems_eq defs main (fun _ => ops) main_eq (fun _ => ops_sub) m ρ)

end Cert.ReferenceIdeal.RRun

end
-- ==== Proof.KTile.lean ====
/-
  One tile of the kernel's body, as values.

  A tile is a block of 128 image rows of one batch entry: x0 its 16 channels of rep, x1 its words sel.
  For a group word g the body forms the 0/1 mask [sel = g] as floats, multiplies every channel by it,
  and sums over the 512 columns and then over the 128 rows: a row of 16 channel sums; the mask's own sum
  over columns and rows is the group's count in the tile. The twelve groups 4 … 15 give the 12 × 16 block
  of sums and the 12 × 1 block of counts that the body adds into its two accumulators.
-/
import proofs.«425919_j61589831024790_3_alg».proof.Proof.Gen.KernelIdeal

set_option synthInstance.maxSize 4096

noncomputable section

namespace Cert.KernelIdeal.Tile

open Idealize.ShloMosaic Idealize.SL.Sem Cert.KernelIdeal Cert.KernelIdeal.Gen

variable {F : FTy → Type} [FloatOps F]

/-- The tile's channels without the leading unit axis. -/
def chans (x0 : Vec F S1x16x128x512 .f32) : FVec F S16x128x512 .f32 :=
  shapeCast S16x128x512 x0 shapeCasts_S1x16x128x512_S16x128x512

/-- The tile's words without the leading unit axis. -/
def words (x1 : Vec F S1x128x512 .i32) : IVec S128x512 32 :=
  shapeCast S128x512 x1 shapeCasts_S1x128x512_S128x512

/-- The mask of group g over the tile, as floats: 1 where the word is g, 0 elsewhere. -/
def maskF (g : BitVec 32) (v6 : IVec S128x512 32) : FVec F S128x512 .f32 :=
  sitofp .f32 (extui 32 (cmpi .eq v6 (broadcast S128x512 g)) natLt_1_32)

/-- Group g's row of channel sums over the tile: channels times mask, summed over columns, then over rows. -/
def rowS (g : BitVec 32) (v4 : FVec F S16x128x512 .f32) (v6 : IVec S128x512 32) : FVec F S1x16 .f32 :=
  shapeCast S1x16 (shapeCast S16x1x1 (multiReduction .add [1] S16x1 (shapeCast S16x128x1 (multiReduction .add [2] S16x128
    (mulf v4 (broadcastTo S16x128x512 (shapeCast S1x128x512 (maskF (F := F) g v6) shapeCasts_S128x512_S1x128x512) broadcasts_S1x128x512_S16x128x512))
    0x00000000#32 reduces_S16x128x512_S16x128 (.inl rfl) rfl) shapeCasts_S16x128_S16x128x1)
    0x00000000#32 reduces_S16x128x1_S16x1 (.inl rfl) rfl) shapeCasts_S16x1_S16x1x1) shapeCasts_S16x1x1_S1x16

/-- Group g's count over the tile: the mask summed over columns, then over rows. -/
def rowN (g : BitVec 32) (v6 : IVec S128x512 32) : FVec F S1x1 .f32 :=
  shapeCast S1x1 (multiReduction .add [0] S1 (shapeCast S128x1 (multiReduction .add [1] S128 (maskF (F := F) g v6)
    0x00000000#32 reduces_S128x512_S128 (.inl rfl) rfl) shapeCasts_S128_S128x1)
    0x00000000#32 reduces_S128x1_S1 (.inl rfl) rfl) shapeCasts_S1_S1x1

/-- The tile's 12 × 16 block of sums: the rows of the groups 4 … 15, in order. -/
def tileS (x0 : Vec F S1x16x128x512 .f32) (x1 : Vec F S1x128x512 .i32) : FVec F S12x16 .f32 :=
  concatenate S12x16 0 [⟨S1x16, rowS 4#32 (chans x0) (words x1)⟩, ⟨S1x16, rowS 5#32 (chans x0) (words x1)⟩, ⟨S1x16, rowS 6#32 (chans x0) (words x1)⟩, ⟨S1x16, rowS 7#32 (chans x0) (words x1)⟩, ⟨S1x16, rowS 8#32 (chans x0) (words x1)⟩, ⟨S1x16, rowS 9#32 (chans x0) (words x1)⟩, ⟨S1x16, rowS 10#32 (chans x0) (words x1)⟩, ⟨S1x16, rowS 11#32 (chans x0) (words x1)⟩, ⟨S1x16, rowS 12#32 (chans x0) (words x1)⟩, ⟨S1x16, rowS 13#32 (chans x0) (words x1)⟩, ⟨S1x16, rowS 14#32 (chans x0) (words x1)⟩, ⟨S1x16, rowS 15#32 (chans x0) (words x1)⟩]
    concatenates_S1x16_S1x16_S1x16_S1x16_S1x16_S1x16_S1x16_S1x16_S1x16_S1x16_S1x16_S1x16_S12x16_d0

/-- The tile's 12 × 1 block of counts: those of the groups 4 … 15, in order. -/
def tileN (x1 : Vec F S1x128x512 .i32) : FVec F S12x1 .f32 :=
  concatenate S12x1 0 [⟨S1x1, rowN (F := F) 4#32 (words x1)⟩, ⟨S1x1, rowN (F := F) 5#32 (words x1)⟩, ⟨S1x1, rowN (F := F) 6#32 (words x1)⟩, ⟨S1x1, rowN (F := F) 7#32 (words x1)⟩, ⟨S1x1, rowN (F := F) 8#32 (words x1)⟩, ⟨S1x1, rowN (F := F) 9#32 (words x1)⟩, ⟨S1x1, rowN (F := F) 10#32 (words x1)⟩, ⟨S1x1, rowN (F := F) 11#32 (words x1)⟩, ⟨S1x1, rowN (F := F) 12#32 (words x1)⟩, ⟨S1x1, rowN (F := F) 13#32 (words x1)⟩, ⟨S1x1, rowN (F := F) 14#32 (words x1)⟩, ⟨S1x1, rowN (F := F) 15#32 (words x1)⟩]
    concatenates_S1x1_S1x1_S1x1_S1x1_S1x1_S1x1_S1x1_S1x1_S1x1_S1x1_S1x1_S1x1_S12x1_d0

end Cert.KernelIdeal.Tile

end
-- ==== Proof.KPieces.lean ====
/-
  The pieces each control case of the body leaves, read back as values over the tile vocabulary.

  In every case the body adds the tile's 12 × 16 block of sums into the first accumulator and its 12 × 1 block of
  counts into the second. At the first batch entry of a tile of rows (case A) the accumulators are first set to zero,
  so they end at 0 + tile; elsewhere (cases B and C) they end at (what the point before left) + tile. At the last
  batch entry (case C) the two accumulators are also copied, with a leading unit axis, into the two output blocks.
-/
import proofs.«425919_j61589831024790_3_alg».proof.Proof.Gen.KernelIdeal.Frame
import proofs.«425919_j61589831024790_3_alg».proof.Proof.KTile
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile

variable {F : FTy → Type} [FloatOps F]

/-- The zero offsets of a rank-2 buffer, however spelt. -/
theorem hz2 : (![0, 0] : Fin 2 → Nat) = fun _ => 0 := funext fun a => by fin_cases a <;> rfl
/-- The zero offsets of a rank-3 buffer. -/
theorem hz3 : (![0, 0, 0] : Fin 3 → Nat) = fun _ => 0 := funext fun a => by fin_cases a <;> rfl
/-- The zero offsets of a rank-4 buffer. -/
theorem hz4 : (![0, 0, 0, 0] : Fin 4 → Nat) = fun _ => 0 := funext fun a => by fin_cases a <;> rfl

/-- The zero block the reset stores into the first accumulator. -/
abbrev zeroS : FVec F S12x16 .f32 := broadcast S12x16 (Scalar.ofBits .f32 0x00000000#32)
/-- The zero block the reset stores into the second accumulator. -/
abbrev zeroN : FVec F S12x1 .f32 := broadcast S12x1 (Scalar.ofBits .f32 0x00000000#32)

/-! ## The payload chain is the tile vocabulary

Each group's row of sums and each group's count, as the body computes them, are the tile's row and count of that group: the
same operations in the same order, so the two sides are one term once the names are opened. -/

theorem chans_eq (x0 : Vec F S1x16x128x512 .f32) : k0_pay5 x0 = chans x0 := rfl
theorem words_eq (x1 : Vec F S1x128x512 .i32) : k0_pay6 (F := F) x1 = words x1 := rfl

theorem row4 (x0 : Vec F S1x16x128x512 .f32) (x1 : Vec F S1x128x512 .i32) : k0_pay8 x0 x1 = rowS 4#32 (chans x0) (words x1) := rfl
theorem row5 (x0 : Vec F S1x16x128x512 .f32) (x1 : Vec F S1x128x512 .i32) : k0_pay11 x0 x1 = rowS 5#32 (chans x0) (words x1) := rfl
theorem row6 (v4 : FVec F S16x128x512 .f32) (v6 : IVec S128x512 32) : k0_pay15 v4 v6 = rowS 6#32 v4 v6 := rfl
theorem row7 (v4 : FVec F S16x128x512 .f32) (v6 : IVec S128x512 32) : k0_pay18 v4 v6 = rowS 7#32 v4 v6 := rfl
theorem row8 (v4 : FVec F S16x128x512 .f32) (v6 : IVec S128x512 32) : k0_pay21 v4 v6 = rowS 8#32 v4 v6 := rfl
theorem row9 (v4 : FVec F S16x128x512 .f32) (v6 : IVec S128x512 32) : k0_pay25 v4 v6 = rowS 9#32 v4 v6 := rfl
theorem row10 (v4 : FVec F S16x128x512 .f32) (v6 : IVec S128x512 32) : k0_pay28 v4 v6 = rowS 10#32 v4 v6 := rfl
theorem row11 (v4 : FVec F S16x128x512 .f32) (v6 : IVec S128x512 32) : k0_pay32 (k0_pay31 v4 v6) = rowS 11#32 v4 v6 := rfl
theorem row12 (v4 : FVec F S16x128x512 .f32) (v6 : IVec S128x512 32) : k0_pay35 v4 v6 = rowS 12#32 v4 v6 := rfl
theorem row13 (v4 : FVec F S16x128x512 .f32) (v6 : IVec S128x512 32) : k0_pay38 v4 v6 = rowS 13#32 v4 v6 := rfl

theorem cnt4 (x1 : Vec F S1x128x512 .i32) : k0_pay9 (F := F) x1 = rowN 4#32 (words x1) := rfl
theorem cnt5 (x1 : Vec F S1x128x512 .i32) : k0_pay13 (k0_pay12 (F := F) x1) = rowN 5#32 (words x1) := rfl
theorem cnt6 (v6 : IVec S128x512 32) : k0_pay16 (F := F) v6 = rowN 6#32 v6 := rfl
theorem cnt7 (v6 : IVec S128x512 32) : k0_pay19 (F := F) v6 = rowN 7#32 v6 := rfl
theorem cnt8 (v6 : IVec S128x512 32) : k0_pay23 (k0_pay22 (F := F) v6) = rowN 8#32 v6 := rfl
theorem cnt9 (v6 : IVec S128x512 32) : k0_pay26 (F := F) v6 = rowN 9#32 v6 := rfl
theorem cnt10 (v6 : IVec S128x512 32) : k0_pay29 (F := F) v6 = rowN 10#32 v6 := rfl
theorem cnt11 (v6 : IVec S128x512 32) : k0_pay33 (k0_pay30 (F := F) v6) = rowN 11#32 v6 := rfl
theorem cnt12 (v6 : IVec S128x512 32) : k0_pay36 (F := F) v6 = rowN 12#32 v6 := rfl
theorem cnt13 (v6 : IVec S128x512 32) : k0_pay39 (F := F) v6 = rowN 13#32 v6 := rfl

/-- The update of the first accumulator: what it held plus the tile's block of sums (the closing cast to the same shape
    is the identity). -/
theorem pay43_tile (x0 : Vec F S1x16x128x512 .f32) (x1 : Vec F S1x128x512 .i32) (xs0 : Vec F S12x16 .f32) :
    k0_pay43 (k0_pay5 x0) (k0_pay6 x1) (k0_pay8 x0 x1) (k0_pay11 x0 x1) (k0_pay15 (k0_pay5 x0) (k0_pay6 x1)) (k0_pay18 (k0_pay5 x0) (k0_pay6 x1)) (k0_pay21 (k0_pay5 x0) (k0_pay6 x1)) (k0_pay25 (k0_pay5 x0) (k0_pay6 x1)) (k0_pay28 (k0_pay5 x0) (k0_pay6 x1)) (k0_pay32 (k0_pay31 (k0_pay5 x0) (k0_pay6 x1))) (k0_pay35 (k0_pay5 x0) (k0_pay6 x1)) (k0_pay38 (k0_pay5 x0) (k0_pay6 x1)) (k0_pay41 (k0_pay5 x0) (k0_pay6 x1)) xs0 = addf xs0 (tileS x0 x1) :=
  (shapeCast_self _ _).trans rfl

/-- The update of the second accumulator: what it held plus the tile's block of counts. -/
theorem pay44_tile (x1 : Vec F S1x128x512 .i32) (xs1 : Vec F S12x1 .f32) :
    k0_pay44 (k0_pay6 x1) (k0_pay9 x1) (k0_pay13 (k0_pay12 x1)) (k0_pay16 (k0_pay6 x1)) (k0_pay19 (k0_pay6 x1)) (k0_pay23 (k0_pay22 (k0_pay6 x1))) (k0_pay26 (k0_pay6 x1)) (k0_pay29 (k0_pay6 x1)) (k0_pay33 (k0_pay30 (k0_pay6 x1))) (k0_pay36 (k0_pay6 x1)) (k0_pay39 (k0_pay6 x1)) (k0_pay40 (k0_pay6 x1)) xs1 = addf xs1 (tileN x1) :=
  (shapeCast_self _ _).trans rfl

/-! ## Case A: the first batch entry of a tile of rows — reset, then add -/

/-- The first accumulator ends at zero plus the tile's sums: of its two stores the later covers, and the value it adds to
    is the zero block read back. -/
theorem sout_A_0 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : cond0_0 i) (hc1 : ¬cond0_1 i) (x0 : Vec F S1x16x128x512 .f32) (x1 : Vec F S1x128x512 .i32) :
    sout0_A_0 c i a2 h2 a3 h3 a4 h4 a5 h5 a6 h6 a7 h7 hc0 hc1 x0 x1 = addf zeroS (tileS x0 x1) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S12x16) hz2]
  simp only [View.readAt_eq_ld, h2.read_unread, h3.read_unread, View.ld_unit_zero (S := S1x16x128x512) hz4, View.ld_unit_zero (S := S1x128x512) hz3, View.readCov_unit_zero (S := S12x16) _ hz2, View.readCov_unit_zero (S := S12x1) _ hz2]
  exact (pay43_tile x0 x1 k0_pay3).trans (congrArg (fun z => addf z (tileS x0 x1)) (shapeCast_self _ _))

/-- The second accumulator ends at zero plus the tile's counts. -/
theorem sout_A_1 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : cond0_0 i) (hc1 : ¬cond0_1 i) (x0 : Vec F S1x16x128x512 .f32) (x1 : Vec F S1x128x512 .i32) :
    sout0_A_1 c i a2 h2 a3 h3 a4 h4 a5 h5 a6 h6 a7 h7 hc0 hc1 x0 x1 = addf zeroN (tileN x1) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S12x1) hz2]
  simp only [View.readAt_eq_ld, h2.read_unread, h3.read_unread, View.ld_unit_zero (S := S1x16x128x512) hz4, View.ld_unit_zero (S := S1x128x512) hz3, View.readCov_unit_zero (S := S12x16) _ hz2, View.readCov_unit_zero (S := S12x1) _ hz2]
  exact (pay44_tile x1 k0_pay4).trans (congrArg (fun z => addf z (tileN x1)) (shapeCast_self _ _))

/-! ## Case B: a middle batch entry — add -/

/-- The first accumulator ends at what it held plus the tile's sums: its one covering store's payload. -/
theorem sout_B_0 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : ¬cond0_1 i) (x0 : Vec F S1x16x128x512 .f32) (x1 : Vec F S1x128x512 .i32) (xs0 : Vec F S12x16 .f32) (xs1 : Vec F S12x1 .f32) :
    sout0_B_0 c i a2 h2 a3 h3 a4 h4 a5 h5 a6 h6 a7 h7 hc0 hc1 x0 x1 xs0 xs1 = addf xs0 (tileS x0 x1) := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero (S := S12x16) hz2]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2]
  exact pay43_tile x0 x1 xs0

/-- The second accumulator ends at what it held plus the tile's counts. -/
theorem sout_B_1 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : ¬cond0_1 i) (x0 : Vec F S1x16x128x512 .f32) (x1 : Vec F S1x128x512 .i32) (xs0 : Vec F S12x16 .f32) (xs1 : Vec F S12x1 .f32) :
    sout0_B_1 c i a2 h2 a3 h3 a4 h4 a5 h5 a6 h6 a7 h7 hc0 hc1 x0 x1 xs0 xs1 = addf xs1 (tileN x1) := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero (S := S12x1) hz2]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2]
  exact pay44_tile x1 xs1

/-! ## Case C: the last batch entry — add, then copy the accumulators out -/

/-- The first accumulator ends at what it held plus the tile's sums. -/
theorem sout_C_0 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : cond0_1 i) (x0 : Vec F S1x16x128x512 .f32) (x1 : Vec F S1x128x512 .i32) (xs0 : Vec F S12x16 .f32) (xs1 : Vec F S12x1 .f32) :
    sout0_C_0 c i a2 h2 a3 h3 a4 h4 a5 h5 a6 h6 a7 h7 hc0 hc1 x0 x1 xs0 xs1 = addf xs0 (tileS x0 x1) := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero (S := S12x16) hz2]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2]
  exact pay43_tile x0 x1 xs0

/-- The second accumulator ends at what it held plus the tile's counts. -/
theorem sout_C_1 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : cond0_1 i) (x0 : Vec F S1x16x128x512 .f32) (x1 : Vec F S1x128x512 .i32) (xs0 : Vec F S12x16 .f32) (xs1 : Vec F S12x1 .f32) :
    sout0_C_1 c i a2 h2 a3 h3 a4 h4 a5 h5 a6 h6 a7 h7 hc0 hc1 x0 x1 xs0 xs1 = addf xs1 (tileN x1) := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero (S := S12x1) hz2]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2]
  exact pay44_tile x1 xs1

/-- The first output block is the first accumulator as just updated, read back and given a leading unit axis. -/
theorem out_C_2 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : cond0_1 i) (x0 : Vec F S1x16x128x512 .f32) (x1 : Vec F S1x128x512 .i32) (xs0 : Vec F S12x16 .f32) (xs1 : Vec F S12x1 .f32) :
    out0_C_2 c i a2 h2 a3 h3 a4 h4 a5 h5 a6 h6 a7 h7 hc0 hc1 x0 x1 xs0 xs1 = shapeCast S1x12x16 (addf xs0 (tileS x0 x1)) shapeCasts_S12x16_S1x12x16 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero (S := S1x12x16) hz3]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2, View.readCov_unit_zero (S := S12x16) _ hz2, View.readCov_unit_zero (S := S12x1) _ hz2]
  exact congrArg (fun z => shapeCast S1x12x16 z shapeCasts_S12x16_S1x12x16) (pay43_tile x0 x1 xs0)

/-- The second output block is the second accumulator as just updated, read back and given a leading unit axis. -/
theorem out_C_3 (c : Dev nD) (i : grid0.Coords) (a2 : Memref sig .tc .vmem S1x16x128x512 .f32) (h2 : a2.IsWhole) (a3 : Memref sig .tc .vmem S1x128x512 .i32) (h3 : a3.IsWhole) (a4 : Memref sig .tc .vmem S1x12x16 .f32) (h4 : a4.IsWhole) (a5 : Memref sig .tc .vmem S1x12x1 .f32) (h5 : a5.IsWhole) (a6 : Memref sig .tc .vmem S12x16 .f32) (h6 : a6.IsWhole) (a7 : Memref sig .tc .vmem S12x1 .f32) (h7 : a7.IsWhole) (hc0 : ¬cond0_0 i) (hc1 : cond0_1 i) (x0 : Vec F S1x16x128x512 .f32) (x1 : Vec F S1x128x512 .i32) (xs0 : Vec F S12x16 .f32) (xs1 : Vec F S12x1 .f32) :
    out0_C_3 c i a2 h2 a3 h3 a4 h4 a5 h5 a6 h6 a7 h7 hc0 hc1 x0 x1 xs0 xs1 = shapeCast S1x12x1 (addf xs1 (tileN x1)) shapeCasts_S12x1_S1x12x1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero (S := S1x12x1) hz3]
  simp only [View.readAt_eq_ld, h2.read_unread, h3.read_unread, h6.read_unread, h7.read_unread, View.ld_unit_zero (S := S1x16x128x512) hz4, View.ld_unit_zero (S := S1x128x512) hz3, View.ld_unit_zero (S := S12x16) hz2, View.ld_unit_zero (S := S12x1) hz2, View.readCov_unit_zero (S := S12x16) _ hz2, View.readCov_unit_zero (S := S12x1) _ hz2]
  exact congrArg (fun z => shapeCast S1x12x1 z shapeCasts_S12x1_S1x12x1) (pay44_tile x1 xs1)

end Cert.KernelIdeal.Pieces

end
-- ==== Proof.KGrid.lean ====
/-
  The grid, point by point.

  The grid's 64 points run through four rows of sixteen: point 16 · h + b stages batch entry b of the h-th tile of
  128 image rows. The two accumulators restart from the zero block at the first point of a row and grow by the tile's
  block of sums, and of counts, at every point; at the last point of a row they are copied into the two output blocks.
  So after every point the accumulators hold the running sums and counts of the row so far (by induction on the point),
  the output blocks of a row's last point are the running sums and counts there, and over the extended reals, where the
  zero block is 0, those are the sums over the row's sixteen tiles.
-/
import proofs.«425919_j61589831024790_3_alg».proof.Proof.KPieces
import proofs.«425919_j61589831024790_3_alg».proof.Proof.KTile
import proofs.«425919_j61589831024790_3_alg».proof.Proof.Gen.KernelIdeal.Frame
import Idealize.ShloMosaic.PureOps.Ideal.Laws
import Idealize.ShloMosaic.Lib.ValueIdx
import Mathlib.Algebra.BigOperators.Fin

set_option maxRecDepth 16384

noncomputable section

namespace Cert.KernelIdeal.Grid

open Idealize.ShloMosaic Idealize.ShloMosaic.TcCoe Idealize.ShloMosaic.ValueIdx Idealize.SL.Sem
open Cert.KernelIdeal Cert.KernelIdeal.Gen Cert.KernelIdeal.Tile Cert.KernelIdeal.Pieces

/-- Point 16 · h + j, with j below 16, is one of the grid's 64 points. -/
theorem pt_lt (h : Fin 4) (j : ℕ) (hj : j < 16) : 16 * h.val + j < cfg0.N := by
  rw [show cfg0.N = 64 from N_0]; omega

section Generic

variable {F : FTy → Type} [FloatOps F]
variable (m : (ℓ : Loc nD τ sig) → Buf (Elt F) ℓ)

/-- The block of channels staged at point t. -/
abbrev blk0 (c : Dev nD) (t : Fin cfg0.N) : Vec F S1x16x128x512 .f32 := iblk m c 0 t
/-- The block of group words staged at point t. -/
abbrev blk1 (c : Dev nD) (t : Fin cfg0.N) : Vec F S1x128x512 .i32 := iblk m c 1 t

/-- The running sums after point n: restarted from the zero block at every multiple of 16, and otherwise the
    running sums after point n - 1 plus the tile's sums. -/
def accS (c : Dev nD) : (n : ℕ) → n < cfg0.N → Vec F S12x16 .f32
  | 0, h => addf zeroS (tileS (blk0 m c ⟨0, h⟩) (blk1 m c ⟨0, h⟩))
  | n + 1, h =>
    if (n + 1) % 16 = 0 then addf zeroS (tileS (blk0 m c ⟨n + 1, h⟩) (blk1 m c ⟨n + 1, h⟩))
    else addf (accS c n (Nat.lt_of_succ_lt h)) (tileS (blk0 m c ⟨n + 1, h⟩) (blk1 m c ⟨n + 1, h⟩))

/-- The running counts after point n, likewise. -/
def accN (c : Dev nD) : (n : ℕ) → n < cfg0.N → Vec F S12x1 .f32
  | 0, h => addf zeroN (tileN (blk1 m c ⟨0, h⟩))
  | n + 1, h =>
    if (n + 1) % 16 = 0 then addf zeroN (tileN (blk1 m c ⟨n + 1, h⟩))
    else addf (accN c n (Nat.lt_of_succ_lt h)) (tileN (blk1 m c ⟨n + 1, h⟩))

/-- At a multiple of 16 the running sums restart. -/
theorem accS_reset (c : Dev nD) (n : ℕ) (h : n < cfg0.N) (h0 : n % 16 = 0) :
    accS m c n h = addf zeroS (tileS (blk0 m c ⟨n, h⟩) (blk1 m c ⟨n, h⟩)) := by
  cases n with
  | zero => rfl
  | succ n => exact if_pos h0

/-- Elsewhere they grow by the tile's sums. -/
theorem accS_step (c : Dev nD) (n : ℕ) (h : n + 1 < cfg0.N) (h0 : ¬(n + 1) % 16 = 0) :
    accS m c (n + 1) h = addf (accS m c n (Nat.lt_of_succ_lt h)) (tileS (blk0 m c ⟨n + 1, h⟩) (blk1 m c ⟨n + 1, h⟩)) :=
  if_neg h0

theorem accN_reset (c : Dev nD) (n : ℕ) (h : n < cfg0.N) (h0 : n % 16 = 0) :
    accN m c n h = addf zeroN (tileN (blk1 m c ⟨n, h⟩)) := by
  cases n with
  | zero => rfl
  | succ n => exact if_pos h0

theorem accN_step (c : Dev nD) (n : ℕ) (h : n + 1 < cfg0.N) (h0 : ¬(n + 1) % 16 = 0) :
    accN m c (n + 1) h = addf (accN m c n (Nat.lt_of_succ_lt h)) (tileN (blk1 m c ⟨n + 1, h⟩)) :=
  if_neg h0

/-- A point that restarts: both accumulators hold the zero block plus the tile's block. -/
theorem scr_A (c : Dev nD) (t : Fin cfg0.N) (h0 : t.val % 16 = 0) (h1 : ¬t.val % 16 = 15) :
    (outsAt0 m c t.val t.isLt).2.2.1 = addf zeroS (tileS (blk0 m c t) (blk1 m c t))
    ∧ (outsAt0 m c t.val t.isLt).2.2.2 = addf zeroN (tileN (blk1 m c t)) := by
  rw [outsAt0_A m c t h0 h1]
  dsimp only
  exact ⟨sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- A point in the middle of a row of the grid: both accumulators grow by the tile's block. -/
theorem scr_B (c : Dev nD) (t : Fin cfg0.N) (h0 : ¬t.val % 16 = 0) (h1 : ¬t.val % 16 = 15) :
    (outsAt0 m c t.val t.isLt).2.2.1 = addf (outsAt0 m c (t.val - 1) (Nat.lt_of_le_of_lt (Nat.sub_le _ _) t.isLt)).2.2.1 (tileS (blk0 m c t) (blk1 m c t))
    ∧ (outsAt0 m c t.val t.isLt).2.2.2 = addf (outsAt0 m c (t.val - 1) (Nat.lt_of_le_of_lt (Nat.sub_le _ _) t.isLt)).2.2.2 (tileN (blk1 m c t)) := by
  rw [outsAt0_B m c t h0 h1]
  dsimp only
  exact ⟨sout_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point of a row of the grid: both accumulators grow by the tile's block, -/
theorem scr_C (c : Dev nD) (t : Fin cfg0.N) (h0 : ¬t.val % 16 = 0) (h1 : t.val % 16 = 15) :
    (outsAt0 m c t.val t.isLt).2.2.1 = addf (outsAt0 m c (t.val - 1) (Nat.lt_of_le_of_lt (Nat.sub_le _ _) t.isLt)).2.2.1 (tileS (blk0 m c t) (blk1 m c t))
    ∧ (outsAt0 m c t.val t.isLt).2.2.2 = addf (outsAt0 m c (t.val - 1) (Nat.lt_of_le_of_lt (Nat.sub_le _ _) t.isLt)).2.2.2 (tileN (blk1 m c t)) := by
  rw [outsAt0_C m c t h0 h1]
  dsimp only
  exact ⟨sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- and the two output blocks are the grown accumulators, with a leading unit axis. -/
theorem out_C (c : Dev nD) (t : Fin cfg0.N) (h0 : ¬t.val % 16 = 0) (h1 : t.val % 16 = 15) :
    (outsAt0 m c t.val t.isLt).1 = shapeCast S1x12x16 (addf (outsAt0 m c (t.val - 1) (Nat.lt_of_le_of_lt (Nat.sub_le _ _) t.isLt)).2.2.1 (tileS (blk0 m c t) (blk1 m c t))) shapeCasts_S12x16_S1x12x16
    ∧ (outsAt0 m c t.val t.isLt).2.1 = shapeCast S1x12x1 (addf (outsAt0 m c (t.val - 1) (Nat.lt_of_le_of_lt (Nat.sub_le _ _) t.isLt)).2.2.2 (tileN (blk1 m c t))) shapeCasts_S12x1_S1x12x1 := by
  rw [outsAt0_C m c t h0 h1]
  dsimp only
  exact ⟨out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- After every point the two accumulators hold the running sums and the running counts: by induction on the point,
    the three kinds of point read off their case. -/
theorem scr_eq (c : Dev nD) : ∀ (n : ℕ) (h : n < cfg0.N),
    (outsAt0 m c n h).2.2.1 = accS m c n h ∧ (outsAt0 m c n h).2.2.2 = accN m c n h := by
  intro n
  induction n with
  | zero =>
    intro h
    have hA := scr_A m c ⟨0, h⟩ (Nat.zero_mod 16) (by show ¬0 % 16 = 15; decide)
    exact ⟨hA.1.trans (accS_reset m c 0 h (Nat.zero_mod 16)).symm, hA.2.trans (accN_reset m c 0 h (Nat.zero_mod 16)).symm⟩
  | succ n ih =>
    intro h
    have hN : n + 1 < 64 := lt_of_lt_of_eq h (show cfg0.N = 64 from N_0)
    have ih' := ih (Nat.lt_of_succ_lt h)
    by_cases h0 : (n + 1) % 16 = 0
    · have h1 : ¬(n + 1) % 16 = 15 := by omega
      have hA := scr_A m c ⟨n + 1, h⟩ h0 h1
      exact ⟨hA.1.trans (accS_reset m c (n + 1) h h0).symm, hA.2.trans (accN_reset m c (n + 1) h h0).symm⟩
    · by_cases h1 : (n + 1) % 16 = 15
      · have hC := scr_C m c ⟨n + 1, h⟩ h0 h1
        refine ⟨hC.1.trans ?_, hC.2.trans ?_⟩
        · rw [accS_step m c n h h0]
          exact congrArg (fun a => addf a (tileS (blk0 m c ⟨n + 1, h⟩) (blk1 m c ⟨n + 1, h⟩))) ih'.1
        · rw [accN_step m c n h h0]
          exact congrArg (fun a => addf a (tileN (blk1 m c ⟨n + 1, h⟩))) ih'.2
      · have hB := scr_B m c ⟨n + 1, h⟩ h0 h1
        refine ⟨hB.1.trans ?_, hB.2.trans ?_⟩
        · rw [accS_step m c n h h0]
          exact congrArg (fun a => addf a (tileS (blk0 m c ⟨n + 1, h⟩) (blk1 m c ⟨n + 1, h⟩))) ih'.1
        · rw [accN_step m c n h h0]
          exact congrArg (fun a => addf a (tileN (blk1 m c ⟨n + 1, h⟩))) ih'.2

/-- At the last point of a row of the grid the first output block is the running sums, with a leading unit axis. -/
theorem out2_eq (c : Dev nD) (t : Fin cfg0.N) (h15 : t.val % 16 = 15) :
    (outsAt0 m c t.val t.isLt).1 = shapeCast S1x12x16 (accS m c t.val t.isLt) shapeCasts_S12x16_S1x12x16 := by
  obtain ⟨n, h⟩ := t
  cases n with
  | zero => exact absurd h15 (by show ¬0 % 16 = 15; decide)
  | succ n =>
    have h0 : ¬(n + 1) % 16 = 0 := fun e => by dsimp only at h15; omega
    refine (out_C m c ⟨n + 1, h⟩ h0 h15).1.trans ?_
    show _ = shapeCast S1x12x16 (accS m c (n + 1) h) shapeCasts_S12x16_S1x12x16
    rw [accS_step m c n h h0]
    exact congrArg (fun a => shapeCast S1x12x16 (addf a (tileS (blk0 m c ⟨n + 1, h⟩) (blk1 m c ⟨n + 1, h⟩))) shapeCasts_S12x16_S1x12x16)
      (scr_eq m c n (Nat.lt_of_succ_lt h)).1

/-- And the second output block is the running counts, with a leading unit axis. -/
theorem out3_eq (c : Dev nD) (t : Fin cfg0.N) (h15 : t.val % 16 = 15) :
    (outsAt0 m c t.val t.isLt).2.1 = shapeCast S1x12x1 (accN m c t.val t.isLt) shapeCasts_S12x1_S1x12x1 := by
  obtain ⟨n, h⟩ := t
  cases n with
  | zero => exact absurd h15 (by show ¬0 % 16 = 15; decide)
  | succ n =>
    have h0 : ¬(n + 1) % 16 = 0 := fun e => by dsimp only at h15; omega
    refine (out_C m c ⟨n + 1, h⟩ h0 h15).2.trans ?_
    show _ = shapeCast S1x12x1 (accN m c (n + 1) h) shapeCasts_S12x1_S1x12x1
    rw [accN_step m c n h h0]
    exact congrArg (fun a => shapeCast S1x12x1 (addf a (tileN (blk1 m c ⟨n + 1, h⟩))) shapeCasts_S12x1_S1x12x1)
      (scr_eq m c n (Nat.lt_of_succ_lt h)).2

end Generic

/-! ## Over the extended reals: the running sum over one row of the grid is the sum of its sixteen tiles -/

/-- A sequence that restarts from 0 at every multiple of 16 and otherwise grows by the next term is, j steps into
    the k-th stretch of 16, the sum of that stretch's first j + 1 terms. -/
theorem restart_sum {N : ℕ} (hN : N = 64) (A T : (n : ℕ) → n < N → EReal)
    (hr : ∀ (n : ℕ) (h : n < N), n % 16 = 0 → A n h = 0 + T n h)
    (hs : ∀ (n : ℕ) (h : n + 1 < N), ¬(n + 1) % 16 = 0 → A (n + 1) h = A n (Nat.lt_of_succ_lt h) + T (n + 1) h)
    (k : ℕ) (hk : k < 4) : ∀ (j : ℕ) (hj : j < 16),
      A (16 * k + j) (by omega) = ∑ b : Fin (j + 1), T (16 * k + b.val) (by have := b.isLt; omega) := by
  intro j
  induction j with
  | zero =>
    intro hj
    rw [hr (16 * k + 0) (by omega) (by omega), zero_add, Fin.sum_univ_one]
    rfl
  | succ j ih =>
    intro hj
    rw [Fin.sum_univ_castSucc]
    exact (hs (16 * k + j) (by omega) (by omega)).trans (congrArg₂ (· + ·) (ih (by omega)) rfl)

section AtIdeal

variable (m : (ℓ : Loc nD τ sig) → Buf (Elt Ideal) ℓ)

/-- Over the extended reals the zero block is 0, so a restart leaves the tile's sums. -/
theorem accS_reset_apply (c : Dev nD) (n : ℕ) (h : n < cfg0.N) (h0 : n % 16 = 0) (i : S12x16.Idx) :
    accS m c n h i = 0 + tileS (F := Ideal) (blk0 m c ⟨n, h⟩) (blk1 m c ⟨n, h⟩) i := by
  rw [accS_reset m c n h h0, addf_apply]
  exact congrArg (· + tileS (F := Ideal) (blk0 m c ⟨n, h⟩) (blk1 m c ⟨n, h⟩) i) Ideal.ofBits_zero_f32

theorem accS_step_apply (c : Dev nD) (n : ℕ) (h : n + 1 < cfg0.N) (h0 : ¬(n + 1) % 16 = 0) (i : S12x16.Idx) :
    accS m c (n + 1) h i = accS m c n (Nat.lt_of_succ_lt h) i + tileS (F := Ideal) (blk0 m c ⟨n + 1, h⟩) (blk1 m c ⟨n + 1, h⟩) i := by
  rw [accS_step m c n h h0, addf_apply]

theorem accN_reset_apply (c : Dev nD) (n : ℕ) (h : n < cfg0.N) (h0 : n % 16 = 0) (i : S12x1.Idx) :
    accN m c n h i = 0 + tileN (F := Ideal) (blk1 m c ⟨n, h⟩) i := by
  rw [accN_reset m c n h h0, addf_apply]
  exact congrArg (· + tileN (F := Ideal) (blk1 m c ⟨n, h⟩) i) Ideal.ofBits_zero_f32

theorem accN_step_apply (c : Dev nD) (n : ℕ) (h : n + 1 < cfg0.N) (h0 : ¬(n + 1) % 16 = 0) (i : S12x1.Idx) :
    accN m c (n + 1) h i = accN m c n (Nat.lt_of_succ_lt h) i + tileN (F := Ideal) (blk1 m c ⟨n + 1, h⟩) i := by
  rw [accN_step m c n h h0, addf_apply]

/-- After the last point of the h-th row of the grid the running sums are the sums of the row's sixteen tiles. -/
theorem accS_last (c : Dev nD) (h : Fin 4) (i : S12x16.Idx) :
    accS m c (16 * h.val + 15) (pt_lt h 15 (by omega)) i
      = ∑ b : Fin 16, tileS (F := Ideal) (blk0 m c ⟨16 * h.val + b.val, pt_lt h b.val b.isLt⟩) (blk1 m c ⟨16 * h.val + b.val, pt_lt h b.val b.isLt⟩) i :=
  restart_sum (show cfg0.N = 64 from N_0) (fun n hn => accS m c n hn i)
    (fun n hn => tileS (F := Ideal) (blk0 m c ⟨n, hn⟩) (blk1 m c ⟨n, hn⟩) i)
    (fun n hn h0 => accS_reset_apply m c n hn h0 i) (fun n hn h0 => accS_step_apply m c n hn h0 i) h.val h.isLt 15 (by omega)

/-- And the running counts are the sums of the row's sixteen tiles' counts. -/
theorem accN_last (c : Dev nD) (h : Fin 4) (i : S12x1.Idx) :
    accN m c (16 * h.val + 15) (pt_lt h 15 (by omega)) i
      = ∑ b : Fin 16, tileN (F := Ideal) (blk1 m c ⟨16 * h.val + b.val, pt_lt h b.val b.isLt⟩) i :=
  restart_sum (show cfg0.N = 64 from N_0) (fun n hn => accN m c n hn i)
    (fun n hn => tileN (F := Ideal) (blk1 m c ⟨n, hn⟩) i)
    (fun n hn h0 => accN_reset_apply m c n hn h0 i) (fun n hn h0 => accN_step_apply m c n hn h0 i) h.val h.isLt 15 (by omega)

end AtIdeal

end Cert.KernelIdeal.Grid

end
-- ==== Proof.KBlocks.lean ====
/-
  The launch side of the value: a window's block is a restriction of its array, and a result array
  after the run is what the flushing points wrote into it.

  The grid has 64 points; point t is batch entry t mod 16 of the tile of image rows t / 16. The block of
  rep staged at t is rep[t mod 16, ·, 128 (t / 16) + ·, ·], the block of group words staged at t is
  sel[t mod 16, 128 (t / 16) + ·, ·]. The two result arrays have one block per tile, written back only at
  the last batch entry of the tile (t mod 16 = 15): the block of tile t / 16. So if what those sixteenth
  points leave in the two output buffers is, entry by entry, a function G read at (t / 16, ·, ·), the
  arrays end holding G: every index (h, k, ch) lies in the block of point 16 h + 15.
-/
import proofs.«425919_j61589831024790_3_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe
open Idealize.SL Idealize.SL.Sem
open Cert.KernelIdeal Cert.KernelIdeal.Gen Idealize.ShloMosaic.ValueIdx
open Idealize.ShloMosaic.Pipeline (Dat)

variable {F : FTy → Type} [FloatOps F]

variable (m : (ℓ : Loc nD τ sig) → Buf (Elt F) ℓ)

/-- The grid has 64 points. -/
theorem pt_lt (t : Fin cfg0.N) : t.val < 64 := lt_of_lt_of_eq t.isLt (show cfg0.N = 64 from N_0)

/-- The four windows' block indices at point t, decided once over the 64 points: windows 0 and 1 follow the
    batch entry t mod 16 and the tile t / 16; windows 2 and 3 follow the tile alone. -/
theorem idx_facts : ∀ t : Fin cfg0.N,
    win0_0.index t (0 : Fin 4) = t.val % 16 ∧ win0_0.index t (1 : Fin 4) = 0
    ∧ win0_0.index t (2 : Fin 4) = t.val / 16 ∧ win0_0.index t (3 : Fin 4) = 0
    ∧ win0_1.index t (0 : Fin 3) = t.val % 16 ∧ win0_1.index t (1 : Fin 3) = t.val / 16
    ∧ win0_1.index t (2 : Fin 3) = 0
    ∧ win0_2.index t (0 : Fin 3) = t.val / 16 ∧ win0_2.index t (1 : Fin 3) = 0
    ∧ win0_2.index t (2 : Fin 3) = 0
    ∧ win0_3.index t (0 : Fin 3) = t.val / 16 ∧ win0_3.index t (1 : Fin 3) = 0
    ∧ win0_3.index t (2 : Fin 3) = 0 :=
  (by decide +kernel : ∀ t : Fin grid0.N, _)

/-! ## The input blocks -/

/-- The block of rep staged at point t is rep at batch entry t mod 16, image rows 128 (t / 16) + r:
    a block's coordinate is its block index times the block's extent plus the coordinate inside it. -/
theorem iblk0_apply (c : Dev nD) (t : Fin cfg0.N) (ch : Fin 16) (r : Fin 128) (w : Fin 512) :
    (iblk m c 0 t : Vec F S1x16x128x512 .f32) (ix4 (0 : Fin 1) ch r w)
      = (V m c main_arg0 : S16x16x512x512.Idx → Elt F .f32)
          (ix4 (⟨t.val % 16, Nat.mod_lt _ (by decide)⟩ : Fin 16) ch
            (⟨128 * (t.val / 16) + r.val, by have := pt_lt t; have := r.isLt; omega⟩ : Fin 512) w) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = t.val % 16; omega
  | ⟨1, _⟩ => show win0_0.index t (1 : Fin 4) * 16 + 1 * ch.val = ch.val; omega
  | ⟨2, _⟩ => show win0_0.index t (2 : Fin 4) * 128 + 1 * r.val = 128 * (t.val / 16) + r.val; omega
  | ⟨3, _⟩ => show win0_0.index t (3 : Fin 4) * 512 + 1 * w.val = w.val; omega

/-- The block of group words staged at point t is the word array at batch entry t mod 16, image rows
    128 (t / 16) + r. -/
theorem iblk1_apply (c : Dev nD) (t : Fin cfg0.N) (r : Fin 128) (w : Fin 512) :
    (iblk m c 1 t : Vec F S1x128x512 .i32) (ix3 (0 : Fin 1) r w)
      = (V m c main_v14 : S16x512x512.Idx → BitVec 32)
          (ix3 (⟨t.val % 16, Nat.mod_lt _ (by decide)⟩ : Fin 16)
            (⟨128 * (t.val / 16) + r.val, by have := pt_lt t; have := r.isLt; omega⟩ : Fin 512) w) := by
  obtain ⟨-, -, -, -, e0, e1, e2, -⟩ := idx_facts t
  unfold iblk
  rw [View.read_apply]
  show V m c main_v14 _ = V m c main_v14 _
  congr 1
  funext a
  apply Fin.ext
  match a with
  | ⟨0, _⟩ => show win0_1.index t (0 : Fin 3) * 1 + 1 * 0 = t.val % 16; omega
  | ⟨1, _⟩ => show win0_1.index t (1 : Fin 3) * 128 + 1 * r.val = 128 * (t.val / 16) + r.val; omega
  | ⟨2, _⟩ => show win0_1.index t (2 : Fin 3) * 512 + 1 * w.val = w.val; omega

/-! ## The first result array -/

/-- What a flushing point writes back into the first result array is its block of G. -/
theorem flushed2_eq (c : Dev nD) (G : Buf (Elt F) ((c : Thread nD τ).loc main_v15_0))
    (hG : ∀ (t : Fin cfg0.N), t.val % 16 = 15 → ∀ (k : Fin 12) (ch : Fin 16),
      (outsAt0 m c t.val t.isLt).1 (ix3 (0 : Fin 1) k ch)
        = G (ix3 (⟨t.val / 16, by have := pt_lt t; omega⟩ : Fin 4) k ch))
    (t : Fin cfg0.N) (hf : (cfg0.win 2).flush t = true) :
    (dats m 0 c).flushed 2 t = ((cfg0.win 2).blk t).view.read (Elt F) G := by
  have h15 : t.val % 16 = 15 := (flush0_2 t).mp hf
  obtain ⟨-, -, -, -, -, -, -, e0, e1, e2, -⟩ := idx_facts t
  show (cfg0.win 2).cut (grid0.coords t) ((dats m 0 c).after 2 t) = _
  rw [after0_2]
  refine funext fun (j : S1x12x16.Idx) => ?_
  obtain ⟨j0, k, ch, rfl⟩ : ∃ (j0 : Fin 1) (k : Fin 12) (ch : Fin 16), j = ix3 j0 k ch := ⟨j 0, j 1, j 2, eq_ix3 j⟩
  obtain rfl : j0 = 0 := Subsingleton.elim _ _
  show (outsAt0 m c t.val t.isLt).1 (ix3 (0 : Fin 1) k ch) = _
  rw [hG t h15 k ch, View.read_apply]
  show G _ = G _
  congr 1
  funext a
  apply Fin.ext
  match a with
  | ⟨0, _⟩ => show t.val / 16 = win0_2.index t (0 : Fin 3) * 1 + 1 * 0; omega
  | ⟨1, _⟩ => show k.val = win0_2.index t (1 : Fin 3) * 12 + 1 * k.val; omega
  | ⟨2, _⟩ => show ch.val = win0_2.index t (2 : Fin 3) * 16 + 1 * ch.val; omega

/-- An index of the first result array is in point t's block iff each coordinate is in the block's range. -/
theorem mem_blk2 (t : Fin cfg0.N) (i : S4x12x16.Idx) :
    i ∈ ((cfg0.win 2).blk t).view.set ↔ ∀ a : Fin 3, win0_2.index t a * S1x12x16.size a ≤ (i a).val
      ∧ (i a).val < win0_2.index t a * S1x12x16.size a + S1x12x16.size a := by
  show i ∈ ((View.whole main_v15_0).slice (win0_2.rect t)).set ↔ _
  rw [View.set_slice_whole, Rect.mem_set_unit]
  exact Iff.rfl

/-- Index (h, k, ch) lies in the block of the last point of tile h. -/
theorem cover2 (i : S4x12x16.Idx) (t : Fin cfg0.N) (ht : t.val = 16 * (i 0).val + 15) :
    i ∈ ((cfg0.win 2).blk t).view.set := by
  rw [mem_blk2]
  obtain ⟨-, -, -, -, -, -, -, e0, e1, e2, -⟩ := idx_facts t
  have h0 : (i 0).val < 4 := (i 0).isLt
  have h1 : (i 1).val < 12 := (i 1).isLt
  have h2 : (i 2).val < 16 := (i 2).isLt
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 12 ≤ (i 1).val ∧ (i 1).val < win0_2.index t (1 : Fin 3) * 12 + 12; omega
  | ⟨2, _⟩ => show win0_2.index t (2 : Fin 3) * 16 ≤ (i 2).val ∧ (i 2).val < win0_2.index t (2 : Fin 3) * 16 + 16; omega

/-- The first result array after the run: if what each tile's last point leaves in the output buffer is G
    read at the tile, the array is G. -/
theorem arr2_of_flushed (c : Dev nD) (G : Buf (Elt F) ((c : Thread nD τ).loc main_v15_0))
    (hG : ∀ (t : Fin cfg0.N), t.val % 16 = 15 → ∀ (k : Fin 12) (ch : Fin 16),
      (outsAt0 m c t.val t.isLt).1 (ix3 (0 : Fin 1) k ch)
        = G (ix3 (⟨t.val / 16, by have := pt_lt t; omega⟩ : Fin 4) k ch)) :
    (dats m 0 c).arrAt 2 cfg0.N = G :=
  (dats m 0 c).arrAt_eq_of_cover 2 G (flushed2_eq m c G hG) fun (i : S4x12x16.Idx) =>
    have h0 : (i 0).val < 4 := (i 0).isLt
    have hN : 16 * (i 0).val + 15 < cfg0.N := lt_of_lt_of_eq (by omega : 16 * (i 0).val + 15 < 64) (show cfg0.N = 64 from N_0).symm
    ⟨⟨16 * (i 0).val + 15, hN⟩, (flush0_2 _).mpr (by show (16 * (i 0).val + 15) % 16 = 15; omega), cover2 i _ rfl⟩

/-! ## The second result array -/

/-- What a flushing point writes back into the second result array is its block of G. -/
theorem flushed3_eq (c : Dev nD) (G : Buf (Elt F) ((c : Thread nD τ).loc main_v15_1))
    (hG : ∀ (t : Fin cfg0.N), t.val % 16 = 15 → ∀ (k : Fin 12),
      (outsAt0 m c t.val t.isLt).2.1 (ix3 (0 : Fin 1) k (0 : Fin 1))
        = G (ix3 (⟨t.val / 16, by have := pt_lt t; omega⟩ : Fin 4) k (0 : Fin 1)))
    (t : Fin cfg0.N) (hf : (cfg0.win 3).flush t = true) :
    (dats m 0 c).flushed 3 t = ((cfg0.win 3).blk t).view.read (Elt F) G := by
  have h15 : t.val % 16 = 15 := (flush0_3 t).mp hf
  obtain ⟨-, -, -, -, -, -, -, -, -, -, e0, e1, e2⟩ := idx_facts t
  show (cfg0.win 3).cut (grid0.coords t) ((dats m 0 c).after 3 t) = _
  rw [after0_3]
  refine funext fun (j : S1x12x1.Idx) => ?_
  obtain ⟨j0, k, j2, rfl⟩ : ∃ (j0 : Fin 1) (k : Fin 12) (j2 : Fin 1), j = ix3 j0 k j2 := ⟨j 0, j 1, j 2, eq_ix3 j⟩
  obtain rfl : j0 = 0 := Subsingleton.elim _ _
  obtain rfl : j2 = 0 := Subsingleton.elim _ _
  show (outsAt0 m c t.val t.isLt).2.1 (ix3 (0 : Fin 1) k (0 : Fin 1)) = _
  rw [hG t h15 k, View.read_apply]
  show G _ = G _
  congr 1
  funext a
  apply Fin.ext
  match a with
  | ⟨0, _⟩ => show t.val / 16 = win0_3.index t (0 : Fin 3) * 1 + 1 * 0; omega
  | ⟨1, _⟩ => show k.val = win0_3.index t (1 : Fin 3) * 12 + 1 * k.val; omega
  | ⟨2, _⟩ => show 0 = win0_3.index t (2 : Fin 3) * 1 + 1 * 0; omega

/-- An index of the second result array is in point t's block iff each coordinate is in the block's range. -/
theorem mem_blk3 (t : Fin cfg0.N) (i : S4x12x1.Idx) :
    i ∈ ((cfg0.win 3).blk t).view.set ↔ ∀ a : Fin 3, win0_3.index t a * S1x12x1.size a ≤ (i a).val
      ∧ (i a).val < win0_3.index t a * S1x12x1.size a + S1x12x1.size a := by
  show i ∈ ((View.whole main_v15_1).slice (win0_3.rect t)).set ↔ _
  rw [View.set_slice_whole, Rect.mem_set_unit]
  exact Iff.rfl

/-- Index (h, k, 0) lies in the block of the last point of tile h. -/
theorem cover3 (i : S4x12x1.Idx) (t : Fin cfg0.N) (ht : t.val = 16 * (i 0).val + 15) :
    i ∈ ((cfg0.win 3).blk t).view.set := by
  rw [mem_blk3]
  obtain ⟨-, -, -, -, -, -, -, -, -, -, e0, e1, e2⟩ := idx_facts t
  have h0 : (i 0).val < 4 := (i 0).isLt
  have h1 : (i 1).val < 12 := (i 1).isLt
  have h2 : (i 2).val < 1 := (i 2).isLt
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 12 ≤ (i 1).val ∧ (i 1).val < win0_3.index t (1 : Fin 3) * 12 + 12; omega
  | ⟨2, _⟩ => show win0_3.index t (2 : Fin 3) * 1 ≤ (i 2).val ∧ (i 2).val < win0_3.index t (2 : Fin 3) * 1 + 1; omega

/-- The second result array after the run, likewise. -/
theorem arr3_of_flushed (c : Dev nD) (G : Buf (Elt F) ((c : Thread nD τ).loc main_v15_1))
    (hG : ∀ (t : Fin cfg0.N), t.val % 16 = 15 → ∀ (k : Fin 12),
      (outsAt0 m c t.val t.isLt).2.1 (ix3 (0 : Fin 1) k (0 : Fin 1))
        = G (ix3 (⟨t.val / 16, by have := pt_lt t; omega⟩ : Fin 4) k (0 : Fin 1))) :
    (dats m 0 c).arrAt 3 cfg0.N = G :=
  (dats m 0 c).arrAt_eq_of_cover 3 G (flushed3_eq m c G hG) fun (i : S4x12x1.Idx) =>
    have h0 : (i 0).val < 4 := (i 0).isLt
    have hN : 16 * (i 0).val + 15 < cfg0.N := lt_of_lt_of_eq (by omega : 16 * (i 0).val + 15 < 64) (show cfg0.N = 64 from N_0).symm
    ⟨⟨16 * (i 0).val + 15, hN⟩, (flush0_3 _).mpr (by show (16 * (i 0).val + 15) % 16 = 15; omega), cover3 i _ rfl⟩

end Cert.KernelIdeal.Blocks

end
-- ==== Proof.Spec.lean ====
/-
  The mathematics both programs are read against, over the extended reals.

  A pixel is a triple (b, y, x) of a 16 × 512 × 512 image batch. Its weight bit is
  "mask(y, x) = 1 and target ≠ 0 and cond", its group word is 4 · target + matched (32-bit words).
  The reference adds rep(b, ·, y, x) · weight into the row of its group word, for the sixteen
  groups; the kernel adds rep · [sel = g] for the twelve groups g = 4 … 15, where sel is the group
  word of a weighted pixel and the word -1 otherwise, tile of 128 image rows by tile. Both then
  apply the same row update (a momentum mix where the count is positive) and the same row
  normalisation; the kernel leaves rows 0 … 3 of the table as they are before normalising.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SRep : Shape := ⟨4, ![16, 16, 512, 512]⟩
abbrev SPix : Shape := ⟨3, ![16, 512, 512]⟩
abbrev SMask : Shape := ⟨2, ![512, 512]⟩
abbrev SProto : Shape := ⟨3, ![4, 4, 16]⟩

/-- The literals the two programs share, as their words (never evaluated but for the zero). -/
abbrev zero : EReal := Ideal.ofBits .f32 0x00000000#32
abbrev one : EReal := Ideal.ofBits .f32 0x3F800000#32
abbrev c99 : EReal := Ideal.ofBits .f32 0x3F7D70A4#32
abbrev c01 : EReal := Ideal.ofBits .f32 0x3C23D70A#32
abbrev eps : EReal := Ideal.ofBits .f32 0x2B8CBCCC#32

/-- The indicator of "the word s is the group g". -/
def ind (s g : BitVec 32) : EReal := if s = g then 1 else 0

/-- A weight bit read as a number (0 or 1). -/
def wgt (v : BitVec 1) : EReal := ((v.toNat : ℝ) : EReal)

/-- Image row 128 · h + r: row r of the h-th tile of 128 rows. -/
def rowOf (h : Fin 4) (r : Fin 128) : Fin 512 := ⟨128 * h.val + r.val, by omega⟩

/-- Row 4 · a + b of the flattened 16 × 16 table. -/
def grp (a b : Fin 4) : Fin 16 := ⟨4 * a.val + b.val, by omega⟩

section Pixels

variable (selm : SMask.Idx → BitVec 32) (tgt : SPix.Idx → BitVec 32) (cond : SPix.Idx → BitVec 1)
  (mat : SPix.Idx → BitVec 32)

/-- The weight bit of pixel (b, y, x): the mask is 1 there, the target is not 0, and cond holds. -/
def vbit (b : Fin 16) (y x : Fin 512) : BitVec 1 :=
  IntOp.andi (IntOp.andi (IntOp.cmpi .eq (selm (ix2 y x)) 1#32) (IntOp.cmpi .ne (tgt (ix3 b y x)) 0#32)) (cond (ix3 b y x))

/-- The group word of pixel (b, y, x): 4 · target + matched, in 32-bit arithmetic. -/
def gidw (b : Fin 16) (y x : Fin 512) : BitVec 32 :=
  IntOp.addi (IntOp.muli (tgt (ix3 b y x)) 4#32) (mat (ix3 b y x))

/-- The kernel's word for pixel (b, y, x): the group word of a weighted pixel, -1 otherwise. -/
def selw (b : Fin 16) (y x : Fin 512) : BitVec 32 :=
  Scalar.select (vbit selm tgt cond b y x) (gidw tgt mat b y x) 4294967295#32

end Pixels

/-- The reference's sum for group g, channel ch: the zero it scatters into plus, over all pixels whose group
    word read signed is g, rep times the weight. -/
def refSum (rep : SRep.Idx → EReal) (vb : Fin 16 → Fin 512 → Fin 512 → BitVec 1) (gw : Fin 16 → Fin 512 → Fin 512 → BitVec 32)
    (g ch : Fin 16) : EReal :=
  zero + ∑ b : Fin 16, ∑ y : Fin 512, ∑ x : Fin 512,
    if (gw b y x).toInt = (g.val : ℤ) then rep (ix4 b ch y x) * wgt (vb b y x) else 0

/-- The reference's count for group g. -/
def refCnt (vb : Fin 16 → Fin 512 → Fin 512 → BitVec 1) (gw : Fin 16 → Fin 512 → Fin 512 → BitVec 32) (g : Fin 16) : EReal :=
  zero + ∑ b : Fin 16, ∑ y : Fin 512, ∑ x : Fin 512, if (gw b y x).toInt = (g.val : ℤ) then wgt (vb b y x) else 0

/-- The kernel's partial sum of tile h for its k-th group (group k + 4), channel ch. -/
def tileSum (rep : SRep.Idx → EReal) (sel : Fin 16 → Fin 512 → Fin 512 → BitVec 32) (k : Fin 12) (ch : Fin 16) (h : Fin 4) : EReal :=
  ∑ b : Fin 16, ∑ r : Fin 128, ∑ w : Fin 512,
    rep (ix4 b ch (rowOf h r) w) * ind (sel b (rowOf h r) w) (BitVec.ofNat 32 (k.val + 4))

/-- The kernel's partial count of tile h for its k-th group. -/
def tileCnt (sel : Fin 16 → Fin 512 → Fin 512 → BitVec 32) (k : Fin 12) (h : Fin 4) : EReal :=
  ∑ b : Fin 16, ∑ r : Fin 128, ∑ w : Fin 512, ind (sel b (rowOf h r) w) (BitVec.ofNat 32 (k.val + 4))

/-- The kernel's sum for its k-th group: the host's zero plus the four tiles' partial sums. -/
def kerSum (rep : SRep.Idx → EReal) (sel : Fin 16 → Fin 512 → Fin 512 → BitVec 32) (k : Fin 12) (ch : Fin 16) : EReal :=
  zero + ∑ h : Fin 4, tileSum rep sel k ch h

/-- The kernel's count for its k-th group. -/
def kerCnt (sel : Fin 16 → Fin 512 → Fin 512 → BitVec 32) (k : Fin 12) : EReal :=
  zero + ∑ h : Fin 4, tileCnt sel k h

/-- The momentum update of one table entry p from a group's sum s and count n: where the count is positive,
    0.99 · p + 0.01 · (s / max(n, 1)); else p. -/
def upd (s n p : EReal) : EReal :=
  Scalar.select (Ideal.cmp .ogt n zero) (c99 * p + c01 * Ideal.div s (max n one)) p

/-- A row divided by the larger of its Euclidean norm and eps. -/
def rowOut (U : Fin 16 → EReal) (ch : Fin 16) : EReal :=
  Ideal.div (U ch) (max (Ideal.sqrt (zero + ∑ k : Fin 16, U k * U k)) eps)

/-- The flattened table: row 4 · a + b is protos[a, b, ·]. -/
def flat (P : SProto.Idx → EReal) (g ch : Fin 16) : EReal :=
  P (ix3 (⟨g.val / 4, by omega⟩ : Fin 4) (⟨g.val % 4, by omega⟩ : Fin 4) ch)

/-- The result from the updated table U: entry (a, b, ch) is row 4 · a + b of U, normalised, at ch. -/
def result (U : Fin 16 → Fin 16 → EReal) (a b : Fin 4) (ch : Fin 16) : EReal :=
  rowOut (U (grp a b)) ch

/-- The reference's updated table. -/
def Uref (S : Fin 16 → Fin 16 → EReal) (N : Fin 16 → EReal) (P : SProto.Idx → EReal) (g ch : Fin 16) : EReal :=
  upd (S g ch) (N g) (flat P g ch)

/-- The kernel's updated table: rows 0 … 3 untouched, row k + 4 updated from the k-th group's sum and count. -/
def Uker (S : Fin 12 → Fin 16 → EReal) (N : Fin 12 → EReal) (P : SProto.Idx → EReal) (g ch : Fin 16) : EReal :=
  if h : g.val < 4 then flat P g ch
  else upd (S ⟨g.val - 4, by omega⟩ ch) (N ⟨g.val - 4, by omega⟩) (flat P g ch)

end Cert.Spec

end
-- ==== Proof.KHost.lean ====
/-
  The host operations of the kernel's program around its region.

  Before the region the host builds, pixel by pixel, the 32-bit word "4 · target + matched where the pixel is weighted,
  -1 elsewhere", which the region's second window stages. After the region it adds the four tiles' partial sums and
  counts, updates rows 4 … 15 of the flattened table by the momentum mix where the count is positive, divides every row
  by the larger of its Euclidean norm and eps, and reshapes to 4 × 4 × 16. Both are read here index by index against the
  specification's words and numbers.
-/
import proofs.«425919_j61589831024790_3_alg».proof.Proof.Gen.KernelIdeal.Frame
import proofs.«425919_j61589831024790_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Host

open Cert.KernelIdeal Cert.KernelIdeal.Gen Idealize.ShloMosaic Idealize.ShloMosaic.ValueIdx
open Idealize.ShloMosaic.TcCoe Idealize.SL.Sem Idealize.ShloMosaic.StableHlo

/-! ## The host operations before the region: the kernel's group word array

The region's second window stages `main_v14`, which the host writes as
`select(valid, 4 · target + matched, -1)`; `matched` (`main_v2`) is left as the array the host operations
before it leave. The chain of host operations is cut after the reshape that writes `main_v2`: what follows reads
only `main_v2` and the arguments, which nothing after the cut writes. -/

section Before

variable {F : FTy → Type} [FloatOps F]
variable (m : (ℓ : Loc nD τ sig) → Buf (Elt F) ℓ)

/-- The host operations before the region up to and including the reshape that writes the matched index array. -/
abbrev opsA : List (HloOp τ sig (Elt F)) :=
  hostOps0 ++ hostOps0_1 ++ [StableHlo.reshape main_v1 main_v2 rfl shapeCasts_S16x512x512x1_S16x512x512]

/-- The host operations before the region after that reshape. -/
abbrev opsB : List (HloOp τ sig (Elt F)) := (hostOps0_2 (F := F)).tail ++ hostOps0_3

/-- The contents at the region's entry are the second part's after the first part's. -/
theorem V0_split (c : Dev nD) :
    V0 m c = StableHlo.after (opsB (F := F)) (StableHlo.after (opsA (F := F)) (fun b => m (c, b))) := by
  rw [← StableHlo.after_append]
  rfl

/-- The contents after the first part. -/
abbrev WA (c : Dev nD) : Valuation τ sig (Elt F) := StableHlo.after (opsA (F := F)) (fun b => m (c, b))

/-- The second part does not write the matched index array: the region finds it as the first part leaves it. -/
theorem WA_v2 (c : Dev nD) : WA m c (Proc.devRef .tc main_v2) = V m c main_v2 := by
  dsimp only [V]
  rw [V0_split]
  refine (StableHlo.after_of_forall_not_mem (b := Proc.devRef .tc main_v2) _ _ (List.forall_iff_forall_mem.mp ?_)).symm
  simp only [opsB, hostOps0_2, hostOps0_3, List.tail_cons, List.cons_append, List.nil_append, List.Forall,
    StableHlo.nullary_writes, StableHlo.unary_writes, StableHlo.binary_writes, StableHlo.ternary_writes, StableHlo.reshape_writes, Finset.mem_singleton]
  repeat' apply And.intro
  all_goals exact StableHlo.devRef_ne_of_ne (by decide)

/-- The first part writes none of the three arguments the second part reads. -/
theorem WA_arg (c : Dev nD) (r : Ref sig .tc) (hr : r = main_arg3 ∨ r = main_arg4 ∨ r = main_arg5) :
    WA m c (Proc.devRef .tc r) = m ((c : Thread nD τ).loc r) := by
  refine StableHlo.after_of_forall_not_mem (b := Proc.devRef .tc r) _ _ (List.forall_iff_forall_mem.mp ?_)
  simp only [opsA, hostOps0, hostOps0_1, List.cons_append, List.nil_append, List.Forall,
    StableHlo.nullary_writes, StableHlo.unary_writes, StableHlo.binary_writes, StableHlo.ternary_writes, StableHlo.reshape_writes, Finset.mem_singleton]
  rcases hr with rfl | rfl | rfl
  all_goals (repeat' apply And.intro)
  all_goals exact StableHlo.devRef_ne_of_ne (by decide)

/-- The second part's result as one array term: where the mask is 1, the target is not 0 and cond holds, 4 · target +
    matched; elsewhere the word -1. -/
def selArr (sm : (⟨S512x512, .i32⟩ : BufTy).Contents (Elt F)) (tg : (⟨S16x512x512, .i32⟩ : BufTy).Contents (Elt F))
    (cd : (⟨S16x512x512, .i1⟩ : BufTy).Contents (Elt F)) (mt : (⟨S16x512x512, .i32⟩ : BufTy).Contents (Elt F)) :
    (⟨S16x512x512, .i32⟩ : BufTy).Contents (Elt F) :=
  select
    (andi
      (andi
        (broadcastInDim S16x512x512 ![0, 1, 2] bcast_S1x512x512_S16x512x512_0_1_2
          (cmpi .eq (broadcastInDim S1x512x512 ![1, 2] bcast_S512x512_S1x512x512_1_2 sm)
            (broadcastInDim S1x512x512 ![] bcast_S_S1x512x512 (constantI S_ 32 1#32))))
        (cmpi .ne tg (broadcastInDim S16x512x512 ![] bcast_S_S16x512x512 (constantI S_ 32 0#32))))
      cd)
    (addi (muli tg (broadcastInDim S16x512x512 ![] bcast_S_S16x512x512 (constantI S_ 32 4#32))) mt)
    (broadcastInDim S16x512x512 ![] bcast_S_S16x512x512 (constantI S_ 32 4294967295#32))

set_option maxHeartbeats 1000000 in
/-- The group word array the region finds is that term of the arguments and the matched index array. -/
theorem V14_term (c : Dev nD) :
    V m c main_v14 = selArr (F := F) (m ((c : Thread nD τ).loc main_arg4)) (m ((c : Thread nD τ).loc main_arg3))
      (m ((c : Thread nD τ).loc main_arg5)) (V m c main_v2) := by
  rw [← WA_v2 m c, ← WA_arg m c main_arg3 (Or.inl rfl), ← WA_arg m c main_arg4 (Or.inr (Or.inl rfl)),
    ← WA_arg m c main_arg5 (Or.inr (Or.inr rfl))]
  dsimp only [V]
  rw [V0_split]
  show StableHlo.after (opsB (F := F)) (WA m c) (Proc.devRef .tc main_v14) = _
  generalize WA m c = W
  simp only [opsB, hostOps0_2, hostOps0_3, List.tail_cons, List.cons_append, List.nil_append]
  after_results_simp
  rfl

/-- A scalar broadcast reads its one value everywhere. -/
theorem bscalar {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- The group word array read at a pixel is the specification's word there. -/
theorem selArr_apply (sm : (⟨S512x512, .i32⟩ : BufTy).Contents (Elt F)) (tg : (⟨S16x512x512, .i32⟩ : BufTy).Contents (Elt F))
    (cd : (⟨S16x512x512, .i1⟩ : BufTy).Contents (Elt F)) (mt : (⟨S16x512x512, .i32⟩ : BufTy).Contents (Elt F))
    (b : Fin 16) (y x : Fin 512) :
    selArr (F := F) sm tg cd mt (ix3 b y x) = Cert.Spec.selw sm tg cd mt b y x := by
  have h1 : ∀ z : S1x512x512.Idx → BitVec 1,
      broadcastInDim S16x512x512 ![0, 1, 2] bcast_S1x512x512_S16x512x512_0_1_2 z (ix3 b y x) = z (ix3 (0 : Fin 1) y x) :=
    fun z => broadcastInDim_apply _ bcast_S1x512x512_S16x512x512_0_1_2 z (ix3 b y x) (ix3 (0 : Fin 1) y x) (fun a => match a with
      | ⟨0, _⟩ => by show 0 = if (1 : Nat) = 1 then 0 else b.val; rw [if_pos rfl]
      | ⟨1, _⟩ => by show y.val = if (512 : Nat) = 1 then 0 else y.val; rw [if_neg (by decide)]
      | ⟨2, _⟩ => by show x.val = if (512 : Nat) = 1 then 0 else x.val; rw [if_neg (by decide)])
  have h2 : broadcastInDim S1x512x512 ![1, 2] bcast_S512x512_S1x512x512_1_2 sm (ix3 (0 : Fin 1) y x) = sm (ix2 y x) :=
    broadcastInDim_apply _ bcast_S512x512_S1x512x512_1_2 sm (ix3 (0 : Fin 1) y x) (ix2 y x) (fun a => match a with
      | ⟨0, _⟩ => by show y.val = if (512 : Nat) = 1 then 0 else y.val; rw [if_neg (by decide)]
      | ⟨1, _⟩ => by show x.val = if (512 : Nat) = 1 then 0 else x.val; rw [if_neg (by decide)])
  unfold selArr Cert.Spec.selw Cert.Spec.vbit Cert.Spec.gidw
  show Scalar.select (IntOp.andi (IntOp.andi
        (broadcastInDim S16x512x512 ![0, 1, 2] bcast_S1x512x512_S16x512x512_0_1_2
          (cmpi .eq (broadcastInDim S1x512x512 ![1, 2] bcast_S512x512_S1x512x512_1_2 sm)
            (broadcastInDim S1x512x512 ![] bcast_S_S1x512x512 (constantI S_ 32 1#32))) (ix3 b y x))
        (IntOp.cmpi .ne (tg (ix3 b y x)) (broadcastInDim S16x512x512 ![] bcast_S_S16x512x512 (constantI S_ 32 0#32) (ix3 b y x))))
        (cd (ix3 b y x)))
      (IntOp.addi (IntOp.muli (tg (ix3 b y x)) (broadcastInDim S16x512x512 ![] bcast_S_S16x512x512 (constantI S_ 32 4#32) (ix3 b y x)))
        (mt (ix3 b y x)))
      (broadcastInDim S16x512x512 ![] bcast_S_S16x512x512 (constantI S_ 32 4294967295#32) (ix3 b y x)) = _
  rw [h1, bscalar, bscalar, bscalar]
  show Scalar.select (IntOp.andi (IntOp.andi
        (IntOp.cmpi .eq (broadcastInDim S1x512x512 ![1, 2] bcast_S512x512_S1x512x512_1_2 sm (ix3 (0 : Fin 1) y x))
            (broadcastInDim S1x512x512 ![] bcast_S_S1x512x512 (constantI S_ 32 1#32) (ix3 (0 : Fin 1) y x)))
        (IntOp.cmpi .ne (tg (ix3 b y x)) 0#32)) (cd (ix3 b y x)))
      (IntOp.addi (IntOp.muli (tg (ix3 b y x)) 4#32) (mt (ix3 b y x))) 4294967295#32 = _
  rw [h2, bscalar]
  rfl

/-- THE GROUP WORD ARRAY AT A PIXEL: what the region's second window stages is, pixel by pixel, the specification's word
    `selw` of the mask, the target, cond and the matched index array. -/
theorem V14_apply (c : Dev nD) (b : Fin 16) (y x : Fin 512) :
    V m c main_v14 (ix3 b y x)
      = Cert.Spec.selw (m ((c : Thread nD τ).loc main_arg4)) (m ((c : Thread nD τ).loc main_arg3))
          (m ((c : Thread nD τ).loc main_arg5)) (V m c main_v2) b y x := by
  rw [V14_term]
  exact selArr_apply _ _ _ _ b y x

end Before

/-! ## The host operations after the region, as array terms

The host adds the four tiles' partial sums and counts (from the zero word), reshapes the table `protos` to
16 × 16, updates rows 4 … 15 by the momentum mix where the count is positive, normalises each of those rows and
each of rows 0 … 3 by the larger of its Euclidean norm and eps, stacks the two parts and reshapes back to 4 × 4 × 16. -/

section TailTerms

variable {F : FTy → Type} [FloatOps F]

/-- The partial sums of the four tiles added up, from the zero word. -/
def sums (a2 : (⟨S4x12x16, .f32⟩ : BufTy).Contents (Elt F)) : (⟨S12x16, .f32⟩ : BufTy).Contents (Elt F) :=
  Host.reduceAdd a2 (constant S_ .f32 0x00000000#32) reducesTo_S4x12x16_S12x16_d0 h_S_

/-- The partial counts of the four tiles added up, from the zero word. -/
def cnts (a3 : (⟨S4x12x1, .f32⟩ : BufTy).Contents (Elt F)) : (⟨S12x1, .f32⟩ : BufTy).Contents (Elt F) :=
  Host.reduceAdd a3 (constant S_ .f32 0x00000000#32) reducesTo_S4x12x1_S12x1_d0 h_S_

/-- The table flattened to 16 rows. -/
def tbl (p : (⟨S4x4x16, .f32⟩ : BufTy).Contents (Elt F)) : (⟨S16x16, .f32⟩ : BufTy).Contents (Elt F) :=
  shapeCast S16x16 p shapeCasts_S4x4x16_S16x16

/-- Rows 4 … 15 of the flattened table. -/
def tblHi (p : (⟨S4x4x16, .f32⟩ : BufTy).Contents (Elt F)) : (⟨S12x16, .f32⟩ : BufTy).Contents (Elt F) :=
  extractStridedSlice S12x16 ![4, 0] (tbl p) slices_S16x16_S12x16_4_0

/-- Rows 0 … 3 of the flattened table. -/
def tblLo (p : (⟨S4x4x16, .f32⟩ : BufTy).Contents (Elt F)) : (⟨S4x16, .f32⟩ : BufTy).Contents (Elt F) :=
  extractStridedSlice S4x16 ![0, 0] (tbl p) slices_S16x16_S4x16_0_0

/-- The counts, at least one. -/
def cntMax (a3 : (⟨S4x12x1, .f32⟩ : BufTy).Contents (Elt F)) : (⟨S12x1, .f32⟩ : BufTy).Contents (Elt F) :=
  maximumf (cnts a3) (broadcastInDim S12x1 ![] bcast_S_S12x1 (constant S_ .f32 0x3F800000#32))

/-- The means: each sum over its count (at least one). -/
def means (a2 : (⟨S4x12x16, .f32⟩ : BufTy).Contents (Elt F)) (a3 : (⟨S4x12x1, .f32⟩ : BufTy).Contents (Elt F)) : (⟨S12x16, .f32⟩ : BufTy).Contents (Elt F) :=
  Host.divf (sums a2) (broadcastInDim S12x16 ![0, 1] bcast_S12x1_S12x16_0_1 (cntMax a3))

/-- Where the count is positive. -/
def pos (a3 : (⟨S4x12x1, .f32⟩ : BufTy).Contents (Elt F)) : (⟨S12x1, .i1⟩ : BufTy).Contents (Elt F) :=
  cmpf .ogt (cnts a3) (broadcastInDim S12x1 ![] bcast_S_S12x1 (constant S_ .f32 0x00000000#32))

/-- The momentum mix of rows 4 … 15 with the means. -/
def mixed (a2 : (⟨S4x12x16, .f32⟩ : BufTy).Contents (Elt F)) (a3 : (⟨S4x12x1, .f32⟩ : BufTy).Contents (Elt F)) (p : (⟨S4x4x16, .f32⟩ : BufTy).Contents (Elt F)) : (⟨S12x16, .f32⟩ : BufTy).Contents (Elt F) :=
  addf (mulf (broadcastInDim S12x16 ![] bcast_S_S12x16 (constant S_ .f32 0x3F7D70A4#32)) (tblHi p))
    (mulf (broadcastInDim S12x16 ![] bcast_S_S12x16 (constant S_ .f32 0x3C23D70A#32)) (means a2 a3))

/-- Rows 4 … 15 updated: the mix where the count is positive, the row itself elsewhere. -/
def updHi (a2 : (⟨S4x12x16, .f32⟩ : BufTy).Contents (Elt F)) (a3 : (⟨S4x12x1, .f32⟩ : BufTy).Contents (Elt F)) (p : (⟨S4x4x16, .f32⟩ : BufTy).Contents (Elt F)) : (⟨S12x16, .f32⟩ : BufTy).Contents (Elt F) :=
  select (broadcastInDim S12x16 ![0, 1] bcast_S12x1_S12x16_0_1 (pos a3)) (mixed a2 a3 p) (tblHi p)

/-- The Euclidean norms of twelve rows. -/
def norm12 (u : (⟨S12x16, .f32⟩ : BufTy).Contents (Elt F)) : (⟨S12x1, .f32⟩ : BufTy).Contents (Elt F) :=
  Host.sqrt (broadcastInDim S12x1 ![0] bcast_S12_S12x1_0
    (Host.reduceAdd (mulf u u) (constant S_ .f32 0x00000000#32) reducesTo_S12x16_S12_d1 h_S_))

/-- Twelve rows, each over the larger of a given column entry and eps. -/
def unitBy12 (u : (⟨S12x16, .f32⟩ : BufTy).Contents (Elt F)) (n : (⟨S12x1, .f32⟩ : BufTy).Contents (Elt F)) : (⟨S12x16, .f32⟩ : BufTy).Contents (Elt F) :=
  Host.divf u (broadcastInDim S12x16 ![0, 1] bcast_S12x1_S12x16_0_1
    (maximumf n (broadcastInDim S12x1 ![] bcast_S_S12x1 (constant S_ .f32 0x2B8CBCCC#32))))

/-- Twelve rows, each over the larger of its norm and eps. -/
def unit12 (u : (⟨S12x16, .f32⟩ : BufTy).Contents (Elt F)) : (⟨S12x16, .f32⟩ : BufTy).Contents (Elt F) := unitBy12 u (norm12 u)

/-- The Euclidean norms of four rows. -/
def norm4 (u : (⟨S4x16, .f32⟩ : BufTy).Contents (Elt F)) : (⟨S4x1, .f32⟩ : BufTy).Contents (Elt F) :=
  Host.sqrt (broadcastInDim S4x1 ![0] bcast_S4_S4x1_0
    (Host.reduceAdd (mulf u u) (constant S_ .f32 0x00000000#32) reducesTo_S4x16_S4_d1 h_S_))

/-- Four rows, each over the larger of a given column entry and eps. -/
def unitBy4 (u : (⟨S4x16, .f32⟩ : BufTy).Contents (Elt F)) (n : (⟨S4x1, .f32⟩ : BufTy).Contents (Elt F)) : (⟨S4x16, .f32⟩ : BufTy).Contents (Elt F) :=
  Host.divf u (broadcastInDim S4x16 ![0, 1] bcast_S4x1_S4x16_0_1
    (maximumf n (broadcastInDim S4x1 ![] bcast_S_S4x1 (constant S_ .f32 0x2B8CBCCC#32))))

/-- Four rows, each over the larger of its norm and eps. -/
def unit4 (u : (⟨S4x16, .f32⟩ : BufTy).Contents (Elt F)) : (⟨S4x16, .f32⟩ : BufTy).Contents (Elt F) := unitBy4 u (norm4 u)

/-- The result: rows 0 … 3 normalised above rows 4 … 15 updated and normalised, as 4 × 4 × 16. -/
def outTbl (a2 : (⟨S4x12x16, .f32⟩ : BufTy).Contents (Elt F)) (a3 : (⟨S4x12x1, .f32⟩ : BufTy).Contents (Elt F)) (p : (⟨S4x4x16, .f32⟩ : BufTy).Contents (Elt F)) : (⟨S4x4x16, .f32⟩ : BufTy).Contents (Elt F) :=
  shapeCast S4x4x16
    (concatenate S16x16 0 [⟨S4x16, unit4 (tblLo p)⟩, ⟨S12x16, unit12 (updHi a2 a3 p)⟩] concatenates_S4x16_S12x16_S16x16_d0)
    shapeCasts_S16x16_S4x4x16

end TailTerms

/-! ## Those terms read at an index, over the extended reals -/

section TailRead

/-- A column broadcast along the sixteen channels reads the column's entry of the row. -/
theorem bcol12 {α : Type} (v : S12x1.Idx → α) (k : Fin 12) (ch : Fin 16) :
    broadcastInDim S12x16 ![0, 1] bcast_S12x1_S12x16_0_1 v (ix2 k ch) = v (ix2 k (0 : Fin 1)) :=
  broadcastInDim_apply _ bcast_S12x1_S12x16_0_1 v (ix2 k ch) (ix2 k (0 : Fin 1)) (fun a => match a with
    | ⟨0, _⟩ => by show k.val = if (12 : Nat) = 1 then 0 else k.val; rw [if_neg (by decide)]
    | ⟨1, _⟩ => by show 0 = if (1 : Nat) = 1 then 0 else ch.val; rw [if_pos rfl])

theorem bcol4 {α : Type} (v : S4x1.Idx → α) (r : Fin 4) (ch : Fin 16) :
    broadcastInDim S4x16 ![0, 1] bcast_S4x1_S4x16_0_1 v (ix2 r ch) = v (ix2 r (0 : Fin 1)) :=
  broadcastInDim_apply _ bcast_S4x1_S4x16_0_1 v (ix2 r ch) (ix2 r (0 : Fin 1)) (fun a => match a with
    | ⟨0, _⟩ => by show r.val = if (4 : Nat) = 1 then 0 else r.val; rw [if_neg (by decide)]
    | ⟨1, _⟩ => by show 0 = if (1 : Nat) = 1 then 0 else ch.val; rw [if_pos rfl])

/-- A vector made a column reads the vector's entry of the row. -/
theorem brow12 {α : Type} (v : S12.Idx → α) (k : Fin 12) (z : Fin 1) :
    broadcastInDim S12x1 ![0] bcast_S12_S12x1_0 v (ix2 k z) = v (ix1 k) :=
  broadcastInDim_apply _ bcast_S12_S12x1_0 v (ix2 k z) (ix1 k) (fun a => match a with
    | ⟨0, _⟩ => by show k.val = if (12 : Nat) = 1 then 0 else k.val; rw [if_neg (by decide)])

theorem brow4 {α : Type} (v : S4.Idx → α) (r : Fin 4) (z : Fin 1) :
    broadcastInDim S4x1 ![0] bcast_S4_S4x1_0 v (ix2 r z) = v (ix1 r) :=
  broadcastInDim_apply _ bcast_S4_S4x1_0 v (ix2 r z) (ix1 r) (fun a => match a with
    | ⟨0, _⟩ => by show r.val = if (4 : Nat) = 1 then 0 else r.val; rw [if_neg (by decide)])

/-- The sum over the four tiles, entry by entry. -/
theorem sums_apply (a2 : (⟨S4x12x16, .f32⟩ : BufTy).Contents (Elt Ideal)) (k : Fin 12) (ch : Fin 16) :
    sums (F := Ideal) a2 (ix2 k ch) = Cert.Spec.zero + ∑ h : Fin 4, a2 (ix3 h k ch) := by
  unfold sums
  simp only [Host.reduceAdd, Ideal.hostReduceAdd_def]
  rw [Ideal.hostReduceAdd_single reducesTo_S4x12x16_S12x16_d0 (by decide)]
  refine congrArg (_ + ·) (Finset.sum_congr rfl fun h _ => ?_)
  exact congrArg a2 (funext fun a => Fin.ext (by match a with | ⟨0, _⟩ => rfl | ⟨1, _⟩ => rfl | ⟨2, _⟩ => rfl))

theorem cnts_apply (a3 : (⟨S4x12x1, .f32⟩ : BufTy).Contents (Elt Ideal)) (k : Fin 12) :
    cnts (F := Ideal) a3 (ix2 k (0 : Fin 1)) = Cert.Spec.zero + ∑ h : Fin 4, a3 (ix3 h k (0 : Fin 1)) := by
  unfold cnts
  simp only [Host.reduceAdd, Ideal.hostReduceAdd_def]
  rw [Ideal.hostReduceAdd_single reducesTo_S4x12x1_S12x1_d0 (by decide)]
  refine congrArg (_ + ·) (Finset.sum_congr rfl fun h _ => ?_)
  exact congrArg a3 (funext fun a => Fin.ext (by match a with | ⟨0, _⟩ => rfl | ⟨1, _⟩ => rfl | ⟨2, _⟩ => rfl))

/-- A row's sum over the sixteen channels, from the zero word. -/
theorem rsum12 (u : (⟨S12x16, .f32⟩ : BufTy).Contents (Elt Ideal)) (k : Fin 12) :
    Host.reduceAdd (F := Ideal) u (constant S_ .f32 0x00000000#32) reducesTo_S12x16_S12_d1 h_S_ (ix1 k)
      = Cert.Spec.zero + ∑ j : Fin 16, u (ix2 k j) := by
  simp only [Host.reduceAdd, Ideal.hostReduceAdd_def]
  rw [Ideal.hostReduceAdd_single reducesTo_S12x16_S12_d1 (by decide)]
  refine congrArg (_ + ·) (Finset.sum_congr rfl fun j _ => ?_)
  exact congrArg u (funext fun a => Fin.ext (by match a with | ⟨0, _⟩ => rfl | ⟨1, _⟩ => rfl))

theorem rsum4 (u : (⟨S4x16, .f32⟩ : BufTy).Contents (Elt Ideal)) (r : Fin 4) :
    Host.reduceAdd (F := Ideal) u (constant S_ .f32 0x00000000#32) reducesTo_S4x16_S4_d1 h_S_ (ix1 r)
      = Cert.Spec.zero + ∑ j : Fin 16, u (ix2 r j) := by
  simp only [Host.reduceAdd, Ideal.hostReduceAdd_def]
  rw [Ideal.hostReduceAdd_single reducesTo_S4x16_S4_d1 (by decide)]
  refine congrArg (_ + ·) (Finset.sum_congr rfl fun j _ => ?_)
  exact congrArg u (funext fun a => Fin.ext (by match a with | ⟨0, _⟩ => rfl | ⟨1, _⟩ => rfl))

/-- Row g of the flattened table is protos[g / 4, g % 4, ·]. -/
theorem tbl_apply (p : (⟨S4x4x16, .f32⟩ : BufTy).Contents (Elt Ideal)) (g ch : Fin 16) :
    tbl (F := Ideal) p (ix2 g ch) = Cert.Spec.flat p g ch := by
  unfold tbl Cert.Spec.flat
  exact shapeCast_apply p shapeCasts_S4x4x16_S16x16 (ix2 g ch) _ (by
    rewrite [Shape.rowMajor_val_three, Shape.rowMajor_val_two]
    show (g.val / 4 * 4 + g.val % 4) * 16 + ch.val = g.val * 16 + ch.val
    omega)

theorem tblHi_apply (p : (⟨S4x4x16, .f32⟩ : BufTy).Contents (Elt Ideal)) (k : Fin 12) (ch : Fin 16) :
    tblHi (F := Ideal) p (ix2 k ch) = Cert.Spec.flat p ⟨k.val + 4, by omega⟩ ch := by
  unfold tblHi
  refine (extractStridedSlice_apply ![4, 0] (tbl p) slices_S16x16_S12x16_4_0 (ix2 k ch) (ix2 (⟨k.val + 4, by omega⟩ : Fin 16) ch)
    (fun a => match a with
      | ⟨0, _⟩ => by show k.val + 4 = 4 + k.val; omega
      | ⟨1, _⟩ => by show ch.val = 0 + ch.val; omega)).trans ?_
  exact tbl_apply p _ ch

theorem tblLo_apply (p : (⟨S4x4x16, .f32⟩ : BufTy).Contents (Elt Ideal)) (r : Fin 4) (ch : Fin 16) :
    tblLo (F := Ideal) p (ix2 r ch) = Cert.Spec.flat p ⟨r.val, by omega⟩ ch := by
  unfold tblLo
  refine (extractStridedSlice_apply ![0, 0] (tbl p) slices_S16x16_S4x16_0_0 (ix2 r ch) (ix2 (⟨r.val, by omega⟩ : Fin 16) ch)
    (fun a => match a with
      | ⟨0, _⟩ => by show r.val = 0 + r.val; omega
      | ⟨1, _⟩ => by show ch.val = 0 + ch.val; omega)).trans ?_
  exact tbl_apply p _ ch

theorem cntMax_apply (a3 : (⟨S4x12x1, .f32⟩ : BufTy).Contents (Elt Ideal)) (k : Fin 12) :
    cntMax (F := Ideal) a3 (ix2 k (0 : Fin 1)) = max (cnts (F := Ideal) a3 (ix2 k (0 : Fin 1))) Cert.Spec.one := by
  unfold cntMax
  show max (cnts (F := Ideal) a3 (ix2 k (0 : Fin 1)))
    (broadcastInDim S12x1 ![] bcast_S_S12x1 (constant (F := Ideal) S_ .f32 0x3F800000#32) (ix2 k (0 : Fin 1))) = _
  rw [bscalar]
  rfl

theorem pos_apply (a3 : (⟨S4x12x1, .f32⟩ : BufTy).Contents (Elt Ideal)) (k : Fin 12) :
    pos (F := Ideal) a3 (ix2 k (0 : Fin 1)) = Ideal.cmp .ogt (cnts (F := Ideal) a3 (ix2 k (0 : Fin 1))) Cert.Spec.zero := by
  unfold pos
  show Ideal.cmp .ogt (cnts (F := Ideal) a3 (ix2 k (0 : Fin 1)))
    (broadcastInDim S12x1 ![] bcast_S_S12x1 (constant (F := Ideal) S_ .f32 0x00000000#32) (ix2 k (0 : Fin 1))) = _
  rw [bscalar]
  rfl

theorem means_apply (a2 : (⟨S4x12x16, .f32⟩ : BufTy).Contents (Elt Ideal)) (a3 : (⟨S4x12x1, .f32⟩ : BufTy).Contents (Elt Ideal)) (k : Fin 12) (ch : Fin 16) :
    means (F := Ideal) a2 a3 (ix2 k ch)
      = Ideal.div (sums (F := Ideal) a2 (ix2 k ch)) (max (cnts (F := Ideal) a3 (ix2 k (0 : Fin 1))) Cert.Spec.one) := by
  unfold means
  show Ideal.div (sums (F := Ideal) a2 (ix2 k ch))
    (broadcastInDim S12x16 ![0, 1] bcast_S12x1_S12x16_0_1 (cntMax (F := Ideal) a3) (ix2 k ch)) = _
  rw [bcol12, cntMax_apply]

theorem mixed_apply (a2 : (⟨S4x12x16, .f32⟩ : BufTy).Contents (Elt Ideal)) (a3 : (⟨S4x12x1, .f32⟩ : BufTy).Contents (Elt Ideal)) (p : (⟨S4x4x16, .f32⟩ : BufTy).Contents (Elt Ideal)) (k : Fin 12) (ch : Fin 16) :
    mixed (F := Ideal) a2 a3 p (ix2 k ch)
      = Cert.Spec.c99 * tblHi (F := Ideal) p (ix2 k ch) + Cert.Spec.c01 * means (F := Ideal) a2 a3 (ix2 k ch) := by
  unfold mixed
  show broadcastInDim S12x16 ![] bcast_S_S12x16 (constant (F := Ideal) S_ .f32 0x3F7D70A4#32) (ix2 k ch) * tblHi (F := Ideal) p (ix2 k ch)
    + broadcastInDim S12x16 ![] bcast_S_S12x16 (constant (F := Ideal) S_ .f32 0x3C23D70A#32) (ix2 k ch) * means (F := Ideal) a2 a3 (ix2 k ch) = _
  rw [bscalar, bscalar]
  rfl

/-- Rows 4 … 15 updated, entry by entry: the specification's momentum update of the table entry from the group's sum and
    count. -/
theorem updHi_apply (a2 : (⟨S4x12x16, .f32⟩ : BufTy).Contents (Elt Ideal)) (a3 : (⟨S4x12x1, .f32⟩ : BufTy).Contents (Elt Ideal)) (p : (⟨S4x4x16, .f32⟩ : BufTy).Contents (Elt Ideal)) (k : Fin 12) (ch : Fin 16) :
    updHi (F := Ideal) a2 a3 p (ix2 k ch)
      = Cert.Spec.upd (Cert.Spec.zero + ∑ h : Fin 4, a2 (ix3 h k ch)) (Cert.Spec.zero + ∑ h : Fin 4, a3 (ix3 h k (0 : Fin 1)))
          (Cert.Spec.flat p ⟨k.val + 4, by omega⟩ ch) := by
  unfold updHi
  show Scalar.select (broadcastInDim S12x16 ![0, 1] bcast_S12x1_S12x16_0_1 (pos (F := Ideal) a3) (ix2 k ch))
    (mixed (F := Ideal) a2 a3 p (ix2 k ch)) (tblHi (F := Ideal) p (ix2 k ch)) = _
  rw [bcol12, pos_apply, mixed_apply, means_apply, tblHi_apply, sums_apply, cnts_apply]
  rfl

theorem norm12_apply (u : (⟨S12x16, .f32⟩ : BufTy).Contents (Elt Ideal)) (k : Fin 12) :
    norm12 (F := Ideal) u (ix2 k (0 : Fin 1)) = Ideal.sqrt (Cert.Spec.zero + ∑ j : Fin 16, u (ix2 k j) * u (ix2 k j)) := by
  unfold norm12
  show Ideal.sqrt (broadcastInDim S12x1 ![0] bcast_S12_S12x1_0
    (Host.reduceAdd (F := Ideal) (mulf u u) (constant S_ .f32 0x00000000#32) reducesTo_S12x16_S12_d1 h_S_) (ix2 k (0 : Fin 1))) = _
  rw [brow12, rsum12]
  rfl

theorem norm4_apply (u : (⟨S4x16, .f32⟩ : BufTy).Contents (Elt Ideal)) (r : Fin 4) :
    norm4 (F := Ideal) u (ix2 r (0 : Fin 1)) = Ideal.sqrt (Cert.Spec.zero + ∑ j : Fin 16, u (ix2 r j) * u (ix2 r j)) := by
  unfold norm4
  show Ideal.sqrt (broadcastInDim S4x1 ![0] bcast_S4_S4x1_0
    (Host.reduceAdd (F := Ideal) (mulf u u) (constant S_ .f32 0x00000000#32) reducesTo_S4x16_S4_d1 h_S_) (ix2 r (0 : Fin 1))) = _
  rw [brow4, rsum4]
  rfl

/-- A normalised row of the twelve is the specification's `rowOut` of that row. -/
theorem unit12_apply (u : (⟨S12x16, .f32⟩ : BufTy).Contents (Elt Ideal)) (k : Fin 12) (ch : Fin 16) :
    unit12 (F := Ideal) u (ix2 k ch) = Cert.Spec.rowOut (fun j => u (ix2 k j)) ch := by
  unfold unit12 unitBy12 Cert.Spec.rowOut
  show Ideal.div (u (ix2 k ch)) (broadcastInDim S12x16 ![0, 1] bcast_S12x1_S12x16_0_1
    (maximumf (norm12 (F := Ideal) u) (broadcastInDim S12x1 ![] bcast_S_S12x1 (constant (F := Ideal) S_ .f32 0x2B8CBCCC#32))) (ix2 k ch)) = _
  rw [bcol12]
  show Ideal.div (u (ix2 k ch)) (max (norm12 (F := Ideal) u (ix2 k (0 : Fin 1)))
    (broadcastInDim S12x1 ![] bcast_S_S12x1 (constant (F := Ideal) S_ .f32 0x2B8CBCCC#32) (ix2 k (0 : Fin 1)))) = _
  rw [bscalar, norm12_apply]
  rfl

theorem unit4_apply (u : (⟨S4x16, .f32⟩ : BufTy).Contents (Elt Ideal)) (r : Fin 4) (ch : Fin 16) :
    unit4 (F := Ideal) u (ix2 r ch) = Cert.Spec.rowOut (fun j => u (ix2 r j)) ch := by
  unfold unit4 unitBy4 Cert.Spec.rowOut
  show Ideal.div (u (ix2 r ch)) (broadcastInDim S4x16 ![0, 1] bcast_S4x1_S4x16_0_1
    (maximumf (norm4 (F := Ideal) u) (broadcastInDim S4x1 ![] bcast_S_S4x1 (constant (F := Ideal) S_ .f32 0x2B8CBCCC#32))) (ix2 r ch)) = _
  rw [bcol4]
  show Ideal.div (u (ix2 r ch)) (max (norm4 (F := Ideal) u (ix2 r (0 : Fin 1)))
    (broadcastInDim S4x1 ![] bcast_S_S4x1 (constant (F := Ideal) S_ .f32 0x2B8CBCCC#32) (ix2 r (0 : Fin 1)))) = _
  rw [bscalar, norm4_apply]
  rfl

/-- THE RESULT TERM AT AN INDEX: entry (a, b, ch) is the specification's `result` of the kernel's updated table, whose
    sums and counts are the zero word plus the four tiles' partial sums and counts. -/
theorem outTbl_apply (a2 : (⟨S4x12x16, .f32⟩ : BufTy).Contents (Elt Ideal)) (a3 : (⟨S4x12x1, .f32⟩ : BufTy).Contents (Elt Ideal)) (p : (⟨S4x4x16, .f32⟩ : BufTy).Contents (Elt Ideal))
    (a b : Fin 4) (ch : Fin 16) :
    outTbl (F := Ideal) a2 a3 p (ix3 a b ch)
      = Cert.Spec.result (Cert.Spec.Uker (fun k ch' => Cert.Spec.zero + ∑ h : Fin 4, a2 (ix3 h k ch'))
          (fun k => Cert.Spec.zero + ∑ h : Fin 4, a3 (ix3 h k (0 : Fin 1))) p) a b ch := by
  unfold outTbl
  refine (shapeCast_apply _ shapeCasts_S16x16_S4x4x16 (ix3 a b ch) (ix2 (Cert.Spec.grp a b) ch) (by
    rewrite [Shape.rowMajor_val_two, Shape.rowMajor_val_three]
    show (4 * a.val + b.val) * 16 + ch.val = (a.val * 4 + b.val) * 16 + ch.val
    omega)).trans ?_
  unfold Cert.Spec.result
  generalize Cert.Spec.grp a b = g
  have hg16 : g.val < 16 := g.isLt
  by_cases hg : g.val < 4
  · refine (concatenate_pair_apply_left (0 : Fin S16x16.rank) _ _ concatenates_S4x16_S12x16_S16x16_d0 (ix2 g ch) rfl
      (ix2 (⟨g.val, hg⟩ : Fin 4) ch) (fun b => match b with | ⟨0, _⟩ => rfl | ⟨1, _⟩ => rfl)).trans ?_
    rw [unit4_apply]
    congr 1
    funext j
    rw [tblLo_apply]
    unfold Cert.Spec.Uker
    rw [dif_pos hg]
  · refine (concatenate_pair_apply_right (0 : Fin S16x16.rank) _ _ concatenates_S4x16_S12x16_S16x16_d0 (ix2 g ch) rfl rfl
      (ix2 (⟨g.val - 4, by omega⟩ : Fin 12) ch)
      (fun b => match b with | ⟨0, _⟩ => fun h => absurd rfl h | ⟨1, _⟩ => fun _ => rfl)
      (by show g.val - 4 + 4 = g.val; omega)).trans ?_
    rw [unit12_apply]
    congr 1
    funext j
    rw [updHi_apply]
    unfold Cert.Spec.Uker
    rw [dif_neg hg]
    have e : (⟨g.val - 4 + 4, by omega⟩ : Fin 16) = g := Fin.ext (by show g.val - 4 + 4 = g.val; omega)
    rw [e]

end TailRead

/-! ## The host operations after the region, run: the result buffer holds that term

The six stretches are run one after the other; each stage is read off its own short stretch at any contents `W`
before it, and the buffers a stretch does not write pass through it. -/

section TailRun

variable {F : FTy → Type} [FloatOps F]

theorem s1_v31 (W : Valuation τ sig (Elt F)) :
    StableHlo.after (hostOps1 (F := F)) W (Proc.devRef .tc main_v31)
      = mixed (F := F) (W (Proc.devRef .tc main_v15_0)) (W (Proc.devRef .tc main_v15_1)) (W (Proc.devRef .tc main_arg1)) := by
  simp only [hostOps1]
  after_results_simp
  rfl

theorem s1_v26 (W : Valuation τ sig (Elt F)) :
    StableHlo.after (hostOps1 (F := F)) W (Proc.devRef .tc main_v26) = pos (F := F) (W (Proc.devRef .tc main_v15_1)) := by
  simp only [hostOps1]
  after_results_simp
  rfl

theorem s1_v19 (W : Valuation τ sig (Elt F)) :
    StableHlo.after (hostOps1 (F := F)) W (Proc.devRef .tc main_v19) = tblHi (F := F) (W (Proc.devRef .tc main_arg1)) := by
  simp only [hostOps1]
  after_results_simp
  rfl

theorem s1_v20 (W : Valuation τ sig (Elt F)) :
    StableHlo.after (hostOps1 (F := F)) W (Proc.devRef .tc main_v20) = tblLo (F := F) (W (Proc.devRef .tc main_arg1)) := by
  simp only [hostOps1]
  after_results_simp
  rfl

theorem s2_v32 (W : Valuation τ sig (Elt F)) :
    StableHlo.after (hostOps1_1 (F := F)) W (Proc.devRef .tc main_v32)
      = (select (broadcastInDim S12x16 ![0, 1] bcast_S12x1_S12x16_0_1 (W (Proc.devRef .tc main_v26))) (W (Proc.devRef .tc main_v31)) (W (Proc.devRef .tc main_v19))
          : (⟨S12x16, .f32⟩ : BufTy).Contents (Elt F)) := by
  simp only [hostOps1_1]
  after_results_simp
  rfl

theorem s2_v20 (W : Valuation τ sig (Elt F)) :
    StableHlo.after (hostOps1_1 (F := F)) W (Proc.devRef .tc main_v20) = W (Proc.devRef .tc main_v20) := by
  simp only [hostOps1_1]
  after_results_simp

theorem s3_v33 (W : Valuation τ sig (Elt F)) :
    StableHlo.after (hostOps1_2 (F := F)) W (Proc.devRef .tc main_v33) = norm12 (F := F) (W (Proc.devRef .tc main_v32)) := by
  simp only [hostOps1_2]
  after_results_simp
  rfl

theorem s3_v32 (W : Valuation τ sig (Elt F)) :
    StableHlo.after (hostOps1_2 (F := F)) W (Proc.devRef .tc main_v32) = W (Proc.devRef .tc main_v32) := by
  simp only [hostOps1_2]
  after_results_simp

theorem s3_v20 (W : Valuation τ sig (Elt F)) :
    StableHlo.after (hostOps1_2 (F := F)) W (Proc.devRef .tc main_v20) = W (Proc.devRef .tc main_v20) := by
  simp only [hostOps1_2]
  after_results_simp

theorem s4_v37 (W : Valuation τ sig (Elt F)) :
    StableHlo.after (hostOps1_3 (F := F)) W (Proc.devRef .tc main_v37) = unitBy12 (F := F) (W (Proc.devRef .tc main_v32)) (W (Proc.devRef .tc main_v33)) := by
  simp only [hostOps1_3]
  after_results_simp
  rfl

theorem s4_v20 (W : Valuation τ sig (Elt F)) :
    StableHlo.after (hostOps1_3 (F := F)) W (Proc.devRef .tc main_v20) = W (Proc.devRef .tc main_v20) := by
  simp only [hostOps1_3]
  after_results_simp

theorem s5_v38 (W : Valuation τ sig (Elt F)) :
    StableHlo.after (hostOps1_4 (F := F)) W (Proc.devRef .tc main_v38) = norm4 (F := F) (W (Proc.devRef .tc main_v20)) := by
  simp only [hostOps1_4]
  after_results_simp
  rfl

theorem s5_v20 (W : Valuation τ sig (Elt F)) :
    StableHlo.after (hostOps1_4 (F := F)) W (Proc.devRef .tc main_v20) = W (Proc.devRef .tc main_v20) := by
  simp only [hostOps1_4]
  after_results_simp

theorem s5_v37 (W : Valuation τ sig (Elt F)) :
    StableHlo.after (hostOps1_4 (F := F)) W (Proc.devRef .tc main_v37) = W (Proc.devRef .tc main_v37) := by
  simp only [hostOps1_4]
  after_results_simp

theorem s6_v44 (W : Valuation τ sig (Elt F)) :
    StableHlo.after (hostOps1_5 (F := F)) W (Proc.devRef .tc main_v44)
      = (shapeCast S4x4x16
          (concatenate S16x16 0 [⟨S4x16, unitBy4 (F := F) (W (Proc.devRef .tc main_v20)) (W (Proc.devRef .tc main_v38))⟩, ⟨S12x16, W (Proc.devRef .tc main_v37)⟩]
            concatenates_S4x16_S12x16_S16x16_d0)
          shapeCasts_S16x16_S4x4x16 : (⟨S4x4x16, .f32⟩ : BufTy).Contents (Elt F)) := by
  simp only [hostOps1_5]
  after_results
  rfl

end TailRun

/-! ## The result of the kernel's program -/

section TailFinal

variable {F : FTy → Type} [FloatOps F]

/-- The six stretches after the region, from any contents `W`: the result buffer holds the result term of the two
    output arrays and the table as `W` has them. -/
theorem tail_after (W : Valuation τ sig (Elt F)) :
    StableHlo.after (List.flatten [hostOps1 (F := F), hostOps1_1, hostOps1_2, hostOps1_3, hostOps1_4, hostOps1_5]) W (Proc.devRef .tc main_v44)
      = outTbl (F := F) (W (Proc.devRef .tc main_v15_0)) (W (Proc.devRef .tc main_v15_1)) (W (Proc.devRef .tc main_arg1)) := by
  simp only [List.flatten_cons, List.flatten_nil, List.append_nil, StableHlo.after_append]
  rw [s6_v44, s5_v20, s5_v38, s5_v37, s4_v20, s4_v37, s3_v20, s3_v32, s3_v33, s2_v20, s2_v32, s1_v20, s1_v26, s1_v31, s1_v19]
  rfl

variable (m : (ℓ : Loc nD τ sig) → Buf (Elt F) ℓ)

/-- The region's first output array after the run (the four tiles' partial sums), as 4 × 12 × 16 numbers. -/
abbrev outSums (c : Dev nD) : (⟨S4x12x16, .f32⟩ : BufTy).Contents (Elt F) := (dats m 0 c).arrAt 2 cfg0.N

/-- The region's second output array after the run (the four tiles' partial counts), as 4 × 12 × 1 numbers. -/
abbrev outCnts (c : Dev nD) : (⟨S4x12x1, .f32⟩ : BufTy).Contents (Elt F) := (dats m 0 c).arrAt 3 cfg0.N

/-- The result buffer after the whole program: the result term of the two output arrays as the region leaves them and of
    the table as launched. -/
theorem tail_term (c : Dev nD) :
    Pipeline.afterTail₀ cfgs (dats m) 0 (V0 m) [hostOps1, hostOps1_1, hostOps1_2, hostOps1_3, hostOps1_4, hostOps1_5] c main_v44
      = outTbl (F := F) (outSums m c) (outCnts m c) (m ((c : Thread nD τ).loc main_arg1)) := by
  unfold Pipeline.afterTail₀
  rw [tail_after]
  have e2 : Pipeline.withArrays (cfgs 0).spec c (V0 m c) (fun w => (dats m 0 c).arrAt w (cfgs 0).N) (Proc.devRef .tc main_v15_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v15_1)
      = (dats m 0 c).arrAt 3 cfg0.N := Pipeline.withArrays_arr spec0 launch0.win.arr_inj c _ _ 3
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e2, e3, e1]

end TailFinal

/-- THE KERNEL PROGRAM'S RESULT AT AN INDEX, over the extended reals: entry (a, b, ch) of the result buffer is the
    specification's `result` of the kernel's updated table, the sums and counts being the zero word plus the four
    blocks of the region's two output arrays. -/
theorem tail_apply (m : (ℓ : Loc nD τ sig) → Buf (Elt Ideal) ℓ) (c : Dev nD) (a b : Fin 4) (ch : Fin 16) :
    Pipeline.afterTail₀ cfgs (dats m) 0 (V0 m) [hostOps1, hostOps1_1, hostOps1_2, hostOps1_3, hostOps1_4, hostOps1_5] c main_v44 (ix3 a b ch)
      = Cert.Spec.result (Cert.Spec.Uker
          (fun k ch' => Cert.Spec.zero + ∑ h : Fin 4, outSums m c (ix3 h k ch'))
          (fun k => Cert.Spec.zero + ∑ h : Fin 4, outCnts m c (ix3 h k (0 : Fin 1)))
          (m ((c : Thread nD τ).loc main_arg1))) a b ch := by
  rw [tail_term]
  exact outTbl_apply (outSums m c) (outCnts m c) (m ((c : Thread nD τ).loc main_arg1)) a b ch

end Cert.KernelIdeal.Host
end
-- ==== Proof.KTileIdeal.lean ====
/-
  The kernel body's tile terms read at an index, over the extended reals.

  The mask of a group word g is the indicator [word = g]; a group's row of channel sums at channel ch is the
  double sum, over the tile's 128 rows and 512 columns, of the channel's value times the indicator; its count
  is the double sum of the indicator; and the 12 × 16 and 12 × 1 blocks stack these rows for the groups 4 … 15.
-/
import proofs.«425919_j61589831024790_3_alg».proof.Proof.KTile
import proofs.«425919_j61589831024790_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-! ## Shape casts that move unit axes, read at an index given by coordinates -/

section Layout
variable {α : Type}

/-- An [a, 1, 1] array cast to [1, a] reads, at (u, i), the operand at (i, 0, 0). -/
theorem shapeCast_a11_1a_apply {a : ℕ} (x : (⟨3, ![a, 1, 1]⟩ : Shape).Idx → α)
    (h : (⟨3, ![a, 1, 1]⟩ : Shape).ShapeCasts ⟨2, ![1, a]⟩) (u : Fin 1) (i : Fin a) :
    shapeCast ⟨2, ![1, a]⟩ x h (ix2 u i) = x (ix3 i (0 : Fin 1) (0 : Fin 1)) :=
  shapeCast_apply x h _ _ (by
    have hu : u.val = 0 := by omega
    rw [Shape.rowMajor_val_three, Shape.rowMajor_val_two]
    show (i.val * 1 + 0) * 1 + 0 = u.val * a + i.val
    simp only [hu, Nat.zero_mul, Nat.zero_add, Nat.mul_one, Nat.add_zero])

/-- An [a, 1] array cast to [a, 1, 1] reads, at (i, u, v), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    simp only [hu, hv, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    simp only [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    simp only [hu, Nat.mul_one, Nat.add_zero])

/-- A [1, b, c] array broadcast to [a, b, c] reads, at (p, i, j), the operand at (0, i, j). -/
theorem broadcastTo_1bc_abc_apply (v : S1x128x512.Idx → α) (h : S1x128x512.Broadcasts S16x128x512)
    (p : Fin 16) (i : Fin 128) (j : Fin 512) :
    broadcastTo S16x128x512 v h (ix3 p i j) = v (ix3 (0 : Fin 1) i j) := by
  refine broadcastTo_apply v h (ix3 p i j) (ix3 (0 : Fin 1) i j) fun ax => ?_
  match ax with
  | ⟨0, _⟩ => rfl
  | ⟨1, _⟩ => rfl
  | ⟨2, _⟩ => rfl

end Layout

/-! ## The mask -/

/-- A one-bit word widened to 32 bits and read signed is the bit. -/
theorem toInt_setWidth_bit32 : ∀ b : BitVec 1, (b.setWidth 32).toInt = (b.toNat : ℤ) := by decide

/-- The compare bit of "x = g" is 1 exactly when the words are equal. -/
theorem cmpi_eq_toNat (x g : BitVec 32) : (IntOp.cmpi .eq x g).toNat = if x = g then 1 else 0 := by
  by_cases hx : x = g
  · subst hx; simp [IntOp.cmpi]
  · simp [IntOp.cmpi, hx]

/-- The mask of group g at (r, w) is the indicator of "the word there is g". -/
theorem maskF_apply (g : BitVec 32) (v6 : IVec S128x512 32) (r : Fin 128) (w : Fin 512) :
    maskF (F := Ideal) g v6 (ix2 r w) = Cert.Spec.ind (v6 (ix2 r w)) g := by
  show ((((IntOp.cmpi .eq (v6 (ix2 r w)) g).setWidth 32).toInt : ℝ) : EReal) = _
  rw [toInt_setWidth_bit32, cmpi_eq_toNat]
  unfold Cert.Spec.ind
  by_cases hx : v6 (ix2 r w) = g
  · rw [if_pos hx, if_pos hx]; simp
  · rw [if_neg hx, if_neg hx]; simp

/-! ## The lane sums -/

/-- The sum over the 512 columns of a 16 × 128 × 512 array, at (ch, r). -/
theorem sum_cols3 (src : FVec Ideal S16x128x512 .f32) (h : S16x128x512.Reduces [2] S16x128) (hφ : FKind.Formats .f32)
    (hacc : (0x00000000#32 : BitVec 32) = FKind.add.neutral .f32 hφ) (ch : Fin 16) (r : Fin 128) :
    multiReduction (F := Ideal) .add [2] S16x128 src 0x00000000#32 h hφ hacc (ix2 ch r) = ∑ w : Fin 512, src (ix3 ch r w) := by
  refine (Ideal.multiReduction_add_single src _ h hφ hacc (ix2 ch r)).trans ?_
  show ∑ w : Fin 512, src (h.lift (ix2 ch r) w) = _
  refine Finset.sum_congr rfl fun w _ => congrArg src ?_
  funext c
  match c with
  | ⟨0, _⟩ => rfl
  | ⟨1, _⟩ => rfl
  | ⟨2, _⟩ => rfl

/-- The sum over the 128 rows of a 16 × 128 × 1 array, at (ch, 0). -/
theorem sum_rows3 (src : FVec Ideal S16x128x1 .f32) (h : S16x128x1.Reduces [1] S16x1) (hφ : FKind.Formats .f32)
    (hacc : (0x00000000#32 : BitVec 32) = FKind.add.neutral .f32 hφ) (ch : Fin 16) (u : Fin 1) :
    multiReduction (F := Ideal) .add [1] S16x1 src 0x00000000#32 h hφ hacc (ix2 ch u) = ∑ r : Fin 128, src (ix3 ch r u) := by
  refine (Ideal.multiReduction_add_single src _ h hφ hacc (ix2 ch u)).trans ?_
  show ∑ r : Fin 128, src (h.lift (ix2 ch u) r) = _
  refine Finset.sum_congr rfl fun r _ => congrArg src ?_
  funext c
  match c with
  | ⟨0, _⟩ => rfl
  | ⟨1, _⟩ => rfl
  | ⟨2, _⟩ => rfl

/-- The sum over the 512 columns of a 128 × 512 array, at r. -/
theorem sum_cols2 (src : FVec Ideal S128x512 .f32) (h : S128x512.Reduces [1] S128) (hφ : FKind.Formats .f32)
    (hacc : (0x00000000#32 : BitVec 32) = FKind.add.neutral .f32 hφ) (r : Fin 128) :
    multiReduction (F := Ideal) .add [1] S128 src 0x00000000#32 h hφ hacc (ix1 r) = ∑ w : Fin 512, src (ix2 r w) := by
  refine (Ideal.multiReduction_add_single src _ h hφ hacc (ix1 r)).trans ?_
  show ∑ w : Fin 512, src (h.lift (ix1 r) w) = _
  refine Finset.sum_congr rfl fun w _ => congrArg src ?_
  funext c
  match c with
  | ⟨0, _⟩ => rfl
  | ⟨1, _⟩ => rfl

/-- The sum over the 128 rows of a 128 × 1 array, at 0. -/
theorem sum_rows2 (src : FVec Ideal S128x1 .f32) (h : S128x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 128, src (ix2 r u) := by
  refine (Ideal.multiReduction_add_single src _ h hφ hacc (ix1 u)).trans ?_
  show ∑ r : Fin 128, src (h.lift (ix1 u) r) = _
  refine Finset.sum_congr rfl fun r _ => congrArg src ?_
  funext c
  match c with
  | ⟨0, _⟩ => rfl
  | ⟨1, _⟩ => rfl

/-! ## A group's row of sums and its count -/

/-- Group g's channel sum at channel ch: over the tile's rows and columns, the channel times the indicator of g. -/
theorem rowS_apply (g : BitVec 32) (v4 : FVec Ideal S16x128x512 .f32) (v6 : IVec S128x512 32) (ch : Fin 16) :
    rowS (F := Ideal) g v4 v6 (ix2 (0 : Fin 1) ch)
      = ∑ r : Fin 128, ∑ w : Fin 512, v4 (ix3 ch r w) * Cert.Spec.ind (v6 (ix2 r w)) g := by
  unfold rowS
  refine (shapeCast_a11_1a_apply _ _ (0 : Fin 1) ch).trans ?_
  refine (shapeCast_a1_a11_apply _ _ ch (0 : Fin 1) (0 : Fin 1)).trans ?_
  refine (sum_rows3 _ _ _ _ ch (0 : Fin 1)).trans ?_
  refine Finset.sum_congr rfl fun r _ => ?_
  refine (shapeCast_ab_ab1_apply _ _ ch r (0 : Fin 1)).trans ?_
  refine (sum_cols3 _ _ _ _ ch r).trans ?_
  refine Finset.sum_congr rfl fun w _ => ?_
  rw [mulf_apply, broadcastTo_1bc_abc_apply, shapeCast_ab_1ab_apply, maskF_apply]

/-- Group g's count: over the tile's rows and columns, the indicator of g. -/
theorem rowN_apply (g : BitVec 32) (v6 : IVec S128x512 32) :
    rowN (F := Ideal) g v6 (ix2 (0 : Fin 1) (0 : Fin 1)) = ∑ r : Fin 128, ∑ w : Fin 512, Cert.Spec.ind (v6 (ix2 r w)) g := by
  unfold rowN
  refine (shapeCast_a_1a_apply _ _ (0 : Fin 1) (0 : Fin 1)).trans ?_
  refine (sum_rows2 _ _ _ _ (0 : Fin 1)).trans ?_
  refine Finset.sum_congr rfl fun r _ => ?_
  refine (shapeCast_a_a1_apply _ _ r (0 : Fin 1)).trans ?_
  refine (sum_cols2 _ _ _ _ r).trans ?_
  exact Finset.sum_congr rfl fun w _ => maskF_apply g v6 r w

/-! ## The tile's blocks: the groups' rows stacked -/

/-- The tile's channels read at (ch, r, w): the block's at (0, ch, r, w). -/
theorem chans_apply (x0 : Vec Ideal S1x16x128x512 .f32) (ch : Fin 16) (r : Fin 128) (w : Fin 512) :
    chans x0 (ix3 ch r w) = x0 (ix4 (0 : Fin 1) ch r w) :=
  shapeCast_1abc_abc_apply x0 _ ch r w

/-- The tile's words read at (r, w): the block's at (0, r, w). -/
theorem words_apply (x1 : Vec Ideal S1x128x512 .i32) (r : Fin 128) (w : Fin 512) :
    words x1 (ix2 r w) = x1 (ix3 (0 : Fin 1) r w) :=
  shapeCast_1ab_ab_apply x1 _ r w

/-- Entry (k, ch) of the tile's block of sums: group k + 4's channel sum at ch. -/
theorem tileS_apply (x0 : Vec Ideal S1x16x128x512 .f32) (x1 : Vec Ideal S1x128x512 .i32) (k : Fin 12) (ch : Fin 16) :
    tileS (F := Ideal) x0 x1 (ix2 k ch)
      = ∑ r : Fin 128, ∑ w : Fin 512,
          x0 (ix4 (0 : Fin 1) ch r w) * Cert.Spec.ind (x1 (ix3 (0 : Fin 1) r w)) (BitVec.ofNat 32 (k.val + 4)) := by
  unfold tileS
  refine (concatenate_ofFn_unit_apply (t := S12x16) (s₁ := S1x16) (0 : Fin 2)
    (fun n : Fin 12 => rowS (F := Ideal) (BitVec.ofNat 32 (n.val + 4)) (chans x0) (words x1)) _ rfl rfl
    (ix2 k ch) k rfl (ix2 (0 : Fin 1) ch) ?_).trans ?_
  · intro b hb
    match b with
    | ⟨0, _⟩ => exact absurd rfl hb
    | ⟨1, _⟩ => rfl
  · show rowS (F := Ideal) (BitVec.ofNat 32 (k.val + 4)) (chans x0) (words x1) (ix2 (0 : Fin 1) ch) = _
    rw [rowS_apply]
    refine Finset.sum_congr rfl fun r _ => Finset.sum_congr rfl fun w _ => ?_
    rw [chans_apply, words_apply]

/-- Entry (k, 0) of the tile's block of counts: group k + 4's count. -/
theorem tileN_apply (x1 : Vec Ideal S1x128x512 .i32) (k : Fin 12) :
    tileN (F := Ideal) x1 (ix2 k (0 : Fin 1))
      = ∑ r : Fin 128, ∑ w : Fin 512, Cert.Spec.ind (x1 (ix3 (0 : Fin 1) r w)) (BitVec.ofNat 32 (k.val + 4)) := by
  unfold tileN
  refine (concatenate_ofFn_unit_apply (t := S12x1) (s₁ := S1x1) (0 : Fin 2)
    (fun n : Fin 12 => rowN (F := Ideal) (BitVec.ofNat 32 (n.val + 4)) (words x1)) _ rfl rfl
    (ix2 k (0 : Fin 1)) k rfl (ix2 (0 : Fin 1) (0 : Fin 1)) ?_).trans ?_
  · intro b hb
    match b with
    | ⟨0, _⟩ => exact absurd rfl hb
    | ⟨1, _⟩ => rfl
  · show rowN (F := Ideal) (BitVec.ofNat 32 (k.val + 4)) (words x1) (ix2 (0 : Fin 1) (0 : Fin 1)) = _
    rw [rowN_apply]
    refine Finset.sum_congr rfl fun r _ => Finset.sum_congr rfl fun w _ => ?_
    rw [words_apply]

end Cert.KernelIdeal.Tile

end
-- ==== Proof.KValue.lean ====
/-
  The kernel program's result, as one function of its arguments (at the extended reals).

  The region leaves in its first output array, at (h, k, ch), the sum over the 16 batch entries and the
  128 × 512 pixels of tile h of rep · [sel = k + 4], and in its second the like count: the accumulator is
  reset at the first batch entry of a tile row, grows by one tile per grid point, and is written back at the last.
  The host operations after the region sum the four tiles and finish the table; so the result at (a, b, ch)
  is the normalised row 4a + b of the table updated from the twelve groups' sums and counts.
-/
import proofs.«425919_j61589831024790_3_alg».proof.Proof.KGrid
import proofs.«425919_j61589831024790_3_alg».proof.Proof.KBlocks
import proofs.«425919_j61589831024790_3_alg».proof.Proof.KHost
import proofs.«425919_j61589831024790_3_alg».proof.Proof.KTileIdeal
import proofs.«425919_j61589831024790_3_alg».proof.Proof.Spec

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Tile

variable (m : (ℓ : Loc nD τ sig) → Buf (Elt Ideal) ℓ) (ρ : Dev nD → PrngReg)

/-- rep as the region finds it. -/
abbrev repA (c : Dev nD) : Cert.Spec.SRep.Idx → EReal := V m c main_arg0

/-- The group-word-or-minus-one array as the region finds it, by coordinates. -/
def selA (c : Dev nD) (b : Fin 16) (y x : Fin 512) : BitVec 32 := V m c main_v14 (ix3 b y x)

/-- What the first output array holds after the run: tile h's partial sums. -/
def G2 (c : Dev nD) : Buf (Elt Ideal) ((c : Thread nD τ).loc main_v15_0) :=
  fun i => Cert.Spec.tileSum (repA m c) (selA m c) ⟨(i 1).val, (i 1).isLt⟩ ⟨(i 2).val, (i 2).isLt⟩ ⟨(i 0).val, (i 0).isLt⟩

/-- What the second output array holds after the run: tile h's partial counts. -/
def G3 (c : Dev nD) : Buf (Elt Ideal) ((c : Thread nD τ).loc main_v15_1) :=
  fun i => Cert.Spec.tileCnt (selA m c) ⟨(i 1).val, (i 1).isLt⟩ ⟨(i 0).val, (i 0).isLt⟩

/-- The point 16h + b is batch entry b of tile h. -/
theorem pt_mod (h : Fin 4) (b : Fin 16) : (16 * h.val + b.val) % 16 = b.val := by have := b.isLt; omega
theorem pt_div (h : Fin 4) (b : Fin 16) : (16 * h.val + b.val) / 16 = h.val := by have := b.isLt; omega

/-- One tile's sums, read off the arrays: the blocks of the point 16h + b are rows 128h … 128h + 127 of batch entry b. -/
theorem tile_sum (c : Dev nD) (h : Fin 4) (b : Fin 16) (k : Fin 12) (ch : Fin 16) :
    tileS (F := Ideal) (Grid.blk0 m c ⟨16 * h.val + b.val, Grid.pt_lt h b.val b.isLt⟩) (Grid.blk1 m c ⟨16 * h.val + b.val, Grid.pt_lt h b.val b.isLt⟩) (ix2 k ch)
      = ∑ r : Fin 128, ∑ w : Fin 512, repA m c (ix4 b ch (Cert.Spec.rowOf h r) w) * Cert.Spec.ind (selA m c b (Cert.Spec.rowOf h r) w) (BitVec.ofNat 32 (k.val + 4)) := by
  rw [tileS_apply]
  refine Finset.sum_congr rfl fun r _ => Finset.sum_congr rfl fun w _ => ?_
  unfold Grid.blk0 Grid.blk1
  rw [Blocks.iblk0_apply m c _ ch r w, Blocks.iblk1_apply m c _ r w]
  have e1 : (⟨(16 * h.val + b.val) % 16, Nat.mod_lt _ (by decide)⟩ : Fin 16) = b := Fin.ext (pt_mod h b)
  have e2 : ∀ hlt, (⟨128 * ((16 * h.val + b.val) / 16) + r.val, hlt⟩ : Fin 512) = Cert.Spec.rowOf h r := fun _ =>
    Fin.ext (by show 128 * ((16 * h.val + b.val) / 16) + r.val = 128 * h.val + r.val; rw [pt_div])
  simp only [e1, e2]
  rfl

theorem tile_cnt (c : Dev nD) (h : Fin 4) (b : Fin 16) (k : Fin 12) :
    tileN (F := Ideal) (Grid.blk1 m c ⟨16 * h.val + b.val, Grid.pt_lt h b.val b.isLt⟩) (ix2 k (0 : Fin 1))
      = ∑ r : Fin 128, ∑ w : Fin 512, Cert.Spec.ind (selA m c b (Cert.Spec.rowOf h r) w) (BitVec.ofNat 32 (k.val + 4)) := by
  rw [tileN_apply]
  refine Finset.sum_congr rfl fun r _ => Finset.sum_congr rfl fun w _ => ?_
  unfold Grid.blk1
  rw [Blocks.iblk1_apply m c _ r w]
  have e1 : (⟨(16 * h.val + b.val) % 16, Nat.mod_lt _ (by decide)⟩ : Fin 16) = b := Fin.ext (pt_mod h b)
  have e2 : ∀ hlt, (⟨128 * ((16 * h.val + b.val) / 16) + r.val, hlt⟩ : Fin 512) = Cert.Spec.rowOf h r := fun _ =>
    Fin.ext (by show 128 * ((16 * h.val + b.val) / 16) + r.val = 128 * h.val + r.val; rw [pt_div])
  simp only [e1, e2]
  rfl

/-- A flushing point is the last batch entry of its tile row. -/
theorem last_pt (t : Fin cfg0.N) (h15 : t.val % 16 = 15) : t.val = 16 * (t.val / 16) + 15 := by omega

/-- The first output array after the run. -/
theorem arr2 (c : Dev nD) : (dats m 0 c).arrAt 2 cfg0.N = G2 m c := by
  refine Blocks.arr2_of_flushed m c (G2 m c) fun t h15 k ch => ?_
  have hN : t.val < 64 := Blocks.pt_lt t
  rw [Grid.out2_eq m c t h15, shapeCast_addUnit_apply]
  have hidx : (fun a : Fin 2 => (ix3 (0 : Fin 1) k ch) a.succ) = (ix2 k ch : S12x16.Idx) :=
    funext fun a => by match a with | ⟨0, _⟩ => rfl | ⟨1, _⟩ => rfl
  rw [hidx]
  obtain ⟨tv, ht⟩ := t
  have e : tv = 16 * (tv / 16) + 15 := by have : tv % 16 = 15 := h15; omega
  let h : Fin 4 := ⟨tv / 16, by have : tv < 64 := hN; omega⟩
  have key : ∀ (n : ℕ) (hn : n < cfg0.N), n = 16 * h.val + 15 → Grid.accS m c n hn (ix2 k ch)
      = Cert.Spec.tileSum (repA m c) (selA m c) k ch h := by
    intro n hn hne
    subst hne
    rw [Grid.accS_last m c h (ix2 k ch)]
    unfold Cert.Spec.tileSum
    exact Finset.sum_congr rfl fun b _ => tile_sum m c h b k ch
  exact (key tv ht e).trans rfl

/-- The second output array after the run. -/
theorem arr3 (c : Dev nD) : (dats m 0 c).arrAt 3 cfg0.N = G3 m c := by
  refine Blocks.arr3_of_flushed m c (G3 m c) fun t h15 k => ?_
  have hN : t.val < 64 := Blocks.pt_lt t
  rw [Grid.out3_eq m c t h15, shapeCast_addUnit_apply]
  have hidx : (fun a : Fin 2 => (ix3 (0 : Fin 1) k (0 : Fin 1)) a.succ) = (ix2 k (0 : Fin 1) : S12x1.Idx) :=
    funext fun a => by match a with | ⟨0, _⟩ => rfl | ⟨1, _⟩ => rfl
  rw [hidx]
  obtain ⟨tv, ht⟩ := t
  have e : tv = 16 * (tv / 16) + 15 := by have : tv % 16 = 15 := h15; omega
  let h : Fin 4 := ⟨tv / 16, by have : tv < 64 := hN; omega⟩
  have key : ∀ (n : ℕ) (hn : n < cfg0.N), n = 16 * h.val + 15 → Grid.accN m c n hn (ix2 k (0 : Fin 1))
      = Cert.Spec.tileCnt (selA m c) k h := by
    intro n hn hne
    subst hne
    rw [Grid.accN_last m c h (ix2 k (0 : Fin 1))]
    unfold Cert.Spec.tileCnt
    exact Finset.sum_congr rfl fun b _ => tile_cnt m c h b k
  exact (key tv ht e).trans rfl

/-- The program's result as a function of its arguments. -/
def GK (c : Dev nD) : Buf (Elt Ideal) ((c : Thread nD τ).loc main_v44) :=
  fun i => Cert.Spec.result (Cert.Spec.Uker (Cert.Spec.kerSum (repA m c) (selA m c)) (Cert.Spec.kerCnt (selA m c))
    (m ((c : Thread nD τ).loc main_arg1))) ⟨(i 0).val, (i 0).isLt⟩ ⟨(i 1).val, (i 1).isLt⟩ ⟨(i 2).val, (i 2).isLt⟩

/-- The host tail at the region's arrays is that function. -/
theorem tail_eq (c : Dev nD) :
    Pipeline.afterTail₀ cfgs (dats m) 0 (V0 m) [hostOps1, hostOps1_1, hostOps1_2, hostOps1_3, hostOps1_4, hostOps1_5] c main_v44 = GK m c := by
  funext i
  obtain ⟨a, b, ch, rfl⟩ : ∃ (a b : Fin 4) (ch : Fin 16), i = ix3 a b ch := ⟨i 0, i 1, i 2, eq_ix3 i⟩
  rw [Host.tail_apply m c a b ch]
  have e2 : Host.outSums m c = G2 m c := arr2 m c
  have e3 : Host.outCnts m c = G3 m c := arr3 m c
  rw [e2, e3]
  rfl

/-- The run, read: the result at `GK`, the arguments unchanged. -/
theorem run : θ_run defs (onTc (τ := τ) (main (F := Ideal))) ⟨m, fun _ => 0, ρ⟩ fun r => ∀ c : Dev nD,
      r.2.mem ((c.tc : Thread nD τ).loc main_v44) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v44 (Pipeline.mem_restRefs_of main_v44 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KValue

end
-- ==== Proof.LibScatter.lean ====
/-
  A host scatter-add that sends each update row to the row of the table its one index names.

  The scatter indices are a column [P, 1]: update row p carries ONE index word, read signed. With the
  table's row axis inserted (the update has no coordinate on it) and the index mapped to that axis,
  update element (p, c) lands at table element (g, c) exactly when the word of row p reads g; an
  index outside 0 … G - 1 drops the row. So the scattered table at (g, c) is the operand there plus
  the sum, over the update rows whose word reads g, of the update at (p, c). The same without a
  window axis: a vector of P updates scattered into a vector of G sums.
-/
import Idealize.ShloMosaic.PureOps.Ideal
import Idealize.ShloMosaic.Lib.ValueIdx

noncomputable section

open scoped BigOperators

namespace Cert.LibScatter

open Idealize.ShloMosaic Idealize.ShloMosaic.ValueIdx

/-! ## Rows of width C into a table [G, C] -/

/-- The dimension numbers: update axis 1 is the window, table axis 0 is inserted and is the axis the
    index names, the index vector is axis 1 of the indices. -/
abbrev rowDims (G C P : Nat) (wf : ScatterDims.WF ⟨2, ![G, C]⟩ ⟨2, ![P, 1]⟩ ⟨2, ![P, C]⟩ [1] [0] [0] 1) :
    ScatterDims ⟨2, ![G, C]⟩ ⟨2, ![P, 1]⟩ ⟨2, ![P, C]⟩ where
  updateWindowDims := [1]
  insertedWindowDims := [0]
  scatterDimsToOperandDims := [0]
  indexVectorDim := 1
  wf := wf

section Rows

variable {G C P w : Nat} (wf : ScatterDims.WF ⟨2, ![G, C]⟩ ⟨2, ![P, 1]⟩ ⟨2, ![P, C]⟩ [1] [0] [0] 1)
  (idx : IVec ⟨2, ![P, 1]⟩ w) (p : Fin P) (c : Fin C)

theorem rows_start_zero : (rowDims G C P wf).start (ix2 p c) idx 0 = (idx (ix2 p (0 : Fin 1))).toInt := by
  unfold ScatterDims.start
  rw [dif_pos (show (0 : Fin 2) ∈ (rowDims G C P wf).scatterDimsToOperandDims from List.mem_singleton.mpr rfl)]
  congr 2
  funext b
  refine Fin.ext ?_
  match b with
  | ⟨0, _⟩ => rfl
  | ⟨1, _⟩ => rfl

theorem rows_start_one : (rowDims G C P wf).start (ix2 p c) idx 1 = 0 := by
  unfold ScatterDims.start
  rw [dif_neg (show ¬ (1 : Fin 2) ∈ (rowDims G C P wf).scatterDimsToOperandDims from (by decide : ¬ (1 : Fin 2) ∈ ([0] : List (Fin 2))))]

theorem rows_window_zero : (rowDims G C P wf).window (ix2 p c) 0 = 0 := by
  unfold ScatterDims.window
  rw [dif_neg (show ¬ (0 : Fin 2) ∈ (rowDims G C P wf).sKept from (by decide : ¬ (0 : Fin 2) ∈ ([1] : List (Fin 2))))]

theorem rows_window_one : (rowDims G C P wf).window (ix2 p c) 1 = c.val := by
  unfold ScatterDims.window
  rw [dif_pos (show (1 : Fin 2) ∈ (rowDims G C P wf).sKept from (by decide : (1 : Fin 2) ∈ ([1] : List (Fin 2))))]
  rfl

/-- Update element (p, c) lands at table element (g, c') exactly when row p's index word reads g and c = c'. -/
theorem rows_resultIdx? (g : Fin G) (c' : Fin C) :
    (rowDims G C P wf).resultIdx? (ix2 p c) idx = some (ix2 g c')
      ↔ (idx (ix2 p (0 : Fin 1))).toInt = (g.val : ℤ) ∧ c = c' := by
  unfold ScatterDims.resultIdx?
  have h0 : (rowDims G C P wf).start (ix2 p c) idx 0 + ((rowDims G C P wf).window (ix2 p c) 0 : ℤ)
      = (idx (ix2 p (0 : Fin 1))).toInt := by
    rw [rows_start_zero, rows_window_zero]; simp
  have h1 : (rowDims G C P wf).start (ix2 p c) idx 1 + ((rowDims G C P wf).window (ix2 p c) 1 : ℤ)
      = (c.val : ℤ) := by
    rw [rows_start_one, rows_window_one]; simp
  split
  · rename_i h
    constructor
    · intro e
      have e' := Option.some.inj e
      have e0 : ((rowDims G C P wf).start (ix2 p c) idx 0 + ((rowDims G C P wf).window (ix2 p c) 0 : ℤ)).toNat = g.val :=
        congrArg Fin.val (congrFun e' 0)
      have e1 : ((rowDims G C P wf).start (ix2 p c) idx 1 + ((rowDims G C P wf).window (ix2 p c) 1 : ℤ)).toNat = c'.val :=
        congrArg Fin.val (congrFun e' 1)
      have hp := (h 0).1
      rw [h0] at e0 hp
      rw [h1] at e1
      refine ⟨by omega, Fin.ext (by omega)⟩
    · rintro ⟨hg, rfl⟩
      congr 1
      funext a
      refine Fin.ext ?_
      match a with
      | ⟨0, _⟩ =>
        show ((rowDims G C P wf).start (ix2 p c) idx 0 + ((rowDims G C P wf).window (ix2 p c) 0 : ℤ)).toNat = g.val
        rw [h0, hg]; simp
      | ⟨1, _⟩ =>
        show ((rowDims G C P wf).start (ix2 p c) idx 1 + ((rowDims G C P wf).window (ix2 p c) 1 : ℤ)).toNat = c.val
        rw [h1]; simp
  · rename_i h
    constructor
    · intro e; cases e
    · rintro ⟨hg, rfl⟩
      exfalso
      apply h
      intro a
      match a with
      | ⟨0, _⟩ =>
        show 0 ≤ (rowDims G C P wf).start (ix2 p c) idx 0 + ((rowDims G C P wf).window (ix2 p c) 0 : ℤ)
          ∧ (rowDims G C P wf).start (ix2 p c) idx 0 + ((rowDims G C P wf).window (ix2 p c) 0 : ℤ) < (G : ℤ)
        rw [h0, hg]
        have := g.isLt
        omega
      | ⟨1, _⟩ =>
        show 0 ≤ (rowDims G C P wf).start (ix2 p c) idx 1 + ((rowDims G C P wf).window (ix2 p c) 1 : ℤ)
          ∧ (rowDims G C P wf).start (ix2 p c) idx 1 + ((rowDims G C P wf).window (ix2 p c) 1 : ℤ) < (C : ℤ)
        rw [h1]
        have := c.isLt
        omega

end Rows

/-- THE SCATTERED TABLE AT (g, c): the operand there plus, over the update rows whose index word reads g, the
    update at (p, c). -/
theorem rows_scatterAdd_apply {G C P w : Nat} (wf : ScatterDims.WF ⟨2, ![G, C]⟩ ⟨2, ![P, 1]⟩ ⟨2, ![P, C]⟩ [1] [0] [0] 1)
    (x : (⟨2, ![G, C]⟩ : Shape).Idx → EReal) (idx : IVec ⟨2, ![P, 1]⟩ w) (upd : (⟨2, ![P, C]⟩ : Shape).Idx → EReal)
    (g : Fin G) (c : Fin C) :
    Ideal.hostScatterAdd (rowDims G C P wf) x idx upd (ix2 g c)
      = x (ix2 g c) + ∑ p : Fin P, if (idx (ix2 p (0 : Fin 1))).toInt = (g.val : ℤ) then upd (ix2 p c) else 0 := by
  unfold Ideal.hostScatterAdd
  congr 1
  rw [Finset.sum_filter, sum_idx2]
  refine Finset.sum_congr rfl fun p _ => ?_
  simp only [rows_resultIdx?]
  by_cases hg : (idx (ix2 p (0 : Fin 1))).toInt = (g.val : ℤ)
  · rw [if_pos hg]
    rw [Finset.sum_eq_single c]
    · rw [if_pos ⟨hg, rfl⟩]
    · intro c' _ hne
      rw [if_neg (fun h => hne h.2)]
    · intro h; exact absurd (Finset.mem_univ c) h
  · rw [if_neg hg]
    refine Finset.sum_eq_zero fun c' _ => ?_
    rw [if_neg (fun h => hg h.1)]

/-! ## Scalars into a vector [G] -/

/-- The dimension numbers: no window axis, the vector's axis inserted and named by the index, the index vector
    axis 1 of the indices. -/
abbrev cellDims (G P : Nat) (wf : ScatterDims.WF ⟨1, ![G]⟩ ⟨2, ![P, 1]⟩ ⟨1, ![P]⟩ [] [0] [0] 1) :
    ScatterDims ⟨1, ![G]⟩ ⟨2, ![P, 1]⟩ ⟨1, ![P]⟩ where
  updateWindowDims := []
  insertedWindowDims := [0]
  scatterDimsToOperandDims := [0]
  indexVectorDim := 1
  wf := wf

section Cells

variable {G P w : Nat} (wf : ScatterDims.WF ⟨1, ![G]⟩ ⟨2, ![P, 1]⟩ ⟨1, ![P]⟩ [] [0] [0] 1)
  (idx : IVec ⟨2, ![P, 1]⟩ w) (p : Fin P)

theorem cells_start_zero : (cellDims G P wf).start (ix1 p) idx 0 = (idx (ix2 p (0 : Fin 1))).toInt := by
  unfold ScatterDims.start
  rw [dif_pos (show (0 : Fin 1) ∈ (cellDims G P wf).scatterDimsToOperandDims from List.mem_singleton.mpr rfl)]
  congr 2
  funext b
  refine Fin.ext ?_
  match b with
  | ⟨0, _⟩ => rfl
  | ⟨1, _⟩ => rfl

theorem cells_window_zero : (cellDims G P wf).window (ix1 p) 0 = 0 := by
  unfold ScatterDims.window
  rw [dif_neg (show ¬ (0 : Fin 1) ∈ (cellDims G P wf).sKept from (by decide : ¬ (0 : Fin 1) ∈ ([] : List (Fin 1))))]

/-- Update p lands at cell g exactly when its index word reads g. -/
theorem cells_resultIdx? (g : Fin G) :
    (cellDims G P wf).resultIdx? (ix1 p) idx = some (ix1 g) ↔ (idx (ix2 p (0 : Fin 1))).toInt = (g.val : ℤ) := by
  unfold ScatterDims.resultIdx?
  have h0 : (cellDims G P wf).start (ix1 p) idx 0 + ((cellDims G P wf).window (ix1 p) 0 : ℤ)
      = (idx (ix2 p (0 : Fin 1))).toInt := by
    rw [cells_start_zero, cells_window_zero]; simp
  split
  · rename_i h
    constructor
    · intro e
      have e' := Option.some.inj e
      have e0 : ((cellDims G P wf).start (ix1 p) idx 0 + ((cellDims G P wf).window (ix1 p) 0 : ℤ)).toNat = g.val :=
        congrArg Fin.val (congrFun e' 0)
      have hp := (h 0).1
      rw [h0] at e0 hp
      omega
    · intro hg
      congr 1
      funext a
      refine Fin.ext ?_
      match a with
      | ⟨0, _⟩ =>
        show ((cellDims G P wf).start (ix1 p) idx 0 + ((cellDims G P wf).window (ix1 p) 0 : ℤ)).toNat = g.val
        rw [h0, hg]; simp
  · rename_i h
    constructor
    · intro e; cases e
    · intro hg
      exfalso
      apply h
      intro a
      match a with
      | ⟨0, _⟩ =>
        show 0 ≤ (cellDims G P wf).start (ix1 p) idx 0 + ((cellDims G P wf).window (ix1 p) 0 : ℤ)
          ∧ (cellDims G P wf).start (ix1 p) idx 0 + ((cellDims G P wf).window (ix1 p) 0 : ℤ) < (G : ℤ)
        rw [h0, hg]
        have := g.isLt
        omega

end Cells

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e f).symm

/-- THE SCATTERED VECTOR AT g: the operand there plus the updates whose index word reads g. -/
theorem cells_scatterAdd_apply {G P w : Nat} (wf : ScatterDims.WF ⟨1, ![G]⟩ ⟨2, ![P, 1]⟩ ⟨1, ![P]⟩ [] [0] [0] 1)
    (x : (⟨1, ![G]⟩ : Shape).Idx → EReal) (idx : IVec ⟨2, ![P, 1]⟩ w) (upd : (⟨1, ![P]⟩ : Shape).Idx → EReal) (g : Fin G) :
    Ideal.hostScatterAdd (cellDims G P wf) x idx upd (ix1 g)
      = x (ix1 g) + ∑ p : Fin P, if (idx (ix2 p (0 : Fin 1))).toInt = (g.val : ℤ) then upd (ix1 p) else 0 := by
  unfold Ideal.hostScatterAdd
  congr 1
  rw [Finset.sum_filter, sum_idx1]
  refine Finset.sum_congr rfl fun p _ => ?_
  simp only [cells_resultIdx?]

end Cert.LibScatter

end
-- ==== Proof.RRef.lean ====
/-
  The reference's result, read at an index, over the extended reals.

  The reference flattens the batch to 4194304 pixels, row-major: pixel (b, y, x) is number
  (512 b + y) 512 + x. Per pixel it forms the group word 4 · target + matched and the weight
  (mask = 1, target ≠ 0, cond) as a number, multiplies the pixel's sixteen channels by the weight,
  and scatters rows and weights by the group word into a 16 × 16 table of sums and a vector of 16
  counts, both from zero. A scatter by one index word per row is, at table row g, the zero plus the
  sum over the pixels whose word reads g; re-indexing the pixels by (b, y, x) gives the sums and
  counts of the specification. The rest is elementwise: the mean, the momentum mix where the count is
  positive, and each row divided by the larger of its norm and a small constant. The matched index
  array is kept as one array throughout.
-/
import proofs.«425919_j61589831024790_3_alg».proof.Proof.RefReadP
import proofs.«425919_j61589831024790_3_alg».proof.Proof.Spec
import proofs.«425919_j61589831024790_3_alg».proof.Proof.LibScatter
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The pixels, flattened row-major -/

/-- Pixel (b, y, x) of the batch in the flattened order. -/
def pix (b : Fin 16) (y x : Fin 512) : Fin 4194304 :=
  ⟨(b.val * 512 + y.val) * 512 + x.val, by have := b.isLt; have := y.isLt; have := x.isLt; omega⟩

/-- The flattened pixels are the triples (b, y, x). -/
def pixEquiv : Fin 16 × Fin 512 × Fin 512 ≃ Fin 4194304 where
  toFun q := pix q.1 q.2.1 q.2.2
  invFun p := (⟨p.val / 262144, by have := p.isLt; omega⟩, ⟨p.val / 512 % 512, by omega⟩, ⟨p.val % 512, by omega⟩)
  left_inv := by
    rintro ⟨b, y, x⟩
    have hb := b.isLt
    have hy := y.isLt
    have hx := x.isLt
    refine Prod.ext (Fin.ext ?_) (Prod.ext (Fin.ext ?_) (Fin.ext ?_))
    · show ((b.val * 512 + y.val) * 512 + x.val) / 262144 = b.val
      omega
    · show ((b.val * 512 + y.val) * 512 + x.val) / 512 % 512 = y.val
      omega
    · show ((b.val * 512 + y.val) * 512 + x.val) % 512 = x.val
      omega
  right_inv := by
    intro p
    have hp := p.isLt
    apply Fin.ext
    show (p.val / 262144 * 512 + p.val / 512 % 512) * 512 + p.val % 512 = p.val
    omega

/-- A sum over the flattened pixels is the triple sum over batch entry, row and column. -/
theorem sum_pix {M : Type} [AddCommMonoid M] (f : Fin 4194304 → M) :
    ∑ p, f p = ∑ b : Fin 16, ∑ y : Fin 512, ∑ x : Fin 512, f (pix b y x) := by
  rw [← Equiv.sum_comp pixEquiv f, Fintype.sum_prod_type]
  refine Finset.sum_congr rfl fun b _ => ?_
  rw [Fintype.sum_prod_type]
  rfl

section Pixel

variable (b : Fin 16) (y x : Fin 512) (ch : Fin 16)

/-- The flattened group words read pixel number (512 b + y) 512 + x at (b, y, x). -/
theorem idx14_pix : idx_main_v14 (ix1 (pix b y x)) = ix3 b y x := by
  funext a
  refine Fin.ext ?_
  have hb := b.isLt
  have hy := y.isLt
  have hx := x.isLt
  match a with
  | ⟨0, _⟩ =>
    show ((b.val * 512 + y.val) * 512 + x.val) / 262144 = b.val
    omega
  | ⟨1, _⟩ =>
    show ((b.val * 512 + y.val) * 512 + x.val) / 512 % 512 = y.val
    omega
  | ⟨2, _⟩ =>
    show ((b.val * 512 + y.val) * 512 + x.val) % 512 = x.val
    omega

/-- The flattened weights likewise. -/
theorem idx16_pix : idx_main_v16 (ix1 (pix b y x)) = ix3 b y x := idx14_pix b y x

/-- Channel ch of flattened pixel (b, y, x) is rep at (b, ch, y, x): the transpose puts the channel last, the
    reshape merges the three pixel axes. -/
theorem idx18_pix : idx_main_v17 (idx_main_v18 (ix2 (pix b y x) ch)) = ix4 b ch y x := by
  funext a
  refine Fin.ext ?_
  have hb := b.isLt
  have hy := y.isLt
  have hx := x.isLt
  have hc := ch.isLt
  match a with
  | ⟨0, _⟩ =>
    show (((b.val * 512 + y.val) * 512 + x.val) * 16 + ch.val) / 4194304 = b.val
    omega
  | ⟨1, _⟩ =>
    show (((b.val * 512 + y.val) * 512 + x.val) * 16 + ch.val) % 16 = ch.val
    omega
  | ⟨2, _⟩ =>
    show (((b.val * 512 + y.val) * 512 + x.val) * 16 + ch.val) / 8192 % 512 = y.val
    omega
  | ⟨3, _⟩ =>
    show (((b.val * 512 + y.val) * 512 + x.val) * 16 + ch.val) / 16 % 512 = x.val
    omega

end Pixel

/-! ## One pixel's group word, weight and weighted channel -/

/-- The matched index array as the reference leaves it after its take-along-axis (kept as one array). -/
abbrev matR (x2 : (⟨S16x512x512x4, .i32⟩ : BufTy).Contents (Elt Ideal)) (x3 : (⟨S16x512x512, .i32⟩ : BufTy).Contents (Elt Ideal)) : Spec.SPix.Idx → BitVec 32 :=
  val_main_v10 (F := Ideal) x2 x3

section Stages

variable (x0 : (⟨S16x16x512x512, .f32⟩ : BufTy).Contents (Elt Ideal)) (x1 : (⟨S4x4x16, .f32⟩ : BufTy).Contents (Elt Ideal))
  (x2 : (⟨S16x512x512x4, .i32⟩ : BufTy).Contents (Elt Ideal)) (x3 : (⟨S16x512x512, .i32⟩ : BufTy).Contents (Elt Ideal))
  (x4 : (⟨S512x512, .i32⟩ : BufTy).Contents (Elt Ideal)) (x5 : (⟨S16x512x512, .i1⟩ : BufTy).Contents (Elt Ideal))

/-- The scatter's index word of pixel (b, y, x) is its group word 4 · target + matched. -/
theorem gid_pix (b : Fin 16) (y x : Fin 512) :
    val_main_v23 (F := Ideal) x2 x3 (ix2 (pix b y x) (0 : Fin 1)) = Spec.gidw x3 (matR x2 x3) b y x := by
  rw [val_main_v23_apply, val_main_v14_apply, val_main_v13_apply, val_main_v12_apply, val_main_v11_apply,
    val_main_c_1_apply]
  have e : idx_main_v14 (idx_main_v23 (ix2 (pix b y x) (0 : Fin 1))) = ix3 b y x :=
    (congrArg idx_main_v14 (funext fun a => Fin.ext (by match a with | ⟨0, _⟩ => rfl))).trans (idx14_pix b y x)
  rw [e]
  rfl

/-- The counts' scatter reads the same index word. -/
theorem gid_pix' (b : Fin 16) (y x : Fin 512) :
    val_main_v26 (F := Ideal) x2 x3 (ix2 (pix b y x) (0 : Fin 1)) = Spec.gidw x3 (matR x2 x3) b y x := by
  rw [val_main_v26_apply, val_main_v14_apply, val_main_v13_apply, val_main_v12_apply, val_main_v11_apply,
    val_main_c_1_apply]
  have e : idx_main_v14 (idx_main_v26 (ix2 (pix b y x) (0 : Fin 1))) = ix3 b y x :=
    (congrArg idx_main_v14 (funext fun a => Fin.ext (by match a with | ⟨0, _⟩ => rfl))).trans (idx14_pix b y x)
  rw [e]
  rfl

/-- The flattened weight of pixel (b, y, x) is its weight bit read as a number. -/
theorem wgt_pix (b : Fin 16) (y x : Fin 512) :
    val_main_v16 (F := Ideal) x3 x4 x5 (ix1 (pix b y x)) = Spec.wgt (Spec.vbit x4 x3 x5 b y x) := by
  rw [val_main_v16_apply, idx16_pix, val_main_v15_apply, val_main_v7_apply, val_main_v6_apply, val_main_v5_apply,
    val_main_v2_apply, val_main_v0_apply, val_main_v1_apply, val_main_c_apply, val_main_v4_apply, val_main_v3_apply,
    val_main_c_0_apply]
  have e : idx_main_v0 (idx_main_v5 (ix3 b y x)) = ix2 y x :=
    funext fun a => Fin.ext (by match a with | ⟨0, _⟩ => rfl | ⟨1, _⟩ => rfl)
  rw [e]
  rfl

/-- The scattered row of pixel (b, y, x) at channel ch: rep there times the weight. -/
theorem upd_pix (b : Fin 16) (y x : Fin 512) (ch : Fin 16) :
    val_main_v21 (F := Ideal) x0 x3 x4 x5 (ix2 (pix b y x) ch)
      = x0 (ix4 b ch y x) * Spec.wgt (Spec.vbit x4 x3 x5 b y x) := by
  rw [val_main_v21_apply, val_main_v18_apply, val_main_v17_apply, idx18_pix, val_main_v20_apply, val_main_v19_apply]
  have e : idx_main_v19 (idx_main_v20 (ix2 (pix b y x) ch)) = ix1 (pix b y x) :=
    funext fun a => Fin.ext (by match a with | ⟨0, _⟩ => rfl)
  rw [e, wgt_pix]
  rfl

/-! ## The two scatters -/

/-- The sums' scatter has the dimension numbers of a scatter of rows by one index word each. -/
theorem dims_eq : scatter_S16x16_S4194304x1_S4194304x16_1_0_0_1
    = Cert.LibScatter.rowDims 16 16 4194304 scatter_S16x16_S4194304x1_S4194304x16_1_0_0_1_wf := rfl

/-- The table of sums is that scatter of the weighted rows into the zero table. -/
theorem v24_eq : val_main_v24 (F := Ideal) x0 x2 x3 x4 x5
    = Ideal.hostScatterAdd (Cert.LibScatter.rowDims 16 16 4194304 scatter_S16x16_S4194304x1_S4194304x16_1_0_0_1_wf)
        (val_main_v22 (F := Ideal)) (val_main_v23 (F := Ideal) x2 x3) (val_main_v21 (F := Ideal) x0 x3 x4 x5) := by
  unfold val_main_v24 Host.scatterAdd
  rw [Ideal.hostScatterAdd_def, dims_eq]

/-- At (g, ch): the zero there plus, over the flattened pixels whose index word reads g, the weighted row at ch. -/
theorem sums_s1 (g ch : Fin 16) : val_main_v24 (F := Ideal) x0 x2 x3 x4 x5 (ix2 g ch)
    = val_main_v22 (F := Ideal) (ix2 g ch) + ∑ p : Fin 4194304,
        if (val_main_v23 (F := Ideal) x2 x3 (ix2 p (0 : Fin 1))).toInt = (g.val : ℤ) then val_main_v21 (F := Ideal) x0 x3 x4 x5 (ix2 p ch) else 0 := by
  rw [v24_eq, Cert.LibScatter.rows_scatterAdd_apply]

/-- The same with the pixels as triples (b, y, x). -/
theorem sums_s2 (g ch : Fin 16) : val_main_v24 (F := Ideal) x0 x2 x3 x4 x5 (ix2 g ch)
    = Spec.zero + ∑ b : Fin 16, ∑ y : Fin 512, ∑ x : Fin 512,
        if (val_main_v23 (F := Ideal) x2 x3 (ix2 (pix b y x) (0 : Fin 1))).toInt = (g.val : ℤ) then val_main_v21 (F := Ideal) x0 x3 x4 x5 (ix2 (pix b y x) ch) else 0 := by
  rw [sums_s1, val_main_v22_apply, val_main_cst_apply, sum_pix]
  rfl

/-- The scattered table of sums at (g, ch) is the specification's sum for group g, channel ch. -/
theorem sums_apply (g ch : Fin 16) :
    val_main_v24 (F := Ideal) x0 x2 x3 x4 x5 (ix2 g ch)
      = Spec.refSum x0 (Spec.vbit x4 x3 x5) (Spec.gidw x3 (matR x2 x3)) g ch := by
  rw [sums_s2]
  unfold Spec.refSum
  refine congrArg (_ + ·) ?_
  refine Finset.sum_congr rfl fun b _ => Finset.sum_congr rfl fun y _ => Finset.sum_congr rfl fun x _ => ?_
  rw [gid_pix, upd_pix]

/-- The counts' scatter has the dimension numbers of a scatter of scalars by one index word each. -/
theorem dims_eq' : scatter_S16_S4194304x1_S4194304_n_0_0_1
    = Cert.LibScatter.cellDims 16 4194304 scatter_S16_S4194304x1_S4194304_n_0_0_1_wf := rfl

/-- The vector of counts is that scatter of the weights into the zero vector. -/
theorem v27_eq : val_main_v27 (F := Ideal) x2 x3 x4 x5
    = Ideal.hostScatterAdd (Cert.LibScatter.cellDims 16 4194304 scatter_S16_S4194304x1_S4194304_n_0_0_1_wf)
        (val_main_v25 (F := Ideal)) (val_main_v26 (F := Ideal) x2 x3) (val_main_v16 (F := Ideal) x3 x4 x5) := by
  unfold val_main_v27 Host.scatterAdd
  rw [Ideal.hostScatterAdd_def, dims_eq']

/-- At g: the zero there plus the weights of the flattened pixels whose index word reads g. -/
theorem cnt_s1 (g : Fin 16) : val_main_v27 (F := Ideal) x2 x3 x4 x5 (ix1 g)
    = val_main_v25 (F := Ideal) (ix1 g) + ∑ p : Fin 4194304,
        if (val_main_v26 (F := Ideal) x2 x3 (ix2 p (0 : Fin 1))).toInt = (g.val : ℤ) then val_main_v16 (F := Ideal) x3 x4 x5 (ix1 p) else 0 := by
  rw [v27_eq, Cert.LibScatter.cells_scatterAdd_apply]

/-- The same with the pixels as triples (b, y, x). -/
theorem cnt_s2 (g : Fin 16) : val_main_v27 (F := Ideal) x2 x3 x4 x5 (ix1 g)
    = Spec.zero + ∑ b : Fin 16, ∑ y : Fin 512, ∑ x : Fin 512,
        if (val_main_v26 (F := Ideal) x2 x3 (ix2 (pix b y x) (0 : Fin 1))).toInt = (g.val : ℤ) then val_main_v16 (F := Ideal) x3 x4 x5 (ix1 (pix b y x)) else 0 := by
  rw [cnt_s1, val_main_v25_apply, val_main_cst_2_apply, sum_pix]
  rfl

/-- The scattered vector of counts at g is the specification's count for group g. -/
theorem cnt_apply (g : Fin 16) :
    val_main_v27 (F := Ideal) x2 x3 x4 x5 (ix1 g)
      = Spec.refCnt (Spec.vbit x4 x3 x5) (Spec.gidw x3 (matR x2 x3)) g := by
  rw [cnt_s2]
  unfold Spec.refCnt
  refine congrArg (_ + ·) ?_
  refine Finset.sum_congr rfl fun b _ => Finset.sum_congr rfl fun y _ => Finset.sum_congr rfl fun x _ => ?_
  rw [gid_pix', wgt_pix]

/-! ## The updated table, its rows normalised, the result -/

/-- The table after the momentum update at (g, ch) is the specification's. -/
theorem table_apply (g ch : Fin 16) :
    val_main_v42 (F := Ideal) x0 x1 x2 x3 x4 x5 (ix2 g ch)
      = Spec.Uref (Spec.refSum x0 (Spec.vbit x4 x3 x5) (Spec.gidw x3 (matR x2 x3)))
          (Spec.refCnt (Spec.vbit x4 x3 x5) (Spec.gidw x3 (matR x2 x3))) x1 g ch := by
  rw [val_main_v42_apply, val_main_call1_v0_apply, val_main_v36_apply, val_main_v35_apply, val_main_v34_apply,
    val_main_cst_4_apply, val_main_v41_apply, val_main_v38_apply, val_main_v37_apply, val_main_cst_5_apply,
    val_main_v40_apply, val_main_v39_apply, val_main_cst_6_apply, val_main_v32_apply, val_main_v31_apply,
    val_main_v30_apply, val_main_v29_apply, val_main_v28_apply, val_main_cst_3_apply, val_main_v33_apply]
  have e1 : idx_main_v36 (idx_main_call1_v0 (ix2 g ch)) = ix1 g :=
    funext fun a => Fin.ext (by match a with | ⟨0, _⟩ => rfl)
  have e2 : idx_main_v30 (idx_main_v31 (ix2 g ch)) = ix1 g :=
    funext fun a => Fin.ext (by match a with | ⟨0, _⟩ => rfl)
  have e3 : idx_main_v33 (ix2 g ch)
      = ix3 (⟨g.val / 4, by omega⟩ : Fin 4) (⟨g.val % 4, by omega⟩ : Fin 4) ch := by
    funext a
    refine Fin.ext ?_
    have hg := g.isLt
    have hc := ch.isLt
    match a with
    | ⟨0, _⟩ =>
      show (g.val * 16 + ch.val) / 64 = g.val / 4
      omega
    | ⟨1, _⟩ =>
      show (g.val * 16 + ch.val) / 16 % 4 = g.val % 4
      omega
    | ⟨2, _⟩ =>
      show (g.val * 16 + ch.val) % 16 = ch.val
      omega
  rw [e1, e2, e3, sums_apply, cnt_apply]
  rfl

/-- The Euclidean norm of row g of the updated table. -/
theorem norm_apply (g : Fin 16) :
    val_main_v43 (F := Ideal) x0 x1 x2 x3 x4 x5 (ix2 g (0 : Fin 1))
      = Ideal.sqrt (Spec.zero + ∑ k : Fin 16,
          Spec.Uref (Spec.refSum x0 (Spec.vbit x4 x3 x5) (Spec.gidw x3 (matR x2 x3)))
            (Spec.refCnt (Spec.vbit x4 x3 x5) (Spec.gidw x3 (matR x2 x3))) x1 g k
          * Spec.Uref (Spec.refSum x0 (Spec.vbit x4 x3 x5) (Spec.gidw x3 (matR x2 x3)))
            (Spec.refCnt (Spec.vbit x4 x3 x5) (Spec.gidw x3 (matR x2 x3))) x1 g k) := by
  rw [val_main_v43_apply, val_main_call2_v2_apply, val_main_call2_v1_apply, val_main_call2_cst_apply,
    Ideal.hostUnary_sqrt_def, Ideal.ofBits_def]
  have e0 : idx_main_call2_v2 (ix2 g (0 : Fin 1)) = ix1 g :=
    funext fun a => Fin.ext (by match a with | ⟨0, _⟩ => rfl)
  rw [e0]
  refine congrArg Ideal.sqrt (congrArg (_ + ·) (Finset.sum_congr rfl fun k _ => ?_))
  have e : idx_main_call2_v1 (ix1 g) k = ix2 g k :=
    funext fun a => Fin.ext (by match a with | ⟨0, _⟩ => rfl | ⟨1, _⟩ => rfl)
  rw [e, val_main_call2_v0_apply, table_apply]
  exact Ideal.mulf_def _ _

/-- Row g of the normalised table at ch. -/
theorem row_apply (g ch : Fin 16) :
    val_main_v47 (F := Ideal) x0 x1 x2 x3 x4 x5 (ix2 g ch)
      = Spec.rowOut (Spec.Uref (Spec.refSum x0 (Spec.vbit x4 x3 x5) (Spec.gidw x3 (matR x2 x3)))
          (Spec.refCnt (Spec.vbit x4 x3 x5) (Spec.gidw x3 (matR x2 x3))) x1 g) ch := by
  rw [val_main_v47_apply, val_main_v46_apply, val_main_v45_apply, val_main_v44_apply, val_main_cst_7_apply, table_apply]
  have e : idx_main_v46 (ix2 g ch) = ix2 g (0 : Fin 1) :=
    funext fun a => Fin.ext (by match a with | ⟨0, _⟩ => rfl | ⟨1, _⟩ => rfl)
  rw [e, norm_apply, Ideal.hostDivf_def, Ideal.maximumf_def, Ideal.ofBits_def]
  rfl

/-- THE REFERENCE'S RESULT at (a, b, ch): row 4 a + b of the updated table, normalised, at ch. -/
theorem result_apply (a b : Fin 4) (ch : Fin 16) :
    val_main_v48 (F := Ideal) x0 x1 x2 x3 x4 x5 (ix3 a b ch)
      = Spec.result (Spec.Uref (Spec.refSum x0 (Spec.vbit x4 x3 x5) (Spec.gidw x3 (matR x2 x3)))
          (Spec.refCnt (Spec.vbit x4 x3 x5) (Spec.gidw x3 (matR x2 x3))) x1) a b ch := by
  rw [val_main_v48_apply]
  have e : idx_main_v48 (ix3 a b ch) = ix2 (Spec.grp a b) ch := by
    funext d
    refine Fin.ext ?_
    have ha := a.isLt
    have hb := b.isLt
    have hc := ch.isLt
    match d with
    | ⟨0, _⟩ =>
      show ((a.val * 4 + b.val) * 16 + ch.val) / 16 = 4 * a.val + b.val
      omega
    | ⟨1, _⟩ =>
      show ((a.val * 4 + b.val) * 16 + ch.val) % 16 = ch.val
      omega
  rw [e, row_apply]
  rfl

end Stages

end Cert.ReferenceIdeal.RefValue

end
-- ==== Proof.KMatched.lean ====
/-
  The array of matched indices.

  Both programs compute, before anything else, the array "matched": at pixel (b, y, x) the entry of the
  table of matched indices in the column the pixel's target names, by one and the same line of
  operations (the outlined take-along-axis: the target is normalised to a column, tested to be in
  range, the table is gathered at it, and a fill word stands where the test fails; a reshape drops the
  unit axis). This module shows that the kernel program's array is the reference's, as one function of
  the two arguments, and that every entry of it is an entry of the table or the fill word.

  The line is cut into four stretches, each read over an arbitrary valuation that already holds the
  earlier stretch's values: the column array, the range test, the gather with the selection and the
  reshape, and the operations after them, which write none of these buffers.
-/
import proofs.«425919_j61589831024790_3_alg».proof.Proof.Gen.KernelIdeal.Frame
import proofs.«425919_j61589831024790_3_alg».proof.Proof.RefReadP
import Idealize.ShloMosaic.Lib.StableHlo.Run
import Idealize.ShloMosaic.Lib.ValueIdx
import Idealize.ShloMosaic.Lib.Pipeline.Value

noncomputable section

namespace Cert.Matched

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-! ## Every entry is an entry of the table or the fill word -/

/-- The array of matched indices is, entry by entry, an entry of the table of matched indices or the
    fill word: the last operation selects, by a bit, between a gathered entry of the table and the
    broadcast fill word, and the reshape that follows only renames the index. -/
theorem matched_cases
    (x2 : (⟨Cert.ReferenceIdeal.S16x512x512x4, .i32⟩ : BufTy).Contents (Elt F))
    (x3 : (⟨Cert.ReferenceIdeal.S16x512x512, .i32⟩ : BufTy).Contents (Elt F))
    (p : Cert.ReferenceIdeal.S16x512x512.Idx) :
    (∃ q, Cert.ReferenceIdeal.Read.val_main_v10 (F := F) x2 x3 p = x2 q)
      ∨ Cert.ReferenceIdeal.Read.val_main_v10 (F := F) x2 x3 p = 2147483648#32 := by
  rw [Cert.ReferenceIdeal.Read.val_main_v10_apply, Cert.ReferenceIdeal.Read.val_main_v9_apply]
  by_cases h : Cert.ReferenceIdeal.Read.val_main_call0_v12 (F := F) x3 (Cert.ReferenceIdeal.Read.idx_main_v10 p) = 1#1
  · left
    rw [h, select_one]
    exact ⟨_, rfl⟩
  · right
    rw [eq_zero_of_ne_one h, select_zero, Cert.ReferenceIdeal.Read.val_main_call0_v14_apply,
      Cert.ReferenceIdeal.Read.val_main_call0_c_4_apply]

/-! ## The kernel program's line, cut into stretches -/

/-- The host operations before the region, as one line. -/
abbrev opsK : List (HloOp τ sig (Elt F)) := List.flatten [hostOps0, hostOps0_1, hostOps0_2, hostOps0_3]
/-- The first nine: the target as a column array (negative targets wrapped), with a unit axis added. -/
def opsA : List (HloOp τ sig (Elt F)) := (opsK (F := F)).take 9
/-- The next ten: the test that the column is in range. -/
def opsB : List (HloOp τ sig (Elt F)) := ((opsK (F := F)).drop 9).take 10
/-- The next five: the gather, the fill word, the selection and the reshape. -/
def opsC : List (HloOp τ sig (Elt F)) := (((opsK (F := F)).drop 9).drop 10).take 5
/-- The rest: the weight bit and the group word, which write none of the buffers above. -/
def opsD : List (HloOp τ sig (Elt F)) := (((opsK (F := F)).drop 9).drop 10).drop 5

/-- The line is its four stretches, in order. -/
theorem opsK_split : (opsK (F := F)) = opsA ++ (opsB ++ (opsC ++ opsD)) := by
  simp only [opsA, opsB, opsC, opsD, List.take_append_drop]

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole line, stretch after stretch. -/
theorem after_opsK (V : Valuation τ sig (Elt F)) :
    after (opsK (F := F)) V = after opsD (after opsC (after opsB (after opsA V))) :=
  (congrArg (fun l => after l V) opsK_split).trans
    (by rw [after_append, after_append, after_append])

/-- A stretch spelt out as the literal list of its operations. -/
local macro "ops_lit" : tactic =>
  `(tactic| simp only [opsA, opsB, opsC, opsD, opsK, hostOps0, hostOps0_1, hostOps0_2, hostOps0_3,
      List.flatten_cons, List.flatten_nil, List.append_nil, List.cons_append, List.nil_append,
      List.take_succ_cons, List.take_zero, List.drop_succ_cons, List.drop_zero])

variable (W : Valuation τ sig (Elt F))

/-! ### The first stretch: the column array -/

/-- The first stretch leaves the column array the reference forms from the target. -/
theorem stA_v5 :
    after opsA W (Proc.devRef .tc main_call0_v5)
      = Cert.ReferenceIdeal.Read.val_main_call0_v5 (F := F) (W (Proc.devRef .tc main_arg3)) := by
  ops_lit
  after_results_simp
  simp only [TRef.ofBuf, TRef.toBuf, cast_eq]
  rfl

/-- The first stretch does not write the table. -/
theorem stA_arg2 : after opsA W (Proc.devRef .tc main_arg2) = W (Proc.devRef .tc main_arg2) := by
  ops_lit
  after_results_simp

/-! ### The second stretch: the range test -/

/-- The second stretch leaves the reference's range test of the column array it finds. -/
theorem stB_v12 (x3 : (⟨Cert.ReferenceIdeal.S16x512x512, .i32⟩ : BufTy).Contents (Elt F))
    (h5 : W (Proc.devRef .tc main_call0_v5) = Cert.ReferenceIdeal.Read.val_main_call0_v5 (F := F) x3) :
    after opsB W (Proc.devRef .tc main_call0_v12) = Cert.ReferenceIdeal.Read.val_main_call0_v12 (F := F) x3 := by
  ops_lit
  after_results_simp
  simp only [TRef.ofBuf, TRef.toBuf, cast_eq]
  rw [h5]
  rfl

/-- The second stretch does not write the column array. -/
theorem stB_v5 : after opsB W (Proc.devRef .tc main_call0_v5) = W (Proc.devRef .tc main_call0_v5) := by
  ops_lit
  after_results_simp

/-- The second stretch does not write the table. -/
theorem stB_arg2 : after opsB W (Proc.devRef .tc main_arg2) = W (Proc.devRef .tc main_arg2) := by
  ops_lit
  after_results_simp

/-! ### The third stretch: the gather, the selection, the reshape -/

/-- The third stretch leaves the reference's array of matched indices, from the table, the column array
    and the range test it finds. -/
theorem stC (x2 : (⟨Cert.ReferenceIdeal.S16x512x512x4, .i32⟩ : BufTy).Contents (Elt F))
    (x3 : (⟨Cert.ReferenceIdeal.S16x512x512, .i32⟩ : BufTy).Contents (Elt F))
    (h2 : W (Proc.devRef .tc main_arg2) = x2)
    (h5 : W (Proc.devRef .tc main_call0_v5) = Cert.ReferenceIdeal.Read.val_main_call0_v5 (F := F) x3)
    (h12 : W (Proc.devRef .tc main_call0_v12) = Cert.ReferenceIdeal.Read.val_main_call0_v12 (F := F) x3) :
    after opsC W (Proc.devRef .tc main_v2) = Cert.ReferenceIdeal.Read.val_main_v10 (F := F) x2 x3 := by
  ops_lit
  after_results_simp
  simp only [TRef.ofBuf, TRef.toBuf, cast_eq]
  rw [h2, h5, h12]
  rfl

/-! ### The rest -/

/-- No later operation before the region writes the array of matched indices. -/
theorem stD : after opsD W (Proc.devRef .tc main_v2) = W (Proc.devRef .tc main_v2) := by
  ops_lit
  after_results_simp

/-! ## The two programs' arrays agree -/

variable (m : (ℓ : Loc nD τ sig) → Buf (Elt F) ℓ)

/-- The kernel program's array of matched indices is the reference's: the same operations on the same
    two arguments. -/
theorem matched_agree (c : Dev nD) :
    Gen.V m c main_v2
      = Cert.ReferenceIdeal.Read.val_main_v10 (F := F)
          (m ((c : Thread nD τ).loc main_arg2)) (m ((c : Thread nD τ).loc main_arg3)) := by
  show after (opsK (F := F)) (fun b => m (c, b)) (Proc.devRef .tc main_v2) = _
  rw [after_opsK, stD]
  exact stC _ _ _ ((stB_arg2 _).trans (stA_arg2 _)) ((stB_v5 _).trans (stA_v5 _))
    (stB_v12 _ _ (stA_v5 _))

end Cert.Matched

end
-- ==== Proof.PreDecode.lean ====
/-
  What the precondition says of the two integer inputs.

  The precondition is a conjunction of four "all entries satisfy …": the two float inputs finite, every target in
  0 … 3 and every matched-prototype index in 0 … 3 (each an `and`-reduction over the whole array that came out 1).
  Read back: every entry of the target array, and of the index array, read signed, lies in 0 … 3.
-/
import proofs.«425919_j61589831024790_3_alg».proof.Pre_finite_inputs
import Idealize.ShloMosaic.Lib.ReduceAll
import Idealize.ShloMosaic.Lib.ValueIdx

noncomputable section

namespace Cert.PreDecode

open Idealize.ShloMosaic Cert.Pre_finite_inputs

variable [Facts]
open Facts

instance : Subsingleton S_.Idx := ⟨fun a b => funext fun d => d.elim0⟩

/-- A word at least the zero word and below the word 4, both read signed, reads signed in 0 … 3. -/
theorem range_of_cmp {u z f : BitVec 32} (hz : z = 0#32) (hf : f = 4#32)
    (h : IntOp.andi (IntOp.cmpi .sge u z) (IntOp.cmpi .slt u f) = 1#1) : 0 ≤ u.toInt ∧ u.toInt < 4 := by
  subst hz; subst hf
  obtain ⟨h1, h2⟩ := IntOp.andi_eq_one.1 h
  have e1 := IntOp.cmpi_sge.1 h1
  have e2 := IntOp.cmpi_slt.1 h2
  have z0 : (0#32 : BitVec 32).toInt = 0 := by decide
  have f4 : (4#32 : BitVec 32).toInt = 4 := by decide
  rw [z0] at e1
  rw [f4] at e2
  exact ⟨e1, e2⟩

/-- Under the precondition every target and every matched-prototype index lies in 0 … 3. -/
theorem ranges {F : FTy → Type} [FloatOps F] (a0 : FVec F S16x16x512x512 .f32) (a1 : FVec F S4x4x16 .f32)
    (a2 : IVec S16x512x512x4 32) (a3 : IVec S16x512x512 32) (a4 : IVec S512x512 32) (a5 : IVec S16x512x512 1)
    (h : fn (F := F) a0 a1 a2 a3 a4 a5 = fun _ => 1#1) :
    (∀ p : S16x512x512.Idx, 0 ≤ (a3 p).toInt ∧ (a3 p).toInt < 4)
      ∧ (∀ q : S16x512x512x4.Idx, 0 ≤ (a2 q).toInt ∧ (a2 q).toInt < 4) := by
  have h0 := congrFun h ValueIdx.ix0
  dsimp only [fn, fn_part1] at h0
  obtain ⟨h123, h4⟩ := IntOp.andi_eq_one.1 (show IntOp.andi _ _ = 1#1 from h0)
  obtain ⟨_, h3⟩ := IntOp.andi_eq_one.1 (show IntOp.andi _ _ = 1#1 from h123)
  refine ⟨fun p => ?_, fun q => ?_⟩
  · have e := Host.reduce_andi_all _ _ _ _ _ h3 p
    exact range_of_cmp rfl rfl (show IntOp.andi _ _ = 1#1 from e)
  · have e := Host.reduce_andi_all _ _ _ _ _ h4 q
    exact range_of_cmp rfl rfl (show IntOp.andi _ _ = 1#1 from e)

end Cert.PreDecode

end
-- ==== Proof.SpecLaws.lean ====
/-
  The two readings of one accumulation agree.

  For the twelve groups g = 4 … 15 the kernel's tile-by-tile sum of rep · [sel = g] is the
  reference's sum, over the pixels whose group word is g, of rep · weight: a weighted pixel has
  sel = its group word, an unweighted one has sel = -1 (never a group) and weight 0, and the
  image rows are the four tiles' rows. For the groups 0 … 3 the reference's count is zero as soon as
  no weighted pixel has such a group word, and a zero count leaves the table entry as it is.
-/
import proofs.«425919_j61589831024790_3_alg».proof.Proof.Spec
import Idealize.ShloMosaic.Lib.StableHlo.Predicate

noncomputable section

namespace Cert.Spec

open Idealize.ShloMosaic Idealize.ShloMosaic.ValueIdx

/-- The image rows are the rows of the four tiles of 128. -/
def rowEquiv : Fin 4 × Fin 128 ≃ Fin 512 where
  toFun p := rowOf p.1 p.2
  invFun y := (⟨y.val / 128, by omega⟩, ⟨y.val % 128, by omega⟩)
  left_inv := by
    rintro ⟨h, r⟩
    refine Prod.ext (Fin.ext ?_) (Fin.ext ?_)
    · show (128 * h.val + r.val) / 128 = h.val
      omega
    · show (128 * h.val + r.val) % 128 = r.val
      omega
  right_inv := by
    intro y
    apply Fin.ext
    show 128 * (y.val / 128) + y.val % 128 = y.val
    omega

/-- A sum over the image rows is the sum over the tiles of the sums over each tile's rows. -/
theorem sum_rows {M : Type} [AddCommMonoid M] (f : Fin 512 → M) :
    ∑ y : Fin 512, f y = ∑ h : Fin 4, ∑ r : Fin 128, f (rowOf h r) := by
  rw [← Equiv.sum_comp rowEquiv f, Fintype.sum_prod_type]
  rfl

/-- Tile by tile, then batch by batch, is batch by batch over whole images. -/
theorem sum_tiles {M : Type} [AddCommMonoid M] (f : Fin 16 → Fin 512 → Fin 512 → M) :
    ∑ h : Fin 4, ∑ b : Fin 16, ∑ r : Fin 128, ∑ w : Fin 512, f b (rowOf h r) w
      = ∑ b : Fin 16, ∑ y : Fin 512, ∑ w : Fin 512, f b y w := by
  rw [Finset.sum_comm]
  refine Finset.sum_congr rfl fun b _ => ?_
  rw [sum_rows (fun y => ∑ w : Fin 512, f b y w)]

theorem bit_cases (v : BitVec 1) : v = 0#1 ∨ v = 1#1 := by revert v; decide

theorem wgt_one : wgt 1#1 = 1 := by simp [wgt]
theorem wgt_zero : wgt 0#1 = 0 := by simp [wgt]

/-- A group word read signed is a small number exactly when it is that number's word. -/
theorem toInt_eq_small (gw : BitVec 32) (n : ℕ) (hn : n < 2 ^ 31) :
    gw.toInt = (n : ℤ) ↔ gw = BitVec.ofNat 32 n := by
  constructor
  · intro h
    apply BitVec.eq_of_toInt_eq
    rw [h, StableHlo.Predicate.toInt_ofNat_small n hn]
  · rintro rfl
    exact StableHlo.Predicate.toInt_ofNat_small n hn

/-- One pixel's term for group k + 4: rep · weight under "the group word is k + 4" is rep · [sel = k + 4]. -/
theorem term_eq (a : EReal) (v : BitVec 1) (gw : BitVec 32) (k : Fin 12) :
    (if gw.toInt = ((k.val + 4 : ℕ) : ℤ) then a * wgt v else 0)
      = a * ind (Scalar.select v gw 4294967295#32) (BitVec.ofNat 32 (k.val + 4)) := by
  have hk : k.val + 4 < 2 ^ 31 := by have := k.isLt; omega
  rcases bit_cases v with rfl | rfl
  · have hne : ¬ (4294967295#32 : BitVec 32) = BitVec.ofNat 32 (k.val + 4) := by
      intro h
      have h' := congrArg BitVec.toNat h
      rw [BitVec.toNat_ofNat, Nat.mod_eq_of_lt (by omega)] at h'
      have := k.isLt
      simp at h'
      omega
    rw [wgt_zero, mul_zero, ite_self, select_zero, ind, if_neg hne, mul_zero]
  · rw [wgt_one, mul_one, select_one, ind]
    by_cases h : gw = BitVec.ofNat 32 (k.val + 4)
    · rw [if_pos ((toInt_eq_small gw _ hk).2 h), if_pos h, mul_one]
    · rw [if_neg (fun h' => h ((toInt_eq_small gw _ hk).1 h')), if_neg h, mul_zero]

/-- The same for the counts. -/
theorem term_eq_cnt (v : BitVec 1) (gw : BitVec 32) (k : Fin 12) :
    (if gw.toInt = ((k.val + 4 : ℕ) : ℤ) then wgt v else 0)
      = ind (Scalar.select v gw 4294967295#32) (BitVec.ofNat 32 (k.val + 4)) := by
  have h := term_eq 1 v gw k
  rwa [one_mul, one_mul] at h

section Pixels

variable (rep : SRep.Idx → EReal) (selm : SMask.Idx → BitVec 32) (tgt : SPix.Idx → BitVec 32)
  (cond : SPix.Idx → BitVec 1) (mat : SPix.Idx → BitVec 32)

/-- For the groups 4 … 15 the kernel's sum is the reference's. -/
theorem kerSum_eq_refSum (k : Fin 12) (ch : Fin 16) :
    kerSum rep (selw selm tgt cond mat) k ch
      = refSum rep (vbit selm tgt cond) (gidw tgt mat) ⟨k.val + 4, by omega⟩ ch := by
  unfold kerSum refSum tileSum
  rw [sum_tiles (fun b y w => rep (ix4 b ch y w) * ind (selw selm tgt cond mat b y w) (BitVec.ofNat 32 (k.val + 4)))]
  congr 1
  refine Finset.sum_congr rfl fun b _ => Finset.sum_congr rfl fun y _ => Finset.sum_congr rfl fun x _ => ?_
  exact (term_eq _ _ _ k).symm

/-- For the groups 4 … 15 the kernel's count is the reference's. -/
theorem kerCnt_eq_refCnt (k : Fin 12) :
    kerCnt (selw selm tgt cond mat) k = refCnt (vbit selm tgt cond) (gidw tgt mat) ⟨k.val + 4, by omega⟩ := by
  unfold kerCnt refCnt tileCnt
  rw [sum_tiles (fun b y w => ind (selw selm tgt cond mat b y w) (BitVec.ofNat 32 (k.val + 4)))]
  congr 1
  refine Finset.sum_congr rfl fun b _ => Finset.sum_congr rfl fun y _ => Finset.sum_congr rfl fun x _ => ?_
  exact (term_eq_cnt _ _ k).symm

end Pixels

/-- A group no weighted pixel falls in has count zero (plus the zero scattered into). -/
theorem refCnt_of_empty (vb : Fin 16 → Fin 512 → Fin 512 → BitVec 1) (gw : Fin 16 → Fin 512 → Fin 512 → BitVec 32) (g : Fin 16)
    (H : ∀ b y x, vb b y x = 1#1 → (gw b y x).toInt ≠ (g.val : ℤ)) : refCnt vb gw g = zero + 0 := by
  unfold refCnt
  congr 1
  refine Finset.sum_eq_zero fun b _ => Finset.sum_eq_zero fun y _ => Finset.sum_eq_zero fun x _ => ?_
  rcases bit_cases (vb b y x) with h | h
  · rw [h, wgt_zero, ite_self]
  · rw [if_neg (H b y x h)]

/-- A zero count leaves the table entry as it is. -/
theorem upd_zero_count (s p : EReal) : upd s (zero + 0) p = p := by
  unfold upd
  have h : Ideal.cmp .ogt (zero + 0) zero = 0#1 := by
    simp [Ideal.cmp, zero]
  rw [h, select_zero]

/-- With no weighted pixel in the groups 0 … 3, the kernel's updated table is the reference's. -/
theorem Uker_eq_Uref (rep : SRep.Idx → EReal) (P : SProto.Idx → EReal) (selm : SMask.Idx → BitVec 32) (tgt : SPix.Idx → BitVec 32)
    (cond : SPix.Idx → BitVec 1) (mat : SPix.Idx → BitVec 32)
    (H : ∀ b y x, vbit selm tgt cond b y x = 1#1 → ∀ g : Fin 16, g.val < 4 → (gidw tgt mat b y x).toInt ≠ (g.val : ℤ))
    (g ch : Fin 16) :
    Uker (kerSum rep (selw selm tgt cond mat)) (kerCnt (selw selm tgt cond mat)) P g ch
      = Uref (refSum rep (vbit selm tgt cond) (gidw tgt mat)) (refCnt (vbit selm tgt cond) (gidw tgt mat)) P g ch := by
  unfold Uker Uref
  by_cases hg : g.val < 4
  · rw [dif_pos hg, refCnt_of_empty _ _ g (fun b y x hv => H b y x hv g hg), upd_zero_count]
  · rw [dif_neg hg]
    have hge : ((⟨g.val - 4 + 4, by omega⟩ : Fin 16)) = g := Fin.ext (by show g.val - 4 + 4 = g.val; omega)
    rw [kerSum_eq_refSum, kerCnt_eq_refCnt]
    simp only [hge]

/-- A word that reads signed as 0 … 3 reads unsigned as 0 … 3. -/
theorem small_toNat (u : BitVec 32) (h : 0 ≤ u.toInt ∧ u.toInt < 4) : u.toNat < 4 := by
  have hlt := u.isLt
  have e := BitVec.toInt_eq_toNat_cond u
  have h32 : (2 : ℕ) ^ 32 = 4294967296 := by norm_num
  rw [h32] at e hlt
  by_cases c : 2 * u.toNat < 4294967296
  · rw [if_pos c] at e
    omega
  · rw [if_neg c] at e
    omega

/-- The arithmetic of the group word: a target in 1 … 3 with a matched index in 0 … 3, or with the out-of-range
    fill word, never gives a group word in 0 … 3: 4 · t + m lies in 4 … 15, and 4 · t + 2³¹ reads negative. -/
theorem gid_not_small (t mt : BitVec 32) (ht : 0 ≤ t.toInt ∧ t.toInt < 4)
    (hm : (0 ≤ mt.toInt ∧ mt.toInt < 4) ∨ mt = 0x80000000#32) (hne : t ≠ 0#32) (g : Fin 16) (hg : g.val < 4) :
    (IntOp.addi (IntOp.muli t 4#32) mt).toInt ≠ (g.val : ℤ) := by
  have h32 : (2 : ℕ) ^ 32 = 4294967296 := by norm_num
  have htn := small_toNat t ht
  have htz : t.toNat ≠ 0 := fun h => hne (BitVec.eq_of_toNat_eq (by rw [h]; rfl))
  have hn : (IntOp.addi (IntOp.muli t 4#32) mt).toNat = (t.toNat * 4 % 4294967296 + mt.toNat) % 4294967296 := by
    show (t * 4#32 + mt).toNat = _
    rw [BitVec.toNat_add, BitVec.toNat_mul, h32]
    rfl
  have e := BitVec.toInt_eq_toNat_cond (IntOp.addi (IntOp.muli t 4#32) mt)
  rw [h32] at e
  intro hgg
  rcases hm with hm | hm
  · have hmn := small_toNat mt hm
    by_cases c : 2 * (IntOp.addi (IntOp.muli t 4#32) mt).toNat < 4294967296
    · rw [if_pos c] at e
      omega
    · rw [if_neg c] at e
      omega
  · have hmn : mt.toNat = 2147483648 := by rw [hm]; rfl
    by_cases c : 2 * (IntOp.addi (IntOp.muli t 4#32) mt).toNat < 4294967296
    · rw [if_pos c] at e
      omega
    · rw [if_neg c] at e
      omega

end Cert.Spec

end
-- ==== Proof.Bridge.lean ====
/-
  The two results are one function of the arguments.

  Both are the normalised rows of an updated table. The reference updates row g from the scattered sum and count of
  the pixels whose group word is g; the kernel updates rows 4 … 15 from its tile sums over sel and leaves rows 0 … 3.
  The matched-prototype index array is one function in both programs, every entry of it an entry of the index input or
  the out-of-range fill word; under the precondition (targets and indices in 0 … 3) a weighted pixel has a target in
  1 … 3, so its group word 4 · target + matched is never in 0 … 3: the reference's counts of those groups are zero and
  it leaves those rows too.
-/
import proofs.«425919_j61589831024790_3_alg».proof.Proof.KValue
import proofs.«425919_j61589831024790_3_alg».proof.Proof.KHost
import proofs.«425919_j61589831024790_3_alg».proof.Proof.RRef
import proofs.«425919_j61589831024790_3_alg».proof.Proof.KMatched
import proofs.«425919_j61589831024790_3_alg».proof.Proof.PreDecode
import proofs.«425919_j61589831024790_3_alg».proof.Proof.SpecLaws
import proofs.«425919_j61589831024790_3_alg».proof.Proof.Gen.Pre_finite_inputs

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The matched-prototype index array of the reference, at the kernel program's arguments. -/
abbrev matR (c : Dev nD) : Cert.Spec.SPix.Idx → BitVec 32 :=
  Cert.ReferenceIdeal.Read.val_main_v10 (F := Ideal) (m ((c.tc : Thread nD τ).loc main_arg2)) (m ((c.tc : Thread nD τ).loc main_arg3))

/-- Under the precondition no weighted pixel has a group word in 0 … 3. -/
theorem no_small_group (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1)
    (b : Fin 16) (y x : Fin 512)
    (hv : Cert.Spec.vbit (m ((c.tc : Thread nD τ).loc main_arg4)) (m ((c.tc : Thread nD τ).loc main_arg3)) (m ((c.tc : Thread nD τ).loc main_arg5)) b y x = 1#1)
    (g : Fin 16) (hg : g.val < 4) :
    (Cert.Spec.gidw (m ((c.tc : Thread nD τ).loc main_arg3)) (matR m c) b y x).toInt ≠ (g.val : ℤ) := by
  obtain ⟨hr3, hr2⟩ := Cert.PreDecode.ranges _ _ _ _ _ _ hpre
  have ht := hr3 (ix3 b y x)
  have hne : m ((c.tc : Thread nD τ).loc main_arg3) (ix3 b y x) ≠ 0#32 := by
    unfold Cert.Spec.vbit at hv
    obtain ⟨h12, _⟩ := IntOp.andi_eq_one.1 hv
    obtain ⟨_, h2⟩ := IntOp.andi_eq_one.1 h12
    exact IntOp.cmpi_ne.1 h2
  have hm : (0 ≤ (matR m c (ix3 b y x)).toInt ∧ (matR m c (ix3 b y x)).toInt < 4) ∨ matR m c (ix3 b y x) = 0x80000000#32 := by
    rcases Cert.Matched.matched_cases (m ((c.tc : Thread nD τ).loc main_arg2)) (m ((c.tc : Thread nD τ).loc main_arg3)) (ix3 b y x) with ⟨q, hq⟩ | h
    · exact Or.inl (by rw [show matR m c (ix3 b y x) = _ from hq]; exact hr2 q)
    · exact Or.inr h
  exact Cert.Spec.gid_not_small _ _ ht hm hne g hg

/-- The reference's result at the kernel program's arguments is the kernel program's result. -/
theorem ref_eq_ker (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Read.val_main_v48 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = Cert.KernelIdeal.KValue.GK m c := by
  funext i
  obtain ⟨a, b, ch, rfl⟩ : ∃ (a b : Fin 4) (ch : Fin 16), i = ix3 a b ch := ⟨i 0, i 1, i 2, eq_ix3 i⟩
  rw [Cert.ReferenceIdeal.RefValue.result_apply]
  have hsel : Cert.KernelIdeal.KValue.selA m c = Cert.Spec.selw (m ((c.tc : Thread nD τ).loc main_arg4)) (m ((c.tc : Thread nD τ).loc main_arg3))
      (m ((c.tc : Thread nD τ).loc main_arg5)) (matR m c) := by
    funext b' y x
    unfold Cert.KernelIdeal.KValue.selA
    rw [Cert.KernelIdeal.Host.V14_apply m c b' y x, Cert.Matched.matched_agree m c]
  have hrep : Cert.KernelIdeal.KValue.repA m c = m ((c.tc : Thread nD τ).loc main_arg0) := V_main_arg0 m c
  show _ = Cert.Spec.result (Cert.Spec.Uker (Cert.Spec.kerSum (Cert.KernelIdeal.KValue.repA m c) (Cert.KernelIdeal.KValue.selA m c))
    (Cert.Spec.kerCnt (Cert.KernelIdeal.KValue.selA m c)) (m ((c.tc : Thread nD τ).loc main_arg1))) a b ch
  rw [hsel, hrep]
  unfold Cert.Spec.result
  refine congrArg (fun U => Cert.Spec.rowOut U ch) (funext fun ch' => ?_)
  exact (Cert.Spec.Uker_eq_Uref _ _ _ _ _ _ (no_small_group m c hpre) (Cert.Spec.grp a b) ch').symm

end Cert.Bridge

end
-- ==== Proof.lean ====
/-
  The kernel accumulates, tile by tile, per-group sums and counts of the selected pixels' feature vectors for the
  twelve groups 4 … 15, and the host finishes the prototype table (a momentum mix towards the group mean where the
  group is not empty, then a row normalisation), leaving rows 0 … 3 of the table untouched before normalising; the
  reference does the same for all sixteen groups with two scatter-adds. Under the precondition (finite floats; targets
  and matched-prototype indices in 0 … 3) a selected pixel has a nonzero target, so its group 4 · target + matched is
  never one of 0 … 3: those groups are empty in the reference too, and the two results agree entry by entry over the
  extended reals (only commutativity and associativity of the sums are used; the float literals are the same words on
  both sides).

  Kernel side: the pieces each control case leaves (KPieces) over the tile vocabulary (KTile, read at an index in
  KTileIdeal), the induction over the grid (KGrid), blocks and write-backs (KBlocks), the host operations before and
  after the region (KHost), assembled in KValue. Reference side: its run stage by stage (RRun), its result read at an
  index with the scatter-adds decoded (RRef, LibScatter). The bridge: Spec, SpecLaws, KMatched, PreDecode, Bridge.
-/
import proofs.«425919_j61589831024790_3_alg».proof.Defs
import proofs.«425919_j61589831024790_3_alg».proof.Proof.Gen.Kernel
import proofs.«425919_j61589831024790_3_alg».proof.Proof.Gen.Kernel.Skeleton
import proofs.«425919_j61589831024790_3_alg».proof.Proof.Gen.Kernel.Launch
import proofs.«425919_j61589831024790_3_alg».proof.Proof.Gen.Kernel.Points
import proofs.«425919_j61589831024790_3_alg».proof.Proof.Gen.Kernel.Frame
import proofs.«425919_j61589831024790_3_alg».proof.Proof.Gen.KernelIdeal
import proofs.«425919_j61589831024790_3_alg».proof.Proof.Gen.KernelIdeal.Skeleton
import proofs.«425919_j61589831024790_3_alg».proof.Proof.Gen.KernelIdeal.Launch
import proofs.«425919_j61589831024790_3_alg».proof.Proof.Gen.KernelIdeal.Points
import proofs.«425919_j61589831024790_3_alg».proof.Proof.Gen.KernelIdeal.Frame
import proofs.«425919_j61589831024790_3_alg».proof.Proof.Gen.ReferenceIdeal
import proofs.«425919_j61589831024790_3_alg».proof.Proof.Gen.Pre_finite_inputs
import proofs.«425919_j61589831024790_3_alg».proof.Proof.RRun
import proofs.«425919_j61589831024790_3_alg».proof.Proof.KValue
import proofs.«425919_j61589831024790_3_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- The ideal pass rewrote nothing. -/
theorem preserves : Cert.preserves_Kernel_KernelIdeal := trivial

/-- From memories agreeing on the arguments both programs run, and the reference's result is the kernel program's. -/
theorem algebraic : Cert.algebraic_KernelIdeal_ReferenceIdeal := by
  intro m ρ m' ρ' hpre hagree
  refine ⟨fun c => Cert.KernelIdeal.KValue.GK m c, Cert.KernelIdeal.KValue.run m ρ, ?_⟩
  refine (θ_run Cert.ReferenceIdeal.defs _ _).mono (fun _ h c => ⟨(h c).1.trans ?_, (h c).2⟩)
    (Cert.ReferenceIdeal.RRun.run (F := Ideal) m' ρ')
  obtain ⟨e0, e1, e2, e3, e4, e5⟩ := hagree c
  rw [e0, e1, e2, e3, e4, e5]
  exact Cert.Bridge.ref_eq_ker m c (hpre c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
